-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S4096x12288 : Shape := ⟨2, ![4096, 12288]⟩
abbrev S8x4096x48 : Shape := ⟨3, ![8, 4096, 48]⟩
abbrev S8x16x4096 : Shape := ⟨3, ![8, 16, 4096]⟩
abbrev S8x16x8192 : Shape := ⟨3, ![8, 16, 8192]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x12288 : S_.BroadcastsInDim S4096x12288 (![] : Fin 0 → Fin S4096x12288.rank)
  reducesTo_S4096x12288_S_d0_1 : S4096x12288.ReducesTo [0, 1] S_
  bcast_S_S8x4096x48 : S_.BroadcastsInDim S8x4096x48 (![] : Fin 0 → Fin S8x4096x48.rank)
  reducesTo_S8x4096x48_S_d0_1_2 : S8x4096x48.ReducesTo [0, 1, 2] S_
  bcast_S_S8x16x4096 : S_.BroadcastsInDim S8x16x4096 (![] : Fin 0 → Fin S8x16x4096.rank)
  reducesTo_S8x16x4096_S_d0_1_2 : S8x16x4096.ReducesTo [0, 1, 2] S_
  bcast_S_S8x16x8192 : S_.BroadcastsInDim S8x16x8192 (![] : Fin 0 → Fin S8x16x8192.rank)
  reducesTo_S8x16x8192_S_d0_1_2 : S8x16x8192.ReducesTo [0, 1, 2] S_

variable [Facts]

def fn_part1 {F : FTy → Type} [FloatOps F] (main_arg5 : FVec F S8x16x8192 .f32) (main_v13 : IVec S_ 1) (main_v16 : IVec S8x16x4096 1) : IVec S_ 1 :=
  let main_c_5 : IVec S_ 1 := constantI S_ 1 1#1
  let main_v17 : IVec S_ 1 := (fun x v => Host.reduce IntOp.andi x v reducesTo_S8x16x4096_S_d0_1_2 h_S_) main_v16 main_c_5
  let main_v18 : IVec S_ 1 := andi main_v13 main_v17
  let main_v19 : FVec F S8x16x8192 .f32 := Host.absf main_arg5
  let main_cst_6 : FVec F S_ .f32 := constant S_ .f32 0x7F800000#32
  let main_v20 : FVec F S8x16x8192 .f32 := broadcastInDim S8x16x8192 ![] bcast_S_S8x16x8192 main_cst_6
  let main_v21 : IVec S8x16x8192 1 := cmpf .olt main_v19 main_v20
  let main_c_7 : IVec S_ 1 := constantI S_ 1 1#1
  let main_v22 : IVec S_ 1 := (fun x v => Host.reduce IntOp.andi x v reducesTo_S8x16x8192_S_d0_1_2 h_S_) main_v21 main_c_7
  let main_v23 : IVec S_ 1 := andi main_v18 main_v22
  main_v23

def fn {F : FTy → Type} [FloatOps F] (main_arg0 : FVec F S4096x4096 .f32) (main_arg1 : IVec S4096 32) (main_arg2 : FVec F S4096x12288 .f32) (main_arg3 : FVec F S8x4096x48 .f32) (main_arg4 : FVec F S8x16x4096 .f32) (main_arg5 : FVec F S8x16x8192 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x12288 .f32 := Host.absf main_arg2
  let main_cst_0 : FVec F S_ .f32 := constant S_ .f32 0x7F800000#32
  let main_v5 : FVec F S4096x12288 .f32 := broadcastInDim S4096x12288 ![] bcast_S_S4096x12288 main_cst_0
  let main_v6 : IVec S4096x12288 1 := cmpf .olt main_v4 main_v5
  let main_c_1 : IVec S_ 1 := constantI S_ 1 1#1
  let main_v7 : IVec S_ 1 := (fun x v => Host.reduce IntOp.andi x v reducesTo_S4096x12288_S_d0_1 h_S_) main_v6 main_c_1
  let main_v8 : IVec S_ 1 := andi main_v3 main_v7
  let main_v9 : FVec F S8x4096x48 .f32 := Host.absf main_arg3
  let main_cst_2 : FVec F S_ .f32 := constant S_ .f32 0x7F800000#32
  let main_v10 : FVec F S8x4096x48 .f32 := broadcastInDim S8x4096x48 ![] bcast_S_S8x4096x48 main_cst_2
  let main_v11 : IVec S8x4096x48 1 := cmpf .olt main_v9 main_v10
  let main_c_3 : IVec S_ 1 := constantI S_ 1 1#1
  let main_v12 : IVec S_ 1 := (fun x v => Host.reduce IntOp.andi x v reducesTo_S8x4096x48_S_d0_1_2 h_S_) main_v11 main_c_3
  let main_v13 : IVec S_ 1 := andi main_v8 main_v12
  let main_v14 : FVec F S8x16x4096 .f32 := Host.absf main_arg4
  let main_cst_4 : FVec F S_ .f32 := constant S_ .f32 0x7F800000#32
  let main_v15 : FVec F S8x16x4096 .f32 := broadcastInDim S8x16x4096 ![] bcast_S_S8x16x4096 main_cst_4
  let main_v16 : IVec S8x16x4096 1 := cmpf .olt main_v14 main_v15
  fn_part1 (F := F) main_arg5 main_v13 main_v16
-- ==== Kernel.lean ====
abbrev S4096x4096 : Shape := ⟨2, ![4096, 4096]⟩
abbrev S4096 : Shape := ⟨1, ![4096]⟩
abbrev S4096x12288 : Shape := ⟨2, ![4096, 12288]⟩
abbrev S8x4096x48 : Shape := ⟨3, ![8, 4096, 48]⟩
abbrev S8x16x4096 : Shape := ⟨3, ![8, 16, 4096]⟩
abbrev S8x16x8192 : Shape := ⟨3, ![8, 16, 8192]⟩
abbrev S8x16x12288 : Shape := ⟨3, ![8, 16, 12288]⟩
abbrev S128x12288 : Shape := ⟨2, ![128, 12288]⟩
abbrev S4096x8x48 : Shape := ⟨3, ![4096, 8, 48]⟩
abbrev S4096x384 : Shape := ⟨2, ![4096, 384]⟩
abbrev S4096x8x16 : Shape := ⟨3, ![4096, 8, 16]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x8x1 : Shape := ⟨3, ![4096, 8, 1]⟩
abbrev S4096x128 : Shape := ⟨2, ![4096, 128]⟩
abbrev S1x4096x128 : Shape := ⟨3, ![1, 4096, 128]⟩
abbrev S3x4096x128 : Shape := ⟨3, ![3, 4096, 128]⟩
abbrev S1024x1024 : Shape := ⟨2, ![1024, 1024]⟩
abbrev S1024x2048 : Shape := ⟨2, ![1024, 2048]⟩
abbrev S1x1024x128 : Shape := ⟨3, ![1, 1024, 128]⟩
abbrev S128x2048 : Shape := ⟨2, ![128, 2048]⟩
abbrev S1024x128 : Shape := ⟨2, ![1024, 128]⟩

abbrev nBuf : Space → Nat
  | .hbm => 42
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096, .i32⟩
  | .hbm, ⟨2, _⟩ => ⟨S4096x12288, .f32⟩
  | .hbm, ⟨3, _⟩ => ⟨S8x4096x48, .f32⟩
  | .hbm, ⟨4, _⟩ => ⟨S8x16x4096, .f32⟩
  | .hbm, ⟨5, _⟩ => ⟨S8x16x8192, .f32⟩
  | .hbm, ⟨6, _⟩ => ⟨S8x16x12288, .f32⟩
  | .hbm, ⟨7, _⟩ => ⟨S128x12288, .f32⟩
  | .hbm, ⟨8, _⟩ => ⟨S4096x8x48, .f32⟩
  | .hbm, ⟨9, _⟩ => ⟨S4096x384, .f32⟩
  | .hbm, ⟨10, _⟩ => ⟨S4096x4096, .bf16⟩
  | .hbm, ⟨11, _⟩ => ⟨S4096x384, .bf16⟩
  | .hbm, ⟨12, _⟩ => ⟨S4096x384, .f32⟩
  | .hbm, ⟨13, _⟩ => ⟨S4096x8x48, .f32⟩
  | .hbm, ⟨14, _⟩ => ⟨S4096x8x16, .f32⟩
  | .hbm, ⟨15, _⟩ => ⟨S4096x8x16, .f32⟩
  | .hbm, ⟨16, _⟩ => ⟨S4096x8x16, .f32⟩
  | .hbm, ⟨17, _⟩ => ⟨S8, .i32⟩
  | .hbm, ⟨18, _⟩ => ⟨S4096x1, .i32⟩
  | .hbm, ⟨19, _⟩ => ⟨S1x8, .i32⟩
  | .hbm, ⟨20, _⟩ => ⟨S4096x8, .i32⟩
  | .hbm, ⟨21, _⟩ => ⟨S4096x8, .i32⟩
  | .hbm, ⟨22, _⟩ => ⟨S4096x8, .i1⟩
  | .hbm, ⟨23, _⟩ => ⟨S4096x8, .f32⟩
  | .hbm, ⟨24, _⟩ => ⟨S4096x8x1, .f32⟩
  | .hbm, ⟨25, _⟩ => ⟨S4096x8x16, .f32⟩
  | .hbm, ⟨26, _⟩ => ⟨S4096x8x16, .f32⟩
  | .hbm, ⟨27, _⟩ => ⟨S4096x128, .f32⟩
  | .hbm, ⟨28, _⟩ => ⟨S4096x8x16, .f32⟩
  | .hbm, ⟨29, _⟩ => ⟨S4096x8x16, .f32⟩
  | .hbm, ⟨30, _⟩ => ⟨S4096x128, .f32⟩
  | .hbm, ⟨31, _⟩ => ⟨S4096x8x16, .f32⟩
  | .hbm, ⟨32, _⟩ => ⟨S4096x8x16, .f32⟩
  | .hbm, ⟨33, _⟩ => ⟨S4096x128, .f32⟩
  | .hbm, ⟨34, _⟩ => ⟨S1x4096x128, .f32⟩
  | .hbm, ⟨35, _⟩ => ⟨S1x4096x128, .f32⟩
  | .hbm, ⟨36, _⟩ => ⟨S1x4096x128, .f32⟩
  | .hbm, ⟨37, _⟩ => ⟨S3x4096x128, .f32⟩
  | .hbm, ⟨38, _⟩ => ⟨S3x4096x128, .bf16⟩
  | .hbm, ⟨39, _⟩ => ⟨S4096x12288, .bf16⟩
  | .hbm, ⟨40, _⟩ => ⟨S128x12288, .bf16⟩
  | .hbm, ⟨41, _⟩ => ⟨S4096x12288, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024x128, .bf16⟩
  | .local _ .vmem, ⟨5, _⟩ => ⟨S1x1024x128, .bf16⟩
  | .local _ .vmem, ⟨6, _⟩ => ⟨S128x2048, .bf16⟩
  | .local _ .vmem, ⟨7, _⟩ => ⟨S128x2048, .bf16⟩
  | .local _ .vmem, ⟨8, _⟩ => ⟨S1024x2048, .f32⟩
  | .local _ .vmem, ⟨9, _⟩ => ⟨S1024x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 6, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg0.toNat, c0_i32_4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  concatenates_S8x16x4096_S8x16x8192_S8x16x12288_d2 : Shape.Concatenates [S8x16x4096, S8x16x8192] S8x16x12288 2
  shapeCasts_S8x16x12288_S128x12288 : S8x16x12288.ShapeCasts S128x12288
  transposes_S8x4096x48_S4096x8x48_1_0_2 : S8x4096x48.Transposes [1, 0, 2] S4096x8x48
  shapeCasts_S4096x8x48_S4096x384 : S4096x8x48.ShapeCasts S4096x384
  bitsLt_bf16_f32 : FTy.bits .bf16 < FTy.bits .f32
  shapeCasts_S4096x384_S4096x8x48 : S4096x384.ShapeCasts S4096x8x48
  slices_S4096x8x48_S4096x8x16_0_0_0 : S4096x8x48.Slices ![0, 0, 0] S4096x8x16
  slices_S4096x8x48_S4096x8x16_0_0_16 : S4096x8x48.Slices ![0, 0, 16] S4096x8x16
  slices_S4096x8x48_S4096x8x16_0_0_32 : S4096x8x48.Slices ![0, 0, 32] S4096x8x16
  bcast_S4096_S4096x1_0 : S4096.BroadcastsInDim S4096x1 (![0] : Fin 1 → Fin S4096x1.rank)
  bcast_S8_S1x8_1 : S8.BroadcastsInDim S1x8 (![1] : Fin 1 → Fin S1x8.rank)
  bcast_S4096x1_S4096x8_0_1 : S4096x1.BroadcastsInDim S4096x8 (![0, 1] : Fin 2 → Fin S4096x8.rank)
  bcast_S1x8_S4096x8_0_1 : S1x8.BroadcastsInDim S4096x8 (![0, 1] : Fin 2 → Fin S4096x8.rank)
  bcast_S4096x8_S4096x8x1_0_1 : S4096x8.BroadcastsInDim S4096x8x1 (![0, 1] : Fin 2 → Fin S4096x8x1.rank)
  bcast_S4096x8x1_S4096x8x16_0_1_2 : S4096x8x1.BroadcastsInDim S4096x8x16 (![0, 1, 2] : Fin 3 → Fin S4096x8x16.rank)
  shapeCasts_S4096x8x16_S4096x128 : S4096x8x16.ShapeCasts S4096x128
  bcast_S4096x128_S1x4096x128_1_2 : S4096x128.BroadcastsInDim S1x4096x128 (![1, 2] : Fin 2 → Fin S1x4096x128.rank)
  concatenates_S1x4096x128_S1x4096x128_S1x4096x128_S3x4096x128_d0 : Shape.Concatenates [S1x4096x128, S1x4096x128, S1x4096x128] S3x4096x128 0
  inb_S1024x2048_S1024x2048_0_0 : ∀ a, (![0, 0] : Fin 2 → Nat) a + S1024x2048.size a ≤ S1024x2048.size a
  h_S1024x2048 : 0 < S1024x2048.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x2048_S1024x2048 : S1024x2048.ShapeCasts S1024x2048
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  dot_S4096x4096_S4096x384_S4096x384_1_0_0_1_n_n_wf : DotDims.WF S4096x4096 S4096x384 S4096x384 [1] [0] [0] [1] [] []
  dot_S1024x1024_S1024x2048_S1024x2048_1_0_0_1_n_n_wf : DotDims.WF S1024x1024 S1024x2048 S1024x2048 [1] [0] [0] [1] [] []
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x12288.size a
  hwx0_1 : ∀ i : grid0.Coords, EltTy.bits .bf16 = 32 ∨ (Rect.block (s := S4096x12288) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S3x4096x128.size a
  hwx0_2 : ∀ i : grid0.Coords, EltTy.bits .bf16 = 32 ∨ (Rect.block (s := S3x4096x128) S1x1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x12288.size a
  hwx0_3 : ∀ i : grid0.Coords, EltTy.bits .bf16 = 32 ∨ (Rect.block (s := S128x12288) S128x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S4096x12288.size a
  hwx0_4 : ∀ i : grid0.Coords, EltTy.bits .f32 = 32 ∨ (Rect.block (s := S4096x12288) S1024x2048.size (cc0_transform_4 i) (hinb0_4 i)).WholeWords (EltTy.packing .f32)

variable [Facts₀]

def dot_S4096x4096_S4096x384_S4096x384_1_0_0_1_n_n : DotDims S4096x4096 S4096x384 S4096x384 where
  lhsContracting := [1]
  rhsContracting := [0]
  lhsNonContracting := [0]
  rhsNonContracting := [1]
  lhsBatch := []
  rhsBatch := []
  wf := dot_S4096x4096_S4096x384_S4096x384_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S4096x12288 : Shape := ⟨2, ![4096, 12288]⟩
abbrev S8x4096x48 : Shape := ⟨3, ![8, 4096, 48]⟩
abbrev S8x16x4096 : Shape := ⟨3, ![8, 16, 4096]⟩
abbrev S8x16x8192 : Shape := ⟨3, ![8, 16, 8192]⟩
abbrev S_ : Shape := ⟨0, ![]⟩
abbrev S4096x1 : Shape := ⟨2, ![4096, 1]⟩
abbrev S1x4096x48 : Shape := ⟨3, ![1, 4096, 48]⟩
abbrev S4096x48 : Shape := ⟨2, ![4096, 48]⟩
abbrev S4096x16 : Shape := ⟨2, ![4096, 16]⟩
abbrev S1x16x4096 : Shape := ⟨3, ![1, 16, 4096]⟩
abbrev S16x4096 : Shape := ⟨2, ![16, 4096]⟩
abbrev S1x16x8192 : Shape := ⟨3, ![1, 16, 8192]⟩
abbrev S16x8192 : Shape := ⟨2, ![16, 8192]⟩
abbrev S1 : Shape := ⟨1, ![1]⟩

abbrev nBuf : Space → Nat
  | .hbm => 274
  | .vmem => 0
  | .smem => 0
  | _ => 0

abbrev hbmTy0_0 (i : Nat) : BufTy := match i % 128 with
  | 0 => ⟨S4096x4096, .f32⟩
  | 1 => ⟨S4096, .i32⟩
  | 2 => ⟨S4096x12288, .f32⟩
  | 3 => ⟨S8x4096x48, .f32⟩
  | 4 => ⟨S8x16x4096, .f32⟩
  | 5 => ⟨S8x16x8192, .f32⟩
  | 6 => ⟨S4096x12288, .f32⟩
  | 7 => ⟨S_, .f32⟩
  | 8 => ⟨S4096x12288, .f32⟩
  | 9 => ⟨S_, .i32⟩
  | 10 => ⟨S4096, .i32⟩
  | 11 => ⟨S4096, .i1⟩
  | 12 => ⟨S4096, .f32⟩
  | 13 => ⟨S4096x1, .f32⟩
  | 14 => ⟨S4096x4096, .f32⟩
  | 15 => ⟨S4096x4096, .f32⟩
  | 16 => ⟨S1x4096x48, .f32⟩
  | 17 => ⟨S4096x48, .f32⟩
  | 18 => ⟨S4096x48, .f32⟩
  | 19 => ⟨S4096x16, .f32⟩
  | 20 => ⟨S1x16x4096, .f32⟩
  | 21 => ⟨S16x4096, .f32⟩
  | 22 => ⟨S4096x4096, .f32⟩
  | 23 => ⟨S4096x16, .f32⟩
  | 24 => ⟨S1x16x8192, .f32⟩
  | 25 => ⟨S16x8192, .f32⟩
  | 26 => ⟨S16x4096, .f32⟩
  | 27 => ⟨S4096x4096, .f32⟩
  | 28 => ⟨S4096x16, .f32⟩
  | 29 => ⟨S1x16x8192, .f32⟩
  | 30 => ⟨S16x8192, .f32⟩
  | 31 => ⟨S16x4096, .f32⟩
  | 32 => ⟨S4096x4096, .f32⟩
  | 33 => ⟨S_, .i32⟩
  | 34 => ⟨S1, .i32⟩
  | 35 => ⟨S4096x12288, .f32⟩
  | 36 => ⟨S_, .i32⟩
  | 37 => ⟨S1, .i32⟩
  | 38 => ⟨S4096x12288, .f32⟩
  | 39 => ⟨S_, .i32⟩
  | 40 => ⟨S1, .i32⟩
  | 41 => ⟨S4096x12288, .f32⟩
  | 42 => ⟨S_, .i32⟩
  | 43 => ⟨S4096, .i32⟩
  | 44 => ⟨S4096, .i1⟩
  | 45 => ⟨S4096, .f32⟩
  | 46 => ⟨S4096x1, .f32⟩
  | 47 => ⟨S4096x4096, .f32⟩
  | 48 => ⟨S4096x4096, .f32⟩
  | 49 => ⟨S1x4096x48, .f32⟩
  | 50 => ⟨S4096x48, .f32⟩
  | 51 => ⟨S4096x48, .f32⟩
  | 52 => ⟨S4096x16, .f32⟩
  | 53 => ⟨S1x16x4096, .f32⟩
  | 54 => ⟨S16x4096, .f32⟩
  | 55 => ⟨S4096x4096, .f32⟩
  | 56 => ⟨S4096x16, .f32⟩
  | 57 => ⟨S1x16x8192, .f32⟩
  | 58 => ⟨S16x8192, .f32⟩
  | 59 => ⟨S16x4096, .f32⟩
  | 60 => ⟨S4096x4096, .f32⟩
  | 61 => ⟨S4096x16, .f32⟩
  | 62 => ⟨S1x16x8192, .f32⟩
  | 63 => ⟨S16x8192, .f32⟩
  | 64 => ⟨S16x4096, .f32⟩
  | 65 => ⟨S4096x4096, .f32⟩
  | 66 => ⟨S_, .i32⟩
  | 67 => ⟨S1, .i32⟩
  | 68 => ⟨S4096x12288, .f32⟩
  | 69 => ⟨S_, .i32⟩
  | 70 => ⟨S1, .i32⟩
  | 71 => ⟨S4096x12288, .f32⟩
  | 72 => ⟨S_, .i32⟩
  | 73 => ⟨S1, .i32⟩
  | 74 => ⟨S4096x12288, .f32⟩
  | 75 => ⟨S_, .i32⟩
  | 76 => ⟨S4096, .i32⟩
  | 77 => ⟨S4096, .i1⟩
  | 78 => ⟨S4096, .f32⟩
  | 79 => ⟨S4096x1, .f32⟩
  | 80 => ⟨S4096x4096, .f32⟩
  | 81 => ⟨S4096x4096, .f32⟩
  | 82 => ⟨S1x4096x48, .f32⟩
  | 83 => ⟨S4096x48, .f32⟩
  | 84 => ⟨S4096x48, .f32⟩
  | 85 => ⟨S4096x16, .f32⟩
  | 86 => ⟨S1x16x4096, .f32⟩
  | 87 => ⟨S16x4096, .f32⟩
  | 88 => ⟨S4096x4096, .f32⟩
  | 89 => ⟨S4096x16, .f32⟩
  | 90 => ⟨S1x16x8192, .f32⟩
  | 91 => ⟨S16x8192, .f32⟩
  | 92 => ⟨S16x4096, .f32⟩
  | 93 => ⟨S4096x4096, .f32⟩
  | 94 => ⟨S4096x16, .f32⟩
  | 95 => ⟨S1x16x8192, .f32⟩
  | 96 => ⟨S16x8192, .f32⟩
  | 97 => ⟨S16x4096, .f32⟩
  | 98 => ⟨S4096x4096, .f32⟩
  | 99 => ⟨S_, .i32⟩
  | 100 => ⟨S1, .i32⟩
  | 101 => ⟨S4096x12288, .f32⟩
  | 102 => ⟨S_, .i32⟩
  | 103 => ⟨S1, .i32⟩
  | 104 => ⟨S4096x12288, .f32⟩
  | 105 => ⟨S_, .i32⟩
  | 106 => ⟨S1, .i32⟩
  | 107 => ⟨S4096x12288, .f32⟩
  | 108 => ⟨S_, .i32⟩
  | 109 => ⟨S4096, .i32⟩
  | 110 => ⟨S4096, .i1⟩
  | 111 => ⟨S4096, .f32⟩
  | 112 => ⟨S4096x1, .f32⟩
  | 113 => ⟨S4096x4096, .f32⟩
  | 114 => ⟨S4096x4096, .f32⟩
  | 115 => ⟨S1x4096x48, .f32⟩
  | 116 => ⟨S4096x48, .f32⟩
  | 117 => ⟨S4096x48, .f32⟩
  | 118 => ⟨S4096x16, .f32⟩
  | 119 => ⟨S1x16x4096, .f32⟩
  | 120 => ⟨S16x4096, .f32⟩
  | 121 => ⟨S4096x4096, .f32⟩
  | 122 => ⟨S4096x16, .f32⟩
  | 123 => ⟨S1x16x8192, .f32⟩
  | 124 => ⟨S16x8192, .f32⟩
  | 125 => ⟨S16x4096, .f32⟩
  | 126 => ⟨S4096x4096, .f32⟩
  | 127 => ⟨S4096x16, .f32⟩
  | _ => ⟨S4096x4096, .f32⟩

abbrev hbmTy0_1 (i : Nat) : BufTy := match i % 128 with
  | 0 => ⟨S1x16x8192, .f32⟩
  | 1 => ⟨S16x8192, .f32⟩
  | 2 => ⟨S16x4096, .f32⟩
  | 3 => ⟨S4096x4096, .f32⟩
  | 4 => ⟨S_, .i32⟩
  | 5 => ⟨S1, .i32⟩
  | 6 => ⟨S4096x12288, .f32⟩
  | 7 => ⟨S_, .i32⟩
  | 8 => ⟨S1, .i32⟩
  | 9 => ⟨S4096x12288, .f32⟩
  | 10 => ⟨S_, .i32⟩
  | 11 => ⟨S1, .i32⟩
  | 12 => ⟨S4096x12288, .f32⟩
  | 13 => ⟨S_, .i32⟩
  | 14 => ⟨S4096, .i32⟩
  | 15 => ⟨S4096, .i1⟩
  | 16 => ⟨S4096, .f32⟩
  | 17 => ⟨S4096x1, .f32⟩
  | 18 => ⟨S4096x4096, .f32⟩
  | 19 => ⟨S4096x4096, .f32⟩
  | 20 => ⟨S1x4096x48, .f32⟩
  | 21 => ⟨S4096x48, .f32⟩
  | 22 => ⟨S4096x48, .f32⟩
  | 23 => ⟨S4096x16, .f32⟩
  | 24 => ⟨S1x16x4096, .f32⟩
  | 25 => ⟨S16x4096, .f32⟩
  | 26 => ⟨S4096x4096, .f32⟩
  | 27 => ⟨S4096x16, .f32⟩
  | 28 => ⟨S1x16x8192, .f32⟩
  | 29 => ⟨S16x8192, .f32⟩
  | 30 => ⟨S16x4096, .f32⟩
  | 31 => ⟨S4096x4096, .f32⟩
  | 32 => ⟨S4096x16, .f32⟩
  | 33 => ⟨S1x16x8192, .f32⟩
  | 34 => ⟨S16x8192, .f32⟩
  | 35 => ⟨S16x4096, .f32⟩
  | 36 => ⟨S4096x4096, .f32⟩
  | 37 => ⟨S_, .i32⟩
  | 38 => ⟨S1, .i32⟩
  | 39 => ⟨S4096x12288, .f32⟩
  | 40 => ⟨S_, .i32⟩
  | 41 => ⟨S1, .i32⟩
  | 42 => ⟨S4096x12288, .f32⟩
  | 43 => ⟨S_, .i32⟩
  | 44 => ⟨S1, .i32⟩
  | 45 => ⟨S4096x12288, .f32⟩
  | 46 => ⟨S_, .i32⟩
  | 47 => ⟨S4096, .i32⟩
  | 48 => ⟨S4096, .i1⟩
  | 49 => ⟨S4096, .f32⟩
  | 50 => ⟨S4096x1, .f32⟩
  | 51 => ⟨S4096x4096, .f32⟩
  | 52 => ⟨S4096x4096, .f32⟩
  | 53 => ⟨S1x4096x48, .f32⟩
  | 54 => ⟨S4096x48, .f32⟩
  | 55 => ⟨S4096x48, .f32⟩
  | 56 => ⟨S4096x16, .f32⟩
  | 57 => ⟨S1x16x4096, .f32⟩
  | 58 => ⟨S16x4096, .f32⟩
  | 59 => ⟨S4096x4096, .f32⟩
  | 60 => ⟨S4096x16, .f32⟩
  | 61 => ⟨S1x16x8192, .f32⟩
  | 62 => ⟨S16x8192, .f32⟩
  | 63 => ⟨S16x4096, .f32⟩
  | 64 => ⟨S4096x4096, .f32⟩
  | 65 => ⟨S4096x16, .f32⟩
  | 66 => ⟨S1x16x8192, .f32⟩
  | 67 => ⟨S16x8192, .f32⟩
  | 68 => ⟨S16x4096, .f32⟩
  | 69 => ⟨S4096x4096, .f32⟩
  | 70 => ⟨S_, .i32⟩
  | 71 => ⟨S1, .i32⟩
  | 72 => ⟨S4096x12288, .f32⟩
  | 73 => ⟨S_, .i32⟩
  | 74 => ⟨S1, .i32⟩
  | 75 => ⟨S4096x12288, .f32⟩
  | 76 => ⟨S_, .i32⟩
  | 77 => ⟨S1, .i32⟩
  | 78 => ⟨S4096x12288, .f32⟩
  | 79 => ⟨S_, .i32⟩
  | 80 => ⟨S4096, .i32⟩
  | 81 => ⟨S4096, .i1⟩
  | 82 => ⟨S4096, .f32⟩
  | 83 => ⟨S4096x1, .f32⟩
  | 84 => ⟨S4096x4096, .f32⟩
  | 85 => ⟨S4096x4096, .f32⟩
  | 86 => ⟨S1x4096x48, .f32⟩
  | 87 => ⟨S4096x48, .f32⟩
  | 88 => ⟨S4096x48, .f32⟩
  | 89 => ⟨S4096x16, .f32⟩
  | 90 => ⟨S1x16x4096, .f32⟩
  | 91 => ⟨S16x4096, .f32⟩
  | 92 => ⟨S4096x4096, .f32⟩
  | 93 => ⟨S4096x16, .f32⟩
  | 94 => ⟨S1x16x8192, .f32⟩
  | 95 => ⟨S16x8192, .f32⟩
  | 96 => ⟨S16x4096, .f32⟩
  | 97 => ⟨S4096x4096, .f32⟩
  | 98 => ⟨S4096x16, .f32⟩
  | 99 => ⟨S1x16x8192, .f32⟩
  | 100 => ⟨S16x8192, .f32⟩
  | 101 => ⟨S16x4096, .f32⟩
  | 102 => ⟨S4096x4096, .f32⟩
  | 103 => ⟨S_, .i32⟩
  | 104 => ⟨S1, .i32⟩
  | 105 => ⟨S4096x12288, .f32⟩
  | 106 => ⟨S_, .i32⟩
  | 107 => ⟨S1, .i32⟩
  | 108 => ⟨S4096x12288, .f32⟩
  | 109 => ⟨S_, .i32⟩
  | 110 => ⟨S1, .i32⟩
  | 111 => ⟨S4096x12288, .f32⟩
  | 112 => ⟨S_, .i32⟩
  | 113 => ⟨S4096, .i32⟩
  | 114 => ⟨S4096, .i1⟩
  | 115 => ⟨S4096, .f32⟩
  | 116 => ⟨S4096x1, .f32⟩
  | 117 => ⟨S4096x4096, .f32⟩
  | 118 => ⟨S4096x4096, .f32⟩
  | 119 => ⟨S1x4096x48, .f32⟩
  | 120 => ⟨S4096x48, .f32⟩
  | 121 => ⟨S4096x48, .f32⟩
  | 122 => ⟨S4096x16, .f32⟩
  | 123 => ⟨S1x16x4096, .f32⟩
  | 124 => ⟨S16x4096, .f32⟩
  | 125 => ⟨S4096x4096, .f32⟩
  | 126 => ⟨S4096x16, .f32⟩
  | 127 => ⟨S1x16x8192, .f32⟩
  | _ => ⟨S4096x4096, .f32⟩

abbrev hbmTy0_2 (i : Nat) : BufTy := match i % 128 with
  | 0 => ⟨S16x8192, .f32⟩
  | 1 => ⟨S16x4096, .f32⟩
  | 2 => ⟨S4096x4096, .f32⟩
  | 3 => ⟨S4096x16, .f32⟩
  | 4 => ⟨S1x16x8192, .f32⟩
  | 5 => ⟨S16x8192, .f32⟩
  | 6 => ⟨S16x4096, .f32⟩
  | 7 => ⟨S4096x4096, .f32⟩
  | 8 => ⟨S_, .i32⟩
  | 9 => ⟨S1, .i32⟩
  | 10 => ⟨S4096x12288, .f32⟩
  | 11 => ⟨S_, .i32⟩
  | 12 => ⟨S1, .i32⟩
  | 13 => ⟨S4096x12288, .f32⟩
  | 14 => ⟨S_, .i32⟩
  | 15 => ⟨S1, .i32⟩
  | 16 => ⟨S4096x12288, .f32⟩
  | 17 => ⟨S4096x12288, .f32⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_0 : Ref sig .tc := ⟨.hbm, 33, rfl⟩
abbrev main_v25 : Ref sig .tc := ⟨.hbm, 34, rfl⟩
abbrev main_v26 : Ref sig .tc := ⟨.hbm, 35, rfl⟩
abbrev main_c_1 : Ref sig .tc := ⟨.hbm, 36, rfl⟩
abbrev main_v27 : Ref sig .tc := ⟨.hbm, 37, rfl⟩
abbrev main_v28 : Ref sig .tc := ⟨.hbm, 38, rfl⟩
abbrev main_c_2 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_c_4 : Ref sig .tc := ⟨.hbm, 66, rfl⟩
abbrev main_v54 : Ref sig .tc := ⟨.hbm, 67, rfl⟩
abbrev main_v55 : Ref sig .tc := ⟨.hbm, 68, rfl⟩
abbrev main_c_5 : Ref sig .tc := ⟨.hbm, 69, rfl⟩
abbrev main_v56 : Ref sig .tc := ⟨.hbm, 70, rfl⟩
abbrev main_v57 : Ref sig .tc := ⟨.hbm, 71, rfl⟩
abbrev main_c_6 : Ref sig .tc := ⟨.hbm, 72, rfl⟩
abbrev main_v58 : Ref sig .tc := ⟨.hbm, 73, rfl⟩
abbrev main_v59 : Ref sig .tc := ⟨.hbm, 74, rfl⟩
abbrev main_c_7 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_c_8 : Ref sig .tc := ⟨.hbm, 99, rfl⟩
abbrev main_v83 : Ref sig .tc := ⟨.hbm, 100, rfl⟩
abbrev main_v84 : Ref sig .tc := ⟨.hbm, 101, rfl⟩
abbrev main_c_9 : Ref sig .tc := ⟨.hbm, 102, rfl⟩
abbrev main_v85 : Ref sig .tc := ⟨.hbm, 103, rfl⟩
abbrev main_v86 : Ref sig .tc := ⟨.hbm, 104, rfl⟩
abbrev main_c_10 : Ref sig .tc := ⟨.hbm, 105, rfl⟩
abbrev main_v87 : Ref sig .tc := ⟨.hbm, 106, rfl⟩
abbrev main_v88 : Ref sig .tc := ⟨.hbm, 107, rfl⟩
abbrev main_c_11 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_c_12 : Ref sig .tc := ⟨.hbm, 132, rfl⟩
abbrev main_v112 : Ref sig .tc := ⟨.hbm, 133, rfl⟩
abbrev main_v113 : Ref sig .tc := ⟨.hbm, 134, rfl⟩
abbrev main_c_13 : Ref sig .tc := ⟨.hbm, 135, rfl⟩
abbrev main_v114 : Ref sig .tc := ⟨.hbm, 136, rfl⟩
abbrev main_v115 : Ref sig .tc := ⟨.hbm, 137, rfl⟩
abbrev main_c_14 : Ref sig .tc := ⟨.hbm, 138, rfl⟩
abbrev main_v116 : Ref sig .tc := ⟨.hbm, 139, rfl⟩
abbrev main_v117 : Ref sig .tc := ⟨.hbm, 140, rfl⟩
abbrev main_c_15 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_c_16 : Ref sig .tc := ⟨.hbm, 165, rfl⟩
abbrev main_v141 : Ref sig .tc := ⟨.hbm, 166, rfl⟩
abbrev main_v142 : Ref sig .tc := ⟨.hbm, 167, rfl⟩
abbrev main_c_17 : Ref sig .tc := ⟨.hbm, 168, rfl⟩
abbrev main_v143 : Ref sig .tc := ⟨.hbm, 169, rfl⟩
abbrev main_v144 : Ref sig .tc := ⟨.hbm, 170, rfl⟩
abbrev main_c_18 : Ref sig .tc := ⟨.hbm, 171, rfl⟩
abbrev main_v145 : Ref sig .tc := ⟨.hbm, 172, rfl⟩
abbrev main_v146 : Ref sig .tc := ⟨.hbm, 173, rfl⟩
abbrev main_c_19 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_c_20 : Ref sig .tc := ⟨.hbm, 198, rfl⟩
abbrev main_v170 : Ref sig .tc := ⟨.hbm, 199, rfl⟩
abbrev main_v171 : Ref sig .tc := ⟨.hbm, 200, rfl⟩
abbrev main_c_21 : Ref sig .tc := ⟨.hbm, 201, rfl⟩
abbrev main_v172 : Ref sig .tc := ⟨.hbm, 202, rfl⟩
abbrev main_v173 : Ref sig .tc := ⟨.hbm, 203, rfl⟩
abbrev main_c_22 : Ref sig .tc := ⟨.hbm, 204, rfl⟩
abbrev main_v174 : Ref sig .tc := ⟨.hbm, 205, rfl⟩
abbrev main_v175 : Ref sig .tc := ⟨.hbm, 206, rfl⟩
abbrev main_c_23 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_c_24 : Ref sig .tc := ⟨.hbm, 231, rfl⟩
abbrev main_v199 : Ref sig .tc := ⟨.hbm, 232, rfl⟩
abbrev main_v200 : Ref sig .tc := ⟨.hbm, 233, rfl⟩
abbrev main_c_25 : Ref sig .tc := ⟨.hbm, 234, rfl⟩
abbrev main_v201 : Ref sig .tc := ⟨.hbm, 235, rfl⟩
abbrev main_v202 : Ref sig .tc := ⟨.hbm, 236, rfl⟩
abbrev main_c_26 : Ref sig .tc := ⟨.hbm, 237, rfl⟩
abbrev main_v203 : Ref sig .tc := ⟨.hbm, 238, rfl⟩
abbrev main_v204 : Ref sig .tc := ⟨.hbm, 239, rfl⟩
abbrev main_c_27 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_c_28 : Ref sig .tc := ⟨.hbm, 264, rfl⟩
abbrev main_v228 : Ref sig .tc := ⟨.hbm, 265, rfl⟩
abbrev main_v229 : Ref sig .tc := ⟨.hbm, 266, rfl⟩
abbrev main_c_29 : Ref sig .tc := ⟨.hbm, 267, rfl⟩
abbrev main_v230 : Ref sig .tc := ⟨.hbm, 268, rfl⟩
abbrev main_v231 : Ref sig .tc := ⟨.hbm, 269, rfl⟩
abbrev main_c_30 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩

abbrev nD : Nat := 1
abbrev τ : Topo := Topo.v7x

variable {F : FTy → Type} [FloatOps F]

class Facts₀ : Prop where
  bcast_S_S4096x12288 : S_.BroadcastsInDim S4096x12288 (![] : Fin 0 → Fin S4096x12288.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  slices_S8x4096x48_S1x4096x48_0_0_0 : S8x4096x48.Slices ![0, 0, 0] S1x4096x48
  shapeCasts_S1x4096x48_S4096x48 : S1x4096x48.ShapeCasts S4096x48
  slices_S4096x48_S4096x16_0_0 : S4096x48.Slices ![0, 0] S4096x16
  slices_S8x16x4096_S1x16x4096_0_0_0 : S8x16x4096.Slices ![0, 0, 0] S1x16x4096
  shapeCasts_S1x16x4096_S16x4096 : S1x16x4096.ShapeCasts S16x4096
  slices_S4096x48_S4096x16_0_16 : S4096x48.Slices ![0, 16] S4096x16
  slices_S8x16x8192_S1x16x8192_0_0_0 : S8x16x8192.Slices ![0, 0, 0] S1x16x8192
  shapeCasts_S1x16x8192_S16x8192 : S1x16x8192.ShapeCasts S16x8192
  slices_S16x8192_S16x4096_0_0 : S16x8192.Slices ![0, 0] S16x4096
  slices_S4096x48_S4096x16_0_32 : S4096x48.Slices ![0, 32] S4096x16
  slices_S16x8192_S16x4096_0_4096 : S16x8192.Slices ![0, 4096] S16x4096
  bcast_S_S1 : S_.BroadcastsInDim S1 (![] : Fin 0 → Fin S1.rank)
  slices_S8x4096x48_S1x4096x48_1_0_0 : S8x4096x48.Slices ![1, 0, 0] S1x4096x48
  slices_S8x16x4096_S1x16x4096_1_0_0 : S8x16x4096.Slices ![1, 0, 0] S1x16x4096
  slices_S8x16x8192_S1x16x8192_1_0_0 : S8x16x8192.Slices ![1, 0, 0] S1x16x8192
  slices_S8x4096x48_S1x4096x48_2_0_0 : S8x4096x48.Slices ![2, 0, 0] S1x4096x48
  slices_S8x16x4096_S1x16x4096_2_0_0 : S8x16x4096.Slices ![2, 0, 0] S1x16x4096
  slices_S8x16x8192_S1x16x8192_2_0_0 : S8x16x8192.Slices ![2, 0, 0] S1x16x8192
  slices_S8x4096x48_S1x4096x48_3_0_0 : S8x4096x48.Slices ![3, 0, 0] S1x4096x48
  slices_S8x16x4096_S1x16x4096_3_0_0 : S8x16x4096.Slices ![3, 0, 0] S1x16x4096
  slices_S8x16x8192_S1x16x8192_3_0_0 : S8x16x8192.Slices ![3, 0, 0] S1x16x8192
  slices_S8x4096x48_S1x4096x48_4_0_0 : S8x4096x48.Slices ![4, 0, 0] S1x4096x48
  slices_S8x16x4096_S1x16x4096_4_0_0 : S8x16x4096.Slices ![4, 0, 0] S1x16x4096
  slices_S8x16x8192_S1x16x8192_4_0_0 : S8x16x8192.Slices ![4, 0, 0] S1x16x8192
  slices_S8x4096x48_S1x4096x48_5_0_0 : S8x4096x48.Slices ![5, 0, 0] S1x4096x48
  slices_S8x16x4096_S1x16x4096_5_0_0 : S8x16x4096.Slices ![5, 0, 0] S1x16x4096
  slices_S8x16x8192_S1x16x8192_5_0_0 : S8x16x8192.Slices ![5, 0, 0] S1x16x8192
  slices_S8x4096x48_S1x4096x48_6_0_0 : S8x4096x48.Slices ![6, 0, 0] S1x4096x48
  slices_S8x16x4096_S1x16x4096_6_0_0 : S8x16x4096.Slices ![6, 0, 0] S1x16x4096
  slices_S8x16x8192_S1x16x8192_6_0_0 : S8x16x8192.Slices ![6, 0, 0] S1x16x8192
  slices_S8x4096x48_S1x4096x48_7_0_0 : S8x4096x48.Slices ![7, 0, 0] S1x4096x48
  slices_S8x16x4096_S1x16x4096_7_0_0 : S8x16x4096.Slices ![7, 0, 0] S1x16x4096
  slices_S8x16x8192_S1x16x8192_7_0_0 : S8x16x8192.Slices ![7, 0, 0] S1x16x8192
  dot_S4096x4096_S4096x12288_S4096x12288_1_0_0_1_n_n_wf : DotDims.WF S4096x4096 S4096x12288 S4096x12288 [1] [0] [0] [1] [] []
  dot_S4096x4096_S4096x48_S4096x48_1_0_0_1_n_n_wf : DotDims.WF S4096x4096 S4096x48 S4096x48 [1] [0] [0] [1] [] []
  dot_S4096x16_S16x4096_S4096x4096_1_0_0_1_n_n_wf : DotDims.WF S4096x16 S16x4096 S4096x4096 [1] [0] [0] [1] [] []
  scatter_S4096x12288_S1_S4096x4096_01_n_1_0_wf : ScatterDims.WF S4096x12288 S1 S4096x4096 [0, 1] [] [1] 0

variable [Facts₀]

def dot_S4096x4096_S4096x12288_S4096x12288_1_0_0_1_n_n : DotDims S4096x4096 S4096x12288 S4096x12288 where
  lhsContracting := [1]
  rhsContracting := [0]
  lhsNonContracting := [0]
  rhsNonContracting := [1]
  lhsBatch := []
  rhsBatch := []
  wf := dot_S4096x4096_S4096x12288_S4096x12288_1_0_0_1_n_n_wf
def dot_S4096x4096_S4096x48_S4096x48_1_0_0_1_n_n : DotDims S4096x4096 S4096x48 S4096x48 where
  lhsContracting := [1]
  rhsContracting := [0]
  lhsNonContracting := [0]
  rhsNonContracting := [1]
  lhsBatch := []
  rhsBatch := []
  wf := dot_S4096x4096_S4096x48_S4096x48_1_0_0_1_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def scatter_S4096x12288_S1_S4096x4096_01_n_1_0 : ScatterDims S4096x12288 S1 S4096x4096 where
  updateWindowDims := [0, 1]
  insertedWindowDims := []
  scatterDimsToOperandDims := [1]
  indexVectorDim := 0
  wf := scatter_S4096x12288_S1_S4096x4096_01_n_1_0_wf

class Facts : Prop extends Facts₀ where

variable [Facts]
-- ==== Proof.K.Kit.lean ====
/-
  The launch side of the kernel's frame, for any float family.

  The program is thirty-five host operations and then one pipelined region over a 4 × 6 × 4 grid (96 points; the
  innermost coordinate k = t % 4 walks the contraction blocks). The region finds the device's buffers at what the
  host operations leave (`V`); none of them writes an argument array. Window w's block at point t is read off the
  array the region finds (`iblk`); an input window's current staging buffer holds that block at every point, fetched
  there or not. The body branches on k = 0 (the output block is reset) and on k = 3 (the low-rank term is added):
  over the grid these are t % 4 = 0 and t % 4 = 3.
-/
import proofs.«408339_j30262339567848_3_alg».proof.Proof.Gen.Kernel.Launch
import proofs.«408339_j30262339567848_3_alg».proof.Proof.Gen.Kernel.Skeleton
import proofs.«408339_j30262339567848_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations, then the region -/

/-- Core `c`'s buffers when the region is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program reduces to the region, entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched. -/
theorem V_of_not_written (c : Dev nD) (b : Ref sig .tc)
    (h : ∀ op ∈ (hostOps0 : List (HloOp τ sig (Elt F))), (Proc.devRef .tc b : DevRef τ sig) ∉ op.writes) :
    V m c b = m ((c : Thread nD τ).loc b) :=
  StableHlo.after_of_forall_not_mem (b := Proc.devRef .tc b) _ _ h

theorem not_written_arg (b : Ref sig .tc) (hb : b = main_arg0 ∨ b = main_arg1 ∨ b = main_arg2 ∨ b = main_arg3 ∨ b = main_arg4 ∨ b = main_arg5) :
    ∀ op ∈ (hostOps0 : List (HloOp τ sig (Elt F))), (Proc.devRef .tc b : DevRef τ sig) ∉ op.writes := by
  refine List.forall_iff_forall_mem.mp ?_
  simp only [hostOps0, List.Forall, StableHlo.nullary_writes, StableHlo.unary_writes, StableHlo.binary_writes,
    StableHlo.reshape_writes, StableHlo.nary_writes, Finset.mem_singleton]
  rcases hb with rfl | rfl | rfl | rfl | rfl | rfl <;>
  · repeat' apply And.intro
    all_goals exact StableHlo.devRef_ne_of_ne (by decide)

theorem V_main_arg0 (c : Dev nD) : V m c main_arg0 = m ((c : Thread nD τ).loc main_arg0) :=
  V_of_not_written m c _ (not_written_arg _ (Or.inl rfl))
theorem V_main_arg1 (c : Dev nD) : V m c main_arg1 = m ((c : Thread nD τ).loc main_arg1) :=
  V_of_not_written m c _ (not_written_arg _ (Or.inr (Or.inl rfl)))
theorem V_main_arg2 (c : Dev nD) : V m c main_arg2 = m ((c : Thread nD τ).loc main_arg2) :=
  V_of_not_written m c _ (not_written_arg _ (Or.inr (Or.inr (Or.inl rfl))))
theorem V_main_arg3 (c : Dev nD) : V m c main_arg3 = m ((c : Thread nD τ).loc main_arg3) :=
  V_of_not_written m c _ (not_written_arg _ (Or.inr (Or.inr (Or.inr (Or.inl rfl)))))
theorem V_main_arg4 (c : Dev nD) : V m c main_arg4 = m ((c : Thread nD τ).loc main_arg4) :=
  V_of_not_written m c _ (not_written_arg _ (Or.inr (Or.inr (Or.inr (Or.inr (Or.inl rfl))))))
theorem V_main_arg5 (c : Dev nD) : V m c main_arg5 = m ((c : Thread nD τ).loc main_arg5) :=
  V_of_not_written m c _ (not_written_arg _ (Or.inr (Or.inr (Or.inr (Or.inr (Or.inr rfl))))))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the launch theorem's post — every array
    no window stages as the region found it — gives the frame claim's post: no window stages an argument, and no host
    operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c)⟩) h

/-! ## The body's two conditions, over the grid -/

/-- The body's first condition (the output block is reset): the innermost coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The body's second condition (the low-rank term is added): the innermost coordinate is 3. -/
abbrev cond0_1 (i : grid0.Coords) : Prop := (Scalar.cmpi .ne (Scalar.extui (Scalar.cmpi .eq (BitVec.ofNat 32 (i 2).val) 3#32)) 0#32) = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## The staging memrefs at a point -/

/-- One staging buffer of the output window, through which its contents are stated. -/
abbrev VO0_4 : View sig .tc .vmem S1024x2048 .f32 := (Memref.whole cc0_stg4_0 : Memref sig .tc .vmem S1024x2048 .f32).view

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2048 .f32 := win0_4.stage (cfg0.slots t 4)
abbrev hs0_4 (t : Fin cfg0.N) : (ms0_4 t).IsWhole := hstage0_4 ((cfg0.slots t 4).cast nbuf0_4)

/-! ## What the output block holds after each point

At k = 0 the block is reset and the first contraction block's product added; at k = 1, 2 the point's product is added
to what the point before left; at k = 3 that, and then the low-rank product. The arithmetic is the body's own
payloads: `k0_pay1` the zero block, `k0_pay2` "accumulator + x-block · W-block", `k0_pay3` "accumulator + xa-block ·
B-block". -/

/-- The output window's staging buffer after the body at position `n`. -/
def outsAt0 (c : Dev nD) : (n : ℕ) → n < cfg0.N → Vec F S1024x2048 .f32
  | 0, hn => k0_pay2 (iblk m c 0 ⟨0, hn⟩) (iblk m c 1 ⟨0, hn⟩) (k0_pay1 (F := F))
  | n + 1, hn =>
    if (n + 1) % 4 = 0 then
      k0_pay2 (iblk m c 0 ⟨n + 1, hn⟩) (iblk m c 1 ⟨n + 1, hn⟩) (k0_pay1 (F := F))
    else if (n + 1) % 4 = 3 then
      k0_pay3 (iblk m c 2 ⟨n + 1, hn⟩) (iblk m c 3 ⟨n + 1, hn⟩)
        (k0_pay2 (iblk m c 0 ⟨n + 1, hn⟩) (iblk m c 1 ⟨n + 1, hn⟩) (outsAt0 c n (Nat.lt_of_succ_lt hn)))
    else
      k0_pay2 (iblk m c 0 ⟨n + 1, hn⟩) (iblk m c 1 ⟨n + 1, hn⟩) (outsAt0 c n (Nat.lt_of_succ_lt hn))

/-- At a point with k = 0. -/
theorem outsAt0_A (c : Dev nD) (t : Fin cfg0.N) (h0 : t.val % 4 = 0) :
    outsAt0 m c t.val t.isLt = k0_pay2 (iblk m c 0 t) (iblk m c 1 t) (k0_pay1 (F := F)) := by
  obtain ⟨n, hn⟩ := t
  cases n with
  | zero => rfl
  | succ n => exact (if_pos h0).trans rfl

/-- At a point with k = 1 or 2. -/
theorem outsAt0_B (c : Dev nD) (t : Fin cfg0.N) (h0 : ¬t.val % 4 = 0) (h3 : ¬t.val % 4 = 3) :
    outsAt0 m c t.val t.isLt = k0_pay2 (iblk m c 0 t) (iblk m c 1 t)
      (outsAt0 m c (t.val - 1) (Nat.lt_of_le_of_lt (Nat.sub_le _ _) t.isLt)) := by
  obtain ⟨n, hn⟩ := t
  cases n with
  | zero => exact absurd (Nat.zero_mod _) h0
  | succ n => exact ((if_neg h0).trans (if_neg h3)).trans rfl

/-- At a point with k = 3. -/
theorem outsAt0_C (c : Dev nD) (t : Fin cfg0.N) (h3 : t.val % 4 = 3) :
    outsAt0 m c t.val t.isLt = k0_pay3 (iblk m c 2 t) (iblk m c 3 t)
      (k0_pay2 (iblk m c 0 t) (iblk m c 1 t) (outsAt0 m c (t.val - 1) (Nat.lt_of_le_of_lt (Nat.sub_le _ _) t.isLt))) := by
  obtain ⟨n, hn⟩ := t
  cases n with
  | zero => exact absurd ((Nat.zero_mod 4).symm.trans h3) (by decide)
  | succ n =>
    have h3' : (n + 1) % 4 = 3 := h3
    exact ((if_neg (by omega)).trans (if_pos h3')).trans rfl

/-! ## The pipeline's proof data -/

/-- The arrays as the region finds them; after the body at point `t` each input's buffer at its block and the
    output's at `outsAt0`; the scoped rest and the generator register pass through; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt0 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt0 m c t.val t.isLt := by dsimp only [dats]

end Cert.Kernel.Hand

end
-- ==== Proof.K.RunA.lean ====
/-
  The kernel body at a grid point with k = 0, for any float family.

  On whole staging memrefs the body first resets the output block to zero, then loads the x-block, the W-block and
  the output block — which now reads the zero block it has just stored —, and stores "that + x-block · W-block";
  k being 0 and not 3, the low-rank term is skipped. So whatever the output memref held before, it ends at
  k0_pay2 x W k0_pay1, and the four input memrefs are returned as they were found.

  Every load and store goes through the rectangle of the whole block at zero offsets: a load through it reads the
  contents, a store through it replaces them, and the last such store alone decides what the buffer reads.
-/
import proofs.«408339_j30262339567848_3_alg».proof.Proof.K.Kit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a whole-block rectangle of rank two are all zero. -/
theorem offs2_zero : (![0, 0] : Fin 2 → Nat) = fun _ => 0 := funext fun a => by fin_cases a <;> rfl
/-- The offsets of a whole-block rectangle of rank three are all zero. -/
theorem offs3_zero : (![0, 0, 0] : Fin 3 → Nat) = fun _ => 0 := funext fun a => by fin_cases a <;> rfl

set_option maxHeartbeats 1000000 in
/-- CASE k = 0 (the reset is taken, the low-rank update is not). The inputs' memrefs hold x0 … x3, the output's anything;
    the body runs to a continuation that holds the inputs' as they were and the output's at "zero block + x0 · x1". -/
theorem kernelRun0_A (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x1024x128 .bf16) (harg5 : arg5.IsWhole) (arg6 : Memref sig .tc .vmem S128x2048 .bf16) (harg6 : arg6.IsWhole) (arg7 : Memref sig .tc .vmem S1024x2048 .f32) (harg7 : arg7.IsWhole) (hc0 : cond0_0 i) (hc1 : ¬cond0_1 i)
    (x0 : Vec F S1024x1024 .bf16) (x1 : Vec F S1024x2048 .bf16) (x2 : Vec F S1x1024x128 .bf16) (x3 : Vec F S128x2048 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay2 x0 x1 (k0_pay1 (F := F)))) -∗ K ⟨⟩))
      ⊢ wp frame (wpE (defs₀ (F := F)) Variants.none c none) E (cc0__qkv_lora_kernel i arg3 harg3 arg4 harg4 arg5 harg5 arg6 harg6 arg7 harg7) K := by
  simp only [cc0__qkv_lora_kernel_eq_skeleton]; unfold cc0__qkv_lora_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  -- the four input memrefs go back as they were
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  -- the output memref holds two whole-block stores, the later first: "read-back + x0 · x1" over the zero block;
  -- the later one covers, and the read-back between them is the zero block
  rw [View.read_writes_eq_canon _ _ _ (fun y => ⟨_, List.mem_cons_self, View.mem_set_unit_zero offs2_zero inb_S1024x2048_S1024x2048_0_0 y⟩)]
  sl_unfold_words
  rw [View.canon_cons_unit_zero offs2_zero]
  simp only [View.readAt_eq_ld, hf0, hf1, View.ld_unit_zero (S := S1024x1024) offs2_zero, View.ld_unit_zero (S := S1024x2048) offs2_zero,
    View.readCov_unit_zero (S := S1024x2048) _ offs2_zero]

end Cert.Kernel.Hand

end
-- ==== Proof.K.RunB.lean ====
/-
  The kernel body at a grid point with k = 1 or 2, for any float family.

  Neither conditional is taken: the body loads the x-block, the W-block and the output block as the point before
  left it, and stores "that + x-block · W-block". So an output memref holding xo ends at k0_pay2 x W xo, and the four
  input memrefs are returned as they were found.
-/
import proofs.«408339_j30262339567848_3_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- CASE k = 1, 2 (no reset, no low-rank update). The inputs' memrefs hold x0 … x3, the output's the running block xo;
    the body runs to a continuation that holds the inputs' as they were and the output's at "xo + x0 · x1". -/
theorem kernelRun0_B (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x1024x128 .bf16) (harg5 : arg5.IsWhole) (arg6 : Memref sig .tc .vmem S128x2048 .bf16) (harg6 : arg6.IsWhole) (arg7 : Memref sig .tc .vmem S1024x2048 .f32) (harg7 : arg7.IsWhole) (hc0 : ¬cond0_0 i) (hc1 : ¬cond0_1 i)
    (x0 : Vec F S1024x1024 .bf16) (x1 : Vec F S1024x2048 .bf16) (x2 : Vec F S1x1024x128 .bf16) (x3 : Vec F S128x2048 .bf16) (xo : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay2 x0 x1 xo)) -∗ K ⟨⟩))
      ⊢ wp frame (wpE (defs₀ (F := F)) Variants.none c none) E (cc0__qkv_lora_kernel i arg3 harg3 arg4 harg4 arg5 harg5 arg6 harg6 arg7 harg7) K := by
  simp only [cc0__qkv_lora_kernel_eq_skeleton]; unfold cc0__qkv_lora_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2; obtain rfl := harg6.eq_unread hf3
  obtain rfl := harg7.eq_unread hf4
  sl_exec (disch := first | exact hc0 | exact hc1)
  sl_step
  -- the four input memrefs go back as they were
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  -- the output memref holds one whole-block store, of "what was loaded + x0 · x1", and what was loaded is xo
  rw [View.read_writes_eq_canon _ _ _ (fun y => ⟨_, List.mem_cons_self, View.mem_set_unit_zero offs2_zero inb_S1024x2048_S1024x2048_0_0 y⟩)]
  sl_unfold_words
  rw [View.canon_cons_unit_zero offs2_zero]
  simp only [View.readAt_eq_ld, hf0, hf1, hf4, View.ld_unit_zero (S := S1024x1024) offs2_zero, View.ld_unit_zero (S := S1024x2048) offs2_zero]

end Cert.Kernel.Hand

end
-- ==== Proof.K.RunC.lean ====
/-
  The kernel body at a grid point with k = 3, for any float family.

  The reset is skipped and the low-rank update is taken: the body loads the x-block, the W-block and the output block
  as the point before left it, stores "that + x-block · W-block", then loads the xa-block, the B-block and the output
  block — which now reads what has just been stored — and stores "that + xa-block · B-block". So an output memref
  holding xo ends at k0_pay3 xa B (k0_pay2 x W xo), and the four input memrefs are returned as they were found.
-/
import proofs.«408339_j30262339567848_3_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- CASE k = 3 (no reset; the low-rank update is taken). The inputs' memrefs hold x0 … x3, the output's the running block
    xo; the body runs to a continuation that holds the inputs' as they were and the output's at
    "(xo + x0 · x1) + x2 · x3". -/
theorem kernelRun0_C (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x1024x128 .bf16) (harg5 : arg5.IsWhole) (arg6 : Memref sig .tc .vmem S128x2048 .bf16) (harg6 : arg6.IsWhole) (arg7 : Memref sig .tc .vmem S1024x2048 .f32) (harg7 : arg7.IsWhole) (hc0 : ¬cond0_0 i) (hc1 : cond0_1 i)
    (x0 : Vec F S1024x1024 .bf16) (x1 : Vec F S1024x2048 .bf16) (x2 : Vec F S1x1024x128 .bf16) (x3 : Vec F S128x2048 .bf16) (xo : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay3 x2 x3 (k0_pay2 x0 x1 xo))) -∗ K ⟨⟩))
      ⊢ wp frame (wpE (defs₀ (F := F)) Variants.none c none) E (cc0__qkv_lora_kernel i arg3 harg3 arg4 harg4 arg5 harg5 arg6 harg6 arg7 harg7) K := by
  simp only [cc0__qkv_lora_kernel_eq_skeleton]; unfold cc0__qkv_lora_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2; obtain rfl := harg6.eq_unread hf3
  obtain rfl := harg7.eq_unread hf4
  sl_exec (disch := first | exact hc0 | exact hc1)
  sl_step
  -- the four input memrefs go back as they were
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  -- the output memref holds two whole-block stores, the later first: "read-back + x2 · x3" over "loaded + x0 · x1";
  -- the later one covers, the read-back between them is the earlier store's value, and what that one loaded is xo
  rw [View.read_writes_eq_canon _ _ _ (fun y => ⟨_, List.mem_cons_self, View.mem_set_unit_zero offs2_zero inb_S1024x2048_S1024x2048_0_0 y⟩)]
  sl_unfold_words
  rw [View.canon_cons_unit_zero offs2_zero]
  simp only [View.readAt_eq_ld, hf0, hf1, hf2, hf3, hf4, View.ld_unit_zero (S := S1024x1024) offs2_zero,
    View.ld_unit_zero (S := S1024x2048) offs2_zero, View.ld_unit_zero (S := S1x1024x128) offs3_zero,
    View.ld_unit_zero (S := S128x2048) offs2_zero, View.readCov_unit_zero (S := S1024x2048) _ offs2_zero]

end Cert.Kernel.Hand

end
-- ==== Proof.K.Frame.lean ====
/-
  The kernel's frame, for any float family: the pipelined region's body obligation at every grid point, the launch,
  and the frame claim.

  At a point t the four input windows' staging memrefs hold their blocks. The output window's memref holds anything
  where k = t % 4 is 0 (the body resets it), and otherwise what the body left at t - 1: the block is written back
  only after a point with k = 3, and a point with k ≠ 0 follows a point with k ≠ 3. The three runs of the body
  (k = 0; k = 1, 2; k = 3) then leave in it exactly the point's entry of the running block, zero block + the
  products of the contraction blocks so far, and at k = 3 the low-rank product on top.
-/
import proofs.«408339_j30262339567848_3_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in the staging buffers -/

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a point with k ≠ 0 the output's current staging buffer holds what the body left at the point before: the point
    is not the first, and the point before it has k ≠ 3, so the block was not written back between them. -/
theorem before0_4 (c : Dev nD) (t : Fin cfg0.N) (h0 : ¬t.val % 4 = 0) (d) :
    (dats m 0 c).before 4 t d = outsAt0 m c (t.val - 1) (Nat.lt_of_le_of_lt (Nat.sub_le _ _) t.isLt) := by
  have hN : t.val < 96 := lt_of_lt_of_eq t.isLt (show cfg0.N = 96 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`: the invariant, nothing owed, and each window's current staging memref
    whole, at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns: the same, each memref at what the proof data says the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point. The inputs' memrefs hold their blocks; k = t % 4 says which of the three cases the point is
    in; where k ≠ 0 the output's memref holds what the point before left; so that case's run applies, and what it
    leaves in the output's memref is the point's entry of `outsAt0`. The invariant and the (empty) debt pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val % 4 = 0
  · -- k = 0
    have h3 : ¬t.val % 4 = 3 := by omega
    rw [outsAt0_A m c t h0]
    iintro ⟨HΦ, Ho, ⟨%d0, H0⟩, ⟨%d1, H1⟩, ⟨%d2, H2⟩, ⟨%d3, H3⟩, ⟨%d4, H4⟩⟩
    iapply (kernelRun0_A c (grid0.coords t) (ms0_0 t) (hs0_0 t) (ms0_1 t) (hs0_1 t) (ms0_2 t) (hs0_2 t) (ms0_3 t) (hs0_3 t) (ms0_4 t) (hs0_4 t)
      ((hcond0_0 t).mpr h0) (fun h => h3 ((hcond0_1 t).mp h)) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_4 m c t h0]
    by_cases h3 : t.val % 4 = 3
    · -- k = 3
      rw [outsAt0_C m c t h3]
      iintro ⟨HΦ, Ho, ⟨%d0, H0⟩, ⟨%d1, H1⟩, ⟨%d2, H2⟩, ⟨%d3, H3⟩, ⟨%d4, H4⟩⟩
      iapply (kernelRun0_C c (grid0.coords t) (ms0_0 t) (hs0_0 t) (ms0_1 t) (hs0_1 t) (ms0_2 t) (hs0_2 t) (ms0_3 t) (hs0_3 t) (ms0_4 t) (hs0_4 t)
        (fun h => h0 ((hcond0_0 t).mp h)) ((hcond0_1 t).mpr h3) (iblk m c 0 t) (iblk m c 1 t) (iblk m c 2 t) (iblk m c 3 t)
        (outsAt0 m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · -- k = 1, 2
      rw [outsAt0_B m c t h0 h3]
      iintro ⟨HΦ, Ho, ⟨%d0, H0⟩, ⟨%d1, H1⟩, ⟨%d2, H2⟩, ⟨%d3, H3⟩, ⟨%d4, H4⟩⟩
      iapply (kernelRun0_B c (grid0.coords t) (ms0_0 t) (hs0_0 t) (ms0_1 t) (hs0_1 t) (ms0_2 t) (hs0_2 t) (ms0_3 t) (hs0_3 t) (ms0_4 t) (hs0_4 t)
        (fun h => h0 ((hcond0_0 t).mp h)) (fun h => h3 ((hcond0_1 t).mp h)) (iblk m c 0 t) (iblk m c 1 t) (iblk m c 2 t) (iblk m c 3 t)
        (outsAt0 m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- (the launch theorem is applied with its grid, windows and signature left to be read off the conclusion below, whose
-- type mentions them only through definitions that have to be opened to be compared)
set_option backward.isDefEq.respectTransparency.types false in
/-- At the compiled mesh, for any values, from any memory with zero counters: every weakly fair execution of the program on
    the TensorCores terminates, and every final state has each array of the pipeline at what the proof data gives and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: no run of the program changes any of its six arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KI.Kit.lean ====
/-
  The launch side of the kernel's frame, for any float family.

  The program is thirty-five host operations and then one pipelined region over a 4 × 6 × 4 grid (96 points; the
  innermost coordinate k = t % 4 walks the contraction blocks). The region finds the device's buffers at what the
  host operations leave (`V`); none of them writes an argument array. Window w's block at point t is read off the
  array the region finds (`iblk`); an input window's current staging buffer holds that block at every point, fetched
  there or not. The body branches on k = 0 (the output block is reset) and on k = 3 (the low-rank term is added):
  over the grid these are t % 4 = 0 and t % 4 = 3.
-/
import proofs.«408339_j30262339567848_3_alg».proof.Proof.Gen.KernelIdeal.Launch
import proofs.«408339_j30262339567848_3_alg».proof.Proof.Gen.KernelIdeal.Skeleton
import proofs.«408339_j30262339567848_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations, then the region -/

/-- Core `c`'s buffers when the region is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program reduces to the region, entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched. -/
theorem V_of_not_written (c : Dev nD) (b : Ref sig .tc)
    (h : ∀ op ∈ (hostOps0 : List (HloOp τ sig (Elt F))), (Proc.devRef .tc b : DevRef τ sig) ∉ op.writes) :
    V m c b = m ((c : Thread nD τ).loc b) :=
  StableHlo.after_of_forall_not_mem (b := Proc.devRef .tc b) _ _ h

theorem not_written_arg (b : Ref sig .tc) (hb : b = main_arg0 ∨ b = main_arg1 ∨ b = main_arg2 ∨ b = main_arg3 ∨ b = main_arg4 ∨ b = main_arg5) :
    ∀ op ∈ (hostOps0 : List (HloOp τ sig (Elt F))), (Proc.devRef .tc b : DevRef τ sig) ∉ op.writes := by
  refine List.forall_iff_forall_mem.mp ?_
  simp only [hostOps0, List.Forall, StableHlo.nullary_writes, StableHlo.unary_writes, StableHlo.binary_writes,
    StableHlo.reshape_writes, StableHlo.nary_writes, Finset.mem_singleton]
  rcases hb with rfl | rfl | rfl | rfl | rfl | rfl <;>
  · repeat' apply And.intro
    all_goals exact StableHlo.devRef_ne_of_ne (by decide)

theorem V_main_arg0 (c : Dev nD) : V m c main_arg0 = m ((c : Thread nD τ).loc main_arg0) :=
  V_of_not_written m c _ (not_written_arg _ (Or.inl rfl))
theorem V_main_arg1 (c : Dev nD) : V m c main_arg1 = m ((c : Thread nD τ).loc main_arg1) :=
  V_of_not_written m c _ (not_written_arg _ (Or.inr (Or.inl rfl)))
theorem V_main_arg2 (c : Dev nD) : V m c main_arg2 = m ((c : Thread nD τ).loc main_arg2) :=
  V_of_not_written m c _ (not_written_arg _ (Or.inr (Or.inr (Or.inl rfl))))
theorem V_main_arg3 (c : Dev nD) : V m c main_arg3 = m ((c : Thread nD τ).loc main_arg3) :=
  V_of_not_written m c _ (not_written_arg _ (Or.inr (Or.inr (Or.inr (Or.inl rfl)))))
theorem V_main_arg4 (c : Dev nD) : V m c main_arg4 = m ((c : Thread nD τ).loc main_arg4) :=
  V_of_not_written m c _ (not_written_arg _ (Or.inr (Or.inr (Or.inr (Or.inr (Or.inl rfl))))))
theorem V_main_arg5 (c : Dev nD) : V m c main_arg5 = m ((c : Thread nD τ).loc main_arg5) :=
  V_of_not_written m c _ (not_written_arg _ (Or.inr (Or.inr (Or.inr (Or.inr (Or.inr rfl))))))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the launch theorem's post — every array
    no window stages as the region found it — gives the frame claim's post: no window stages an argument, and no host
    operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c)⟩) h

/-! ## The body's two conditions, over the grid -/

/-- The body's first condition (the output block is reset): the innermost coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The body's second condition (the low-rank term is added): the innermost coordinate is 3. -/
abbrev cond0_1 (i : grid0.Coords) : Prop := (Scalar.cmpi .ne (Scalar.extui (Scalar.cmpi .eq (BitVec.ofNat 32 (i 2).val) 3#32)) 0#32) = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## The staging memrefs at a point -/

/-- One staging buffer of the output window, through which its contents are stated. -/
abbrev VO0_4 : View sig .tc .vmem S1024x2048 .f32 := (Memref.whole cc0_stg4_0 : Memref sig .tc .vmem S1024x2048 .f32).view

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2048 .f32 := win0_4.stage (cfg0.slots t 4)
abbrev hs0_4 (t : Fin cfg0.N) : (ms0_4 t).IsWhole := hstage0_4 ((cfg0.slots t 4).cast nbuf0_4)

/-! ## What the output block holds after each point

At k = 0 the block is reset and the first contraction block's product added; at k = 1, 2 the point's product is added
to what the point before left; at k = 3 that, and then the low-rank product. The arithmetic is the body's own
payloads: `k0_pay1` the zero block, `k0_pay2` "accumulator + x-block · W-block", `k0_pay3` "accumulator + xa-block ·
B-block". -/

/-- The output window's staging buffer after the body at position `n`. -/
def outsAt0 (c : Dev nD) : (n : ℕ) → n < cfg0.N → Vec F S1024x2048 .f32
  | 0, hn => k0_pay2 (iblk m c 0 ⟨0, hn⟩) (iblk m c 1 ⟨0, hn⟩) (k0_pay1 (F := F))
  | n + 1, hn =>
    if (n + 1) % 4 = 0 then
      k0_pay2 (iblk m c 0 ⟨n + 1, hn⟩) (iblk m c 1 ⟨n + 1, hn⟩) (k0_pay1 (F := F))
    else if (n + 1) % 4 = 3 then
      k0_pay3 (iblk m c 2 ⟨n + 1, hn⟩) (iblk m c 3 ⟨n + 1, hn⟩)
        (k0_pay2 (iblk m c 0 ⟨n + 1, hn⟩) (iblk m c 1 ⟨n + 1, hn⟩) (outsAt0 c n (Nat.lt_of_succ_lt hn)))
    else
      k0_pay2 (iblk m c 0 ⟨n + 1, hn⟩) (iblk m c 1 ⟨n + 1, hn⟩) (outsAt0 c n (Nat.lt_of_succ_lt hn))

/-- At a point with k = 0. -/
theorem outsAt0_A (c : Dev nD) (t : Fin cfg0.N) (h0 : t.val % 4 = 0) :
    outsAt0 m c t.val t.isLt = k0_pay2 (iblk m c 0 t) (iblk m c 1 t) (k0_pay1 (F := F)) := by
  obtain ⟨n, hn⟩ := t
  cases n with
  | zero => rfl
  | succ n => exact (if_pos h0).trans rfl

/-- At a point with k = 1 or 2. -/
theorem outsAt0_B (c : Dev nD) (t : Fin cfg0.N) (h0 : ¬t.val % 4 = 0) (h3 : ¬t.val % 4 = 3) :
    outsAt0 m c t.val t.isLt = k0_pay2 (iblk m c 0 t) (iblk m c 1 t)
      (outsAt0 m c (t.val - 1) (Nat.lt_of_le_of_lt (Nat.sub_le _ _) t.isLt)) := by
  obtain ⟨n, hn⟩ := t
  cases n with
  | zero => exact absurd (Nat.zero_mod _) h0
  | succ n => exact ((if_neg h0).trans (if_neg h3)).trans rfl

/-- At a point with k = 3. -/
theorem outsAt0_C (c : Dev nD) (t : Fin cfg0.N) (h3 : t.val % 4 = 3) :
    outsAt0 m c t.val t.isLt = k0_pay3 (iblk m c 2 t) (iblk m c 3 t)
      (k0_pay2 (iblk m c 0 t) (iblk m c 1 t) (outsAt0 m c (t.val - 1) (Nat.lt_of_le_of_lt (Nat.sub_le _ _) t.isLt))) := by
  obtain ⟨n, hn⟩ := t
  cases n with
  | zero => exact absurd ((Nat.zero_mod 4).symm.trans h3) (by decide)
  | succ n =>
    have h3' : (n + 1) % 4 = 3 := h3
    exact ((if_neg (by omega)).trans (if_pos h3')).trans rfl

/-! ## The pipeline's proof data -/

/-- The arrays as the region finds them; after the body at point `t` each input's buffer at its block and the
    output's at `outsAt0`; the scoped rest and the generator register pass through; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt0 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt0 m c t.val t.isLt := by dsimp only [dats]

end Cert.KernelIdeal.Hand

end
-- ==== Proof.KI.RunA.lean ====
/-
  The kernel body at a grid point with k = 0, for any float family.

  On whole staging memrefs the body first resets the output block to zero, then loads the x-block, the W-block and
  the output block — which now reads the zero block it has just stored —, and stores "that + x-block · W-block";
  k being 0 and not 3, the low-rank term is skipped. So whatever the output memref held before, it ends at
  k0_pay2 x W k0_pay1, and the four input memrefs are returned as they were found.

  Every load and store goes through the rectangle of the whole block at zero offsets: a load through it reads the
  contents, a store through it replaces them, and the last such store alone decides what the buffer reads.
-/
import proofs.«408339_j30262339567848_3_alg».proof.Proof.KI.Kit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a whole-block rectangle of rank two are all zero. -/
theorem offs2_zero : (![0, 0] : Fin 2 → Nat) = fun _ => 0 := funext fun a => by fin_cases a <;> rfl
/-- The offsets of a whole-block rectangle of rank three are all zero. -/
theorem offs3_zero : (![0, 0, 0] : Fin 3 → Nat) = fun _ => 0 := funext fun a => by fin_cases a <;> rfl

set_option maxHeartbeats 1000000 in
/-- CASE k = 0 (the reset is taken, the low-rank update is not). The inputs' memrefs hold x0 … x3, the output's anything;
    the body runs to a continuation that holds the inputs' as they were and the output's at "zero block + x0 · x1". -/
theorem kernelRun0_A (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x1024x128 .bf16) (harg5 : arg5.IsWhole) (arg6 : Memref sig .tc .vmem S128x2048 .bf16) (harg6 : arg6.IsWhole) (arg7 : Memref sig .tc .vmem S1024x2048 .f32) (harg7 : arg7.IsWhole) (hc0 : cond0_0 i) (hc1 : ¬cond0_1 i)
    (x0 : Vec F S1024x1024 .bf16) (x1 : Vec F S1024x2048 .bf16) (x2 : Vec F S1x1024x128 .bf16) (x3 : Vec F S128x2048 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay2 x0 x1 (k0_pay1 (F := F)))) -∗ K ⟨⟩))
      ⊢ wp frame (wpE (defs₀ (F := F)) Variants.none c none) E (cc0__qkv_lora_kernel i arg3 harg3 arg4 harg4 arg5 harg5 arg6 harg6 arg7 harg7) K := by
  simp only [cc0__qkv_lora_kernel_eq_skeleton]; unfold cc0__qkv_lora_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  -- the four input memrefs go back as they were
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  -- the output memref holds two whole-block stores, the later first: "read-back + x0 · x1" over the zero block;
  -- the later one covers, and the read-back between them is the zero block
  rw [View.read_writes_eq_canon _ _ _ (fun y => ⟨_, List.mem_cons_self, View.mem_set_unit_zero offs2_zero inb_S1024x2048_S1024x2048_0_0 y⟩)]
  sl_unfold_words
  rw [View.canon_cons_unit_zero offs2_zero]
  simp only [View.readAt_eq_ld, hf0, hf1, View.ld_unit_zero (S := S1024x1024) offs2_zero, View.ld_unit_zero (S := S1024x2048) offs2_zero,
    View.readCov_unit_zero (S := S1024x2048) _ offs2_zero]

end Cert.KernelIdeal.Hand

end
-- ==== Proof.KI.RunB.lean ====
/-
  The kernel body at a grid point with k = 1 or 2, for any float family.

  Neither conditional is taken: the body loads the x-block, the W-block and the output block as the point before
  left it, and stores "that + x-block · W-block". So an output memref holding xo ends at k0_pay2 x W xo, and the four
  input memrefs are returned as they were found.
-/
import proofs.«408339_j30262339567848_3_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- CASE k = 1, 2 (no reset, no low-rank update). The inputs' memrefs hold x0 … x3, the output's the running block xo;
    the body runs to a continuation that holds the inputs' as they were and the output's at "xo + x0 · x1". -/
theorem kernelRun0_B (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x1024x128 .bf16) (harg5 : arg5.IsWhole) (arg6 : Memref sig .tc .vmem S128x2048 .bf16) (harg6 : arg6.IsWhole) (arg7 : Memref sig .tc .vmem S1024x2048 .f32) (harg7 : arg7.IsWhole) (hc0 : ¬cond0_0 i) (hc1 : ¬cond0_1 i)
    (x0 : Vec F S1024x1024 .bf16) (x1 : Vec F S1024x2048 .bf16) (x2 : Vec F S1x1024x128 .bf16) (x3 : Vec F S128x2048 .bf16) (xo : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay2 x0 x1 xo)) -∗ K ⟨⟩))
      ⊢ wp frame (wpE (defs₀ (F := F)) Variants.none c none) E (cc0__qkv_lora_kernel i arg3 harg3 arg4 harg4 arg5 harg5 arg6 harg6 arg7 harg7) K := by
  simp only [cc0__qkv_lora_kernel_eq_skeleton]; unfold cc0__qkv_lora_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2; obtain rfl := harg6.eq_unread hf3
  obtain rfl := harg7.eq_unread hf4
  sl_exec (disch := first | exact hc0 | exact hc1)
  sl_step
  -- the four input memrefs go back as they were
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  -- the output memref holds one whole-block store, of "what was loaded + x0 · x1", and what was loaded is xo
  rw [View.read_writes_eq_canon _ _ _ (fun y => ⟨_, List.mem_cons_self, View.mem_set_unit_zero offs2_zero inb_S1024x2048_S1024x2048_0_0 y⟩)]
  sl_unfold_words
  rw [View.canon_cons_unit_zero offs2_zero]
  simp only [View.readAt_eq_ld, hf0, hf1, hf4, View.ld_unit_zero (S := S1024x1024) offs2_zero, View.ld_unit_zero (S := S1024x2048) offs2_zero]

end Cert.KernelIdeal.Hand

end
-- ==== Proof.KI.RunC.lean ====
/-
  The kernel body at a grid point with k = 3, for any float family.

  The reset is skipped and the low-rank update is taken: the body loads the x-block, the W-block and the output block
  as the point before left it, stores "that + x-block · W-block", then loads the xa-block, the B-block and the output
  block — which now reads what has just been stored — and stores "that + xa-block · B-block". So an output memref
  holding xo ends at k0_pay3 xa B (k0_pay2 x W xo), and the four input memrefs are returned as they were found.
-/
import proofs.«408339_j30262339567848_3_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- CASE k = 3 (no reset; the low-rank update is taken). The inputs' memrefs hold x0 … x3, the output's the running block
    xo; the body runs to a continuation that holds the inputs' as they were and the output's at
    "(xo + x0 · x1) + x2 · x3". -/
theorem kernelRun0_C (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x1024x128 .bf16) (harg5 : arg5.IsWhole) (arg6 : Memref sig .tc .vmem S128x2048 .bf16) (harg6 : arg6.IsWhole) (arg7 : Memref sig .tc .vmem S1024x2048 .f32) (harg7 : arg7.IsWhole) (hc0 : ¬cond0_0 i) (hc1 : cond0_1 i)
    (x0 : Vec F S1024x1024 .bf16) (x1 : Vec F S1024x2048 .bf16) (x2 : Vec F S1x1024x128 .bf16) (x3 : Vec F S128x2048 .bf16) (xo : Vec F S1024x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay3 x2 x3 (k0_pay2 x0 x1 xo))) -∗ K ⟨⟩))
      ⊢ wp frame (wpE (defs₀ (F := F)) Variants.none c none) E (cc0__qkv_lora_kernel i arg3 harg3 arg4 harg4 arg5 harg5 arg6 harg6 arg7 harg7) K := by
  simp only [cc0__qkv_lora_kernel_eq_skeleton]; unfold cc0__qkv_lora_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2; obtain rfl := harg6.eq_unread hf3
  obtain rfl := harg7.eq_unread hf4
  sl_exec (disch := first | exact hc0 | exact hc1)
  sl_step
  -- the four input memrefs go back as they were
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  -- the output memref holds two whole-block stores, the later first: "read-back + x2 · x3" over "loaded + x0 · x1";
  -- the later one covers, the read-back between them is the earlier store's value, and what that one loaded is xo
  rw [View.read_writes_eq_canon _ _ _ (fun y => ⟨_, List.mem_cons_self, View.mem_set_unit_zero offs2_zero inb_S1024x2048_S1024x2048_0_0 y⟩)]
  sl_unfold_words
  rw [View.canon_cons_unit_zero offs2_zero]
  simp only [View.readAt_eq_ld, hf0, hf1, hf2, hf3, hf4, View.ld_unit_zero (S := S1024x1024) offs2_zero,
    View.ld_unit_zero (S := S1024x2048) offs2_zero, View.ld_unit_zero (S := S1x1024x128) offs3_zero,
    View.ld_unit_zero (S := S128x2048) offs2_zero, View.readCov_unit_zero (S := S1024x2048) _ offs2_zero]

end Cert.KernelIdeal.Hand

end
-- ==== Proof.KI.Frame.lean ====
/-
  The kernel's frame, for any float family: the pipelined region's body obligation at every grid point, the launch,
  and the frame claim.

  At a point t the four input windows' staging memrefs hold their blocks. The output window's memref holds anything
  where k = t % 4 is 0 (the body resets it), and otherwise what the body left at t - 1: the block is written back
  only after a point with k = 3, and a point with k ≠ 0 follows a point with k ≠ 3. The three runs of the body
  (k = 0; k = 1, 2; k = 3) then leave in it exactly the point's entry of the running block, zero block + the
  products of the contraction blocks so far, and at k = 3 the low-rank product on top.
-/
import proofs.«408339_j30262339567848_3_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in the staging buffers -/

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a point with k ≠ 0 the output's current staging buffer holds what the body left at the point before: the point
    is not the first, and the point before it has k ≠ 3, so the block was not written back between them. -/
theorem before0_4 (c : Dev nD) (t : Fin cfg0.N) (h0 : ¬t.val % 4 = 0) (d) :
    (dats m 0 c).before 4 t d = outsAt0 m c (t.val - 1) (Nat.lt_of_le_of_lt (Nat.sub_le _ _) t.isLt) := by
  have hN : t.val < 96 := lt_of_lt_of_eq t.isLt (show cfg0.N = 96 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`: the invariant, nothing owed, and each window's current staging memref
    whole, at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns: the same, each memref at what the proof data says the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point. The inputs' memrefs hold their blocks; k = t % 4 says which of the three cases the point is
    in; where k ≠ 0 the output's memref holds what the point before left; so that case's run applies, and what it
    leaves in the output's memref is the point's entry of `outsAt0`. The invariant and the (empty) debt pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val % 4 = 0
  · -- k = 0
    have h3 : ¬t.val % 4 = 3 := by omega
    rw [outsAt0_A m c t h0]
    iintro ⟨HΦ, Ho, ⟨%d0, H0⟩, ⟨%d1, H1⟩, ⟨%d2, H2⟩, ⟨%d3, H3⟩, ⟨%d4, H4⟩⟩
    iapply (kernelRun0_A c (grid0.coords t) (ms0_0 t) (hs0_0 t) (ms0_1 t) (hs0_1 t) (ms0_2 t) (hs0_2 t) (ms0_3 t) (hs0_3 t) (ms0_4 t) (hs0_4 t)
      ((hcond0_0 t).mpr h0) (fun h => h3 ((hcond0_1 t).mp h)) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_4 m c t h0]
    by_cases h3 : t.val % 4 = 3
    · -- k = 3
      rw [outsAt0_C m c t h3]
      iintro ⟨HΦ, Ho, ⟨%d0, H0⟩, ⟨%d1, H1⟩, ⟨%d2, H2⟩, ⟨%d3, H3⟩, ⟨%d4, H4⟩⟩
      iapply (kernelRun0_C c (grid0.coords t) (ms0_0 t) (hs0_0 t) (ms0_1 t) (hs0_1 t) (ms0_2 t) (hs0_2 t) (ms0_3 t) (hs0_3 t) (ms0_4 t) (hs0_4 t)
        (fun h => h0 ((hcond0_0 t).mp h)) ((hcond0_1 t).mpr h3) (iblk m c 0 t) (iblk m c 1 t) (iblk m c 2 t) (iblk m c 3 t)
        (outsAt0 m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · -- k = 1, 2
      rw [outsAt0_B m c t h0 h3]
      iintro ⟨HΦ, Ho, ⟨%d0, H0⟩, ⟨%d1, H1⟩, ⟨%d2, H2⟩, ⟨%d3, H3⟩, ⟨%d4, H4⟩⟩
      iapply (kernelRun0_B c (grid0.coords t) (ms0_0 t) (hs0_0 t) (ms0_1 t) (hs0_1 t) (ms0_2 t) (hs0_2 t) (ms0_3 t) (hs0_3 t) (ms0_4 t) (hs0_4 t)
        (fun h => h0 ((hcond0_0 t).mp h)) (fun h => h3 ((hcond0_1 t).mp h)) (iblk m c 0 t) (iblk m c 1 t) (iblk m c 2 t) (iblk m c 3 t)
        (outsAt0 m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- (the launch theorem is applied with its grid, windows and signature left to be read off the conclusion below, whose
-- type mentions them only through definitions that have to be opened to be compared)
set_option backward.isDefEq.respectTransparency.types false in
/-- At the compiled mesh, for any values, from any memory with zero counters: every weakly fair execution of the program on
    the TensorCores terminates, and every final state has each array of the pipeline at what the proof data gives and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: no run of the program changes any of its six arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.LibPlainDot.lean ====
/-
  A matrix product with one contracted axis, read at an entry.

  For a rank-two by rank-two product whose dimension numbers are the plain ones — the left operand's columns
  contracted with the right operand's rows, no batch axis — the operand indices at result entry (r, c) and
  contraction position k are (r, k) and (k, c). So, over the extended reals, a product accumulated into the zero
  array, and a host dot_general, are both the finite sum  ∑ k, lhs (r, k) * rhs (k, c)  over k below the contracted
  extent. Everything is stated for ANY dimension record of that form, whatever its extents.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- The dimension numbers of an M×K by K×N product: columns against rows, nothing batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by
  rw [d.rank_contr, h.lc]; rfl

theorem IsPlain.size_contr (h : IsPlain d) : d.contr.size ⟨0, by rw [h.rank_contr]; exact Nat.one_pos⟩ = K := by
  have e := d.size_contr 0 (by rw [h.lc]; exact Nat.one_pos)
  rw [e]
  simp only [h.lc, List.getElem_cons_zero]
  rfl

/-- The left operand's row is the result's row. -/
theorem IsPlain.lhs_row (h : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- The left operand's column is the contraction position. -/
theorem IsPlain.lhs_col (h : IsPlain d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem IsPlain.rhs_row (h : IsPlain d) (j : (⟨2, ![M, N]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem IsPlain.rhs_col (h : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- The sum over the contraction shape's positions, re-indexed by the one coordinate: the entry (r, c) of the
    product is the sum over k of the left operand's (r, k) times the right operand's (k, c). -/
theorem IsPlain.sum_contr (h : IsPlain d) {α : Type} [AddCommMonoid α] [Mul α]
    (lhs : (⟨2, ![M, K]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- A kernel's product into the zero accumulator, over the extended reals, at entry (r, c). -/
theorem IsPlain.matmul_zero_apply (h : IsPlain d) {φ₁ φ₂ : FTy} (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 k c) := by
  rw [Ideal.matmul_constant_zero_apply]
  exact h.sum_contr lhs rhs r c

/-- A host dot_general, over the extended reals, at entry (r, c). -/
theorem IsPlain.dotGeneral_apply (h : IsPlain d) {φ₁ φ₂ : FTy} (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c) = ∑ k : Fin K, lhs (ix2 r k) * rhs (ix2 k c) := by
  rw [Ideal.dotGeneral_apply]
  exact h.sum_contr lhs rhs r c

end Idealize.ShloMosaic.PlainDot

end
-- ==== Proof.KI.ValuePay.lean ====
/-
  The body's three payloads at the ideal values, read at one entry of the 1024 × 2048 output block.

  The reset payload is the zero block. The step payload adds to the accumulator's entry (p, q) the product of row p
  of the activation block with column q of the weight block, a sum over the block's 1024 contraction positions. The
  low-rank payload adds the product of row p of the (one-segment) down-projected block with column q of the stacked
  up-projection block, a sum over 128 positions. Over the extended reals the changes of float format are identities,
  a reshape to the same shape is the identity, dropping the leading unit axis reads (0, p, j) at (p, j), and a matrix
  product into the zero accumulator is the plain finite sum.
-/
import proofs.«408339_j30262339567848_3_alg».proof.Proof.Gen.KernelIdeal.Skeleton
import proofs.«408339_j30262339567848_3_alg».proof.Proof.LibPlainDot
import Idealize.ShloMosaic.Lib.ValueIdx
import Idealize.ShloMosaic.Lib.Pipeline.Value
import Idealize.ShloMosaic.PureOps.Ideal.Laws

noncomputable section

namespace Cert.KernelIdeal.HandValue

open Cert.KernelIdeal Cert.KernelIdeal.Gen
open Idealize.ShloMosaic Idealize.ShloMosaic.ValueIdx

/-- The dimension numbers of the step's product: columns against rows, nothing batched. -/
theorem plain_step : PlainDot.IsPlain dot_S1024x1024_S1024x2048_S1024x2048_1_0_0_1_n_n := ⟨rfl, rfl, rfl, rfl, rfl, rfl⟩

/-- The dimension numbers of the low-rank product: the same form. -/
theorem plain_lora : PlainDot.IsPlain dot_S1024x128_S128x2048_S1024x2048_1_0_0_1_n_n := ⟨rfl, rfl, rfl, rfl, rfl, rfl⟩

/-- The reset payload: every entry is zero. -/
theorem pay1_apply (p : Fin 1024) (q : Fin 2048) : (k0_pay1 (F := Ideal)) (ix2 p q) = 0 := by
  unfold k0_pay1
  show Ideal.ofBits .f32 0x00000000#32 = 0
  exact Ideal.ofBits_zero_f32

/-- The step payload at entry (p, q): the accumulator's entry plus row p of the activation block against column q
    of the weight block. -/
theorem pay2_apply (x0 : Vec Ideal S1024x1024 .bf16) (x1 : Vec Ideal S1024x2048 .bf16) (acc : Vec Ideal S1024x2048 .f32)
    (p : Fin 1024) (q : Fin 2048) :
    k0_pay2 x0 x1 acc (ix2 p q) = acc (ix2 p q) + ∑ h : Fin 1024, x0 (ix2 p h) * x1 (ix2 h q) := by
  unfold k0_pay2
  simp only [shapeCast_self]
  show acc (ix2 p q) + FloatOps.matmul (F := Ideal) dot_S1024x1024_S1024x2048_S1024x2048_1_0_0_1_n_n none x0 x1
      (constant S1024x2048 .f32 0x00000000#32) (ix2 p q) = _
  exact congrArg (acc (ix2 p q) + ·) (plain_step.matmul_zero_apply none x0 x1 p q)

/-- Dropping the block's leading unit axis: entry (p, j) of the rank-two view is entry (0, p, j) of the block. -/
theorem dropUnit_apply (x2 : Vec Ideal S1x1024x128 .bf16) (p : Fin 1024) (j : Fin 128) :
    shapeCast S1024x128 x2 shapeCasts_S1x1024x128_S1024x128 (ix2 p j) = x2 (ix3 (0 : Fin 1) p j) := by
  refine (shapeCast_dropUnit_apply (n := 2) ![1024, 128] x2 shapeCasts_S1x1024x128_S1024x128 (ix2 p j)).trans ?_
  refine congrArg x2 (funext fun a => ?_)
  match a with
  | ⟨0, _⟩ => rfl
  | ⟨1, _⟩ => rfl
  | ⟨2, _⟩ => rfl

/-- The low-rank payload at entry (p, q): the accumulator's entry plus row p of the down-projected block against
    column q of the stacked up-projection block. -/
theorem pay3_apply (x2 : Vec Ideal S1x1024x128 .bf16) (x3 : Vec Ideal S128x2048 .bf16) (acc : Vec Ideal S1024x2048 .f32)
    (p : Fin 1024) (q : Fin 2048) :
    k0_pay3 x2 x3 acc (ix2 p q) = acc (ix2 p q) + ∑ j : Fin 128, x2 (ix3 (0 : Fin 1) p j) * x3 (ix2 j q) := by
  unfold k0_pay3
  simp only [shapeCast_self]
  show acc (ix2 p q) + FloatOps.matmul (F := Ideal) dot_S1024x128_S128x2048_S1024x2048_1_0_0_1_n_n none
      (shapeCast S1024x128 x2 shapeCasts_S1x1024x128_S1024x128) x3 (constant S1024x2048 .f32 0x00000000#32) (ix2 p q) = _
  refine congrArg (acc (ix2 p q) + ·) ?_
  refine (plain_lora.matmul_zero_apply (φ₁ := .bf16) (φ₂ := .bf16) none
    (shapeCast S1024x128 x2 shapeCasts_S1x1024x128_S1024x128) x3 p q).trans ?_
  exact Finset.sum_congr rfl fun j _ => by rw [dropUnit_apply]

end Cert.KernelIdeal.HandValue

end
-- ==== Proof.KI.ValueBlk.lean ====
/-
  Where each window's block sits in its array.

  The grid is 4 × 6 × 4, point t = (i · 6 + j) · 4 + k with i = t / 24 the row block, j = t / 4 % 6 the column
  block and k = t % 4 the contraction block. At point t the activation window reads the 1024 × 1024 block (i, k),
  the weight window the 1024 × 2048 block (k, j), the down-projected window the 1 × 1024 × 128 block (j / 2, i, 0)
  — j / 2 is the segment the column block lies in —, the up-projection window the 128 × 2048 block (0, j), and the
  output window writes the 1024 × 2048 block (i, j). An entry of a block is, on every axis, at block index times
  block size plus its coordinate inside the block.
-/
import proofs.«408339_j30262339567848_3_alg».proof.Proof.KI.Kit
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx

variable {F : FTy → Type} [FloatOps F]
variable (m : (ℓ : Loc nD τ sig) → Buf (Elt F) ℓ)

/-! ## The block indices over the grid -/

/-- The activation window's block at point t is (t / 24, t % 4). -/
theorem idx_x : ∀ t : Fin cfg0.N, win0_0.index t 0 = t.val / 24 ∧ win0_0.index t 1 = t.val % 4 :=
  (by decide +kernel : ∀ t : Fin grid0.N, win0_0.index t 0 = t.val / 24 ∧ win0_0.index t 1 = t.val % 4)

/-- The weight window's block at point t is (t % 4, t / 4 % 6). -/
theorem idx_w : ∀ t : Fin cfg0.N, win0_1.index t 0 = t.val % 4 ∧ win0_1.index t 1 = t.val / 4 % 6 :=
  (by decide +kernel : ∀ t : Fin grid0.N, win0_1.index t 0 = t.val % 4 ∧ win0_1.index t 1 = t.val / 4 % 6)

/-- The down-projected window's block at point t is (t / 4 % 6 / 2, t / 24, 0). -/
theorem idx_a : ∀ t : Fin cfg0.N, win0_2.index t 0 = t.val / 4 % 6 / 2 ∧ win0_2.index t 1 = t.val / 24 ∧ win0_2.index t 2 = 0 :=
  (by decide +kernel : ∀ t : Fin grid0.N, win0_2.index t 0 = t.val / 4 % 6 / 2 ∧ win0_2.index t 1 = t.val / 24 ∧ win0_2.index t 2 = 0)

/-- The up-projection window's block at point t is (0, t / 4 % 6). -/
theorem idx_b : ∀ t : Fin cfg0.N, win0_3.index t 0 = 0 ∧ win0_3.index t 1 = t.val / 4 % 6 :=
  (by decide +kernel : ∀ t : Fin grid0.N, win0_3.index t 0 = 0 ∧ win0_3.index t 1 = t.val / 4 % 6)

/-- The output window's block at point t is (t / 24, t / 4 % 6). -/
theorem idx_o : ∀ t : Fin cfg0.N, win0_4.index t 0 = t.val / 24 ∧ win0_4.index t 1 = t.val / 4 % 6 :=
  (by decide +kernel : ∀ t : Fin grid0.N, win0_4.index t 0 = t.val / 24 ∧ win0_4.index t 1 = t.val / 4 % 6)

/-! ## The arrays the region finds, and the blocks, at their literal types -/

/-- The activations, as the region finds them. -/
abbrev xarr (c : Dev nD) : Vec F S4096x4096 .bf16 := V m c main_v4
/-- The base projection. -/
abbrev warr (c : Dev nD) : Vec F S4096x12288 .bf16 := V m c main_v33
/-- The down-projected, masked activations, one slab per segment. -/
abbrev aarr (c : Dev nD) : Vec F S3x4096x128 .bf16 := V m c main_v32
/-- The stacked up-projections. -/
abbrev barr (c : Dev nD) : Vec F S128x12288 .bf16 := V m c main_v34

/-- The activation block at point t. -/
abbrev xblk (c : Dev nD) (t : Fin cfg0.N) : Vec F S1024x1024 .bf16 := iblk m c 0 t
/-- The weight block at point t. -/
abbrev wblk (c : Dev nD) (t : Fin cfg0.N) : Vec F S1024x2048 .bf16 := iblk m c 1 t
/-- The down-projected block at point t. -/
abbrev ablk (c : Dev nD) (t : Fin cfg0.N) : Vec F S1x1024x128 .bf16 := iblk m c 2 t
/-- The up-projection block at point t. -/
abbrev bblk (c : Dev nD) (t : Fin cfg0.N) : Vec F S128x2048 .bf16 := iblk m c 3 t

/-! ## A block's entry in its array -/

/-- Entry (p, h) of the activation block at point t is entry (1024 (t / 24) + p, 1024 (t % 4) + h) of the array. -/
theorem xblk_apply (c : Dev nD) (t : Fin cfg0.N) (p h : Fin 1024) (r k : Fin 4096)
    (hr : r.val = t.val / 24 * 1024 + p.val) (hk : k.val = t.val % 4 * 1024 + h.val) :
    xblk m c t (ix2 p h) = xarr m c (ix2 r k) := by
  have hi := idx_x t
  show iblk m c 0 t (ix2 p h) = _
  unfold iblk
  rw [View.read_apply]
  show V m c main_v4 _ = V m c main_v4 _
  congr 1
  funext a
  apply Fin.ext
  match a with
  | ⟨0, _⟩ => show win0_0.index t 0 * 1024 + 1 * p.val = r.val; rw [hi.1, hr]; omega
  | ⟨1, _⟩ => show win0_0.index t 1 * 1024 + 1 * h.val = k.val; rw [hi.2, hk]; omega

/-- Entry (h, q) of the weight block at point t is entry (1024 (t % 4) + h, 2048 (t / 4 % 6) + q) of the array. -/
theorem wblk_apply (c : Dev nD) (t : Fin cfg0.N) (h : Fin 1024) (q : Fin 2048) (k : Fin 4096) (o : Fin 12288)
    (hk : k.val = t.val % 4 * 1024 + h.val) (ho : o.val = t.val / 4 % 6 * 2048 + q.val) :
    wblk m c t (ix2 h q) = warr m c (ix2 k o) := by
  have hi := idx_w t
  show iblk m c 1 t (ix2 h q) = _
  unfold iblk
  rw [View.read_apply]
  show V m c main_v33 _ = V m c main_v33 _
  congr 1
  funext a
  apply Fin.ext
  match a with
  | ⟨0, _⟩ => show win0_1.index t 0 * 1024 + 1 * h.val = k.val; rw [hi.1, hk]; omega
  | ⟨1, _⟩ => show win0_1.index t 1 * 2048 + 1 * q.val = o.val; rw [hi.2, ho]; omega

/-- Entry (0, p, j) of the down-projected block at point t is entry (t / 4 % 6 / 2, 1024 (t / 24) + p, j) of the
    array: the slab of the segment the column block lies in. -/
theorem ablk_apply (c : Dev nD) (t : Fin cfg0.N) (p : Fin 1024) (j : Fin 128) (s : Fin 3) (r : Fin 4096)
    (hs : s.val = t.val / 4 % 6 / 2) (hr : r.val = t.val / 24 * 1024 + p.val) :
    ablk m c t (ix3 (0 : Fin 1) p j) = aarr m c (ix3 s r j) := by
  have hi := idx_a t
  show iblk m c 2 t (ix3 (0 : Fin 1) p j) = _
  unfold iblk
  rw [View.read_apply]
  show V m c main_v32 _ = V m c main_v32 _
  congr 1
  funext a
  apply Fin.ext
  match a with
  | ⟨0, _⟩ => show win0_2.index t 0 * 1 + 1 * (0 : Fin 1).val = s.val; rw [hi.1, hs]; simp
  | ⟨1, _⟩ => show win0_2.index t 1 * 1024 + 1 * p.val = r.val; rw [hi.2.1, hr]; omega
  | ⟨2, _⟩ => show win0_2.index t 2 * 128 + 1 * j.val = j.val; rw [hi.2.2]; omega

/-- Entry (j, q) of the up-projection block at point t is entry (j, 2048 (t / 4 % 6) + q) of the array. -/
theorem bblk_apply (c : Dev nD) (t : Fin cfg0.N) (j : Fin 128) (q : Fin 2048) (o : Fin 12288)
    (ho : o.val = t.val / 4 % 6 * 2048 + q.val) :
    bblk m c t (ix2 j q) = barr m c (ix2 j o) := by
  have hi := idx_b t
  show iblk m c 3 t (ix2 j q) = _
  unfold iblk
  rw [View.read_apply]
  show V m c main_v34 _ = V m c main_v34 _
  congr 1
  funext a
  apply Fin.ext
  match a with
  | ⟨0, _⟩ => show win0_3.index t 0 * 128 + 1 * j.val = j.val; rw [hi.1]; omega
  | ⟨1, _⟩ => show win0_3.index t 1 * 2048 + 1 * q.val = o.val; rw [hi.2, ho]; omega

end Cert.KernelIdeal.HandValue

end
-- ==== Proof.LibBlockSum.lean ====
import Mathlib.Algebra.BigOperators.Fin
import Mathlib.Data.Fintype.BigOperators
import Mathlib.Logic.Equiv.Fin.Basic

/-! # Sums accumulated step by step, and a contraction cut into blocks

A block-wise matrix product accumulates, over KB steps, the partial sums of one entry: step `kb` adds the sum over
the TK contraction positions of block `kb`. Here: an accumulator defined by "first term, then add the next term" is
the sum of the terms so far; a sum over KB blocks of TK positions each is the sum over all KB · TK positions; and,
together, the accumulator after the last step is the whole contraction sum. All in any commutative additive monoid
(the extended reals are one: no finiteness is used). -/

namespace Cert.Hand.BlockSum

variable {M : Type*} [AddCommMonoid M]

/-! ## The accumulator is the sum of the terms so far -/

/-- An accumulator that starts at the first term and adds the next term at each step holds, after step `n`, the sum
    of the terms `0 … n`. The recurrence is asked only below a bound `K` (the number of steps). -/
theorem acc_eq_sum_range_of_lt (K : ℕ) (p acc : ℕ → M) (h0 : acc 0 = p 0)
    (hs : ∀ n, n + 1 < K → acc (n + 1) = acc n + p (n + 1)) (n : ℕ) (hn : n < K) :
    acc n = ∑ i ∈ Finset.range (n + 1), p i := by
  induction n with
  | zero => rw [h0, Finset.sum_range_one]
  | succ n ih => rw [hs n hn, ih (Nat.lt_of_succ_lt hn), Finset.sum_range_succ p (n + 1)]

/-- The same with the recurrence at every step. -/
theorem acc_eq_sum_range (p acc : ℕ → M) (h0 : acc 0 = p 0)
    (hs : ∀ n, acc (n + 1) = acc n + p (n + 1)) (n : ℕ) :
    acc n = ∑ i ∈ Finset.range (n + 1), p i :=
  acc_eq_sum_range_of_lt (n + 1) p acc h0 (fun m _ => hs m) n (Nat.lt_succ_self n)

/-- The same for an accumulator reset to zero before the first term is added: `acc 0 = 0 + p 0`. -/
theorem acc_eq_sum_range_of_lt_zero_add (K : ℕ) (p acc : ℕ → M) (h0 : acc 0 = 0 + p 0)
    (hs : ∀ n, n + 1 < K → acc (n + 1) = acc n + p (n + 1)) (n : ℕ) (hn : n < K) :
    acc n = ∑ i ∈ Finset.range (n + 1), p i :=
  acc_eq_sum_range_of_lt K p acc (h0.trans (zero_add _)) hs n hn

theorem acc_eq_sum_range_zero_add (p acc : ℕ → M) (h0 : acc 0 = 0 + p 0)
    (hs : ∀ n, acc (n + 1) = acc n + p (n + 1)) (n : ℕ) :
    acc n = ∑ i ∈ Finset.range (n + 1), p i :=
  acc_eq_sum_range p acc (h0.trans (zero_add _)) hs n

/-- A sum over the first `n` naturals is the sum over `Fin n`. -/
theorem sum_range_eq_sum_fin (p : ℕ → M) (n : ℕ) : ∑ i ∈ Finset.range n, p i = ∑ i : Fin n, p i.val :=
  (Fin.sum_univ_eq_sum_range p n).symm

/-- The accumulator after step `n` as a sum over `Fin (n + 1)`. -/
theorem acc_eq_sum_fin_of_lt (K : ℕ) (p acc : ℕ → M) (h0 : acc 0 = p 0)
    (hs : ∀ n, n + 1 < K → acc (n + 1) = acc n + p (n + 1)) (n : ℕ) (hn : n < K) :
    acc n = ∑ i : Fin (n + 1), p i.val :=
  (acc_eq_sum_range_of_lt K p acc h0 hs n hn).trans (sum_range_eq_sum_fin p (n + 1))

theorem acc_eq_sum_fin (p acc : ℕ → M) (h0 : acc 0 = p 0)
    (hs : ∀ n, acc (n + 1) = acc n + p (n + 1)) (n : ℕ) :
    acc n = ∑ i : Fin (n + 1), p i.val :=
  (acc_eq_sum_range p acc h0 hs n).trans (sum_range_eq_sum_fin p (n + 1))

theorem acc_eq_sum_fin_of_lt_zero_add (K : ℕ) (p acc : ℕ → M) (h0 : acc 0 = 0 + p 0)
    (hs : ∀ n, n + 1 < K → acc (n + 1) = acc n + p (n + 1)) (n : ℕ) (hn : n < K) :
    acc n = ∑ i : Fin (n + 1), p i.val :=
  acc_eq_sum_fin_of_lt K p acc (h0.trans (zero_add _)) hs n hn

/-- After the last of `K` steps: the sum of all `K` terms. -/
theorem acc_last_eq_sum_fin (K : ℕ) (hK : 0 < K) (p acc : ℕ → M) (h0 : acc 0 = p 0)
    (hs : ∀ n, n + 1 < K → acc (n + 1) = acc n + p (n + 1)) :
    acc (K - 1) = ∑ i : Fin K, p i.val := by
  obtain ⟨k, rfl⟩ : ∃ k, K = k + 1 := ⟨K - 1, by omega⟩
  exact acc_eq_sum_fin_of_lt (k + 1) p acc h0 hs k (Nat.lt_succ_self k)

/-! ## A contraction cut into blocks -/

/-- Position `kk` of block `kb` is a position of the whole contraction. -/
theorem block_lt {KB TK : ℕ} (kb : Fin KB) (kk : Fin TK) : kb.val * TK + kk.val < KB * TK :=
  calc kb.val * TK + kk.val < kb.val * TK + TK := Nat.add_lt_add_left kk.isLt _
    _ = (kb.val + 1) * TK := (Nat.succ_mul _ _).symm
    _ ≤ KB * TK := Nat.mul_le_mul_right _ kb.isLt

/-- Summing block by block is summing over all positions: position `kk` of block `kb` is `kb · TK + kk`. -/
theorem sum_blocks (KB TK : ℕ) (f : Fin (KB * TK) → M) :
    ∑ kb : Fin KB, ∑ kk : Fin TK, f ⟨kb.val * TK + kk.val, block_lt kb kk⟩ = ∑ k : Fin (KB * TK), f k := by
  rw [← Equiv.sum_comp (finProdFinEquiv (m := KB) (n := TK)) f, Fintype.sum_prod_type]
  refine Finset.sum_congr rfl fun kb _ => Finset.sum_congr rfl fun kk _ => congrArg f (Fin.ext ?_)
  show kb.val * TK + kk.val = kk.val + TK * kb.val
  rw [Nat.mul_comm, Nat.add_comm]

/-- The same at a literal extent `N = KB · TK` (for example 4 blocks of 512 at `Fin 2048`, 8 blocks of 512 at
    `Fin 4096`: `hN` is `rfl` or `by decide`); the bound on `kb · TK + kk` may be any proof `hlt`. -/
theorem sum_blocks_cast (KB TK N : ℕ) (hN : KB * TK = N) (f : Fin N → M)
    (hlt : ∀ (kb : Fin KB) (kk : Fin TK), kb.val * TK + kk.val < N := fun kb kk => hN ▸ block_lt kb kk) :
    ∑ kb : Fin KB, ∑ kk : Fin TK, f ⟨kb.val * TK + kk.val, hlt kb kk⟩ = ∑ k : Fin N, f k := by
  subst hN
  exact sum_blocks KB TK f

/-- The same for a function of the position as a natural number. -/
theorem sum_blocks_nat (KB TK : ℕ) (g : ℕ → M) :
    ∑ kb : Fin KB, ∑ kk : Fin TK, g (kb.val * TK + kk.val) = ∑ k : Fin (KB * TK), g k.val :=
  sum_blocks KB TK fun k => g k.val

theorem sum_blocks_nat_cast (KB TK N : ℕ) (hN : KB * TK = N) (g : ℕ → M) :
    ∑ kb : Fin KB, ∑ kk : Fin TK, g (kb.val * TK + kk.val) = ∑ k : Fin N, g k.val := by
  subst hN
  exact sum_blocks_nat KB TK g

/-- Four blocks of 512 positions are the 2048 positions. -/
theorem sum_blocks_4_512 (f : Fin 2048 → M) (hlt : ∀ (kb : Fin 4) (kk : Fin 512), kb.val * 512 + kk.val < 2048 := fun kb kk => by omega) :
    ∑ kb : Fin 4, ∑ kk : Fin 512, f ⟨kb.val * 512 + kk.val, hlt kb kk⟩ = ∑ k : Fin 2048, f k :=
  sum_blocks_cast 4 512 2048 rfl f hlt

/-- Eight blocks of 512 positions are the 4096 positions. -/
theorem sum_blocks_8_512 (f : Fin 4096 → M) (hlt : ∀ (kb : Fin 8) (kk : Fin 512), kb.val * 512 + kk.val < 4096 := fun kb kk => by omega) :
    ∑ kb : Fin 8, ∑ kk : Fin 512, f ⟨kb.val * 512 + kk.val, hlt kb kk⟩ = ∑ k : Fin 4096, f k :=
  sum_blocks_cast 8 512 4096 rfl f hlt

/-! ## Both: the accumulator after the last step is the whole contraction sum -/

/-- An accumulator whose step `kb` adds the sum over block `kb`'s TK positions (`hp`), started at the first
    block's sum, holds after the last of the KB steps the sum over all `N = KB · TK` positions. -/
theorem acc_last_eq_sum_blocks (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = p 0) (hs : ∀ n, n + 1 < KB → acc (n + 1) = acc n + p (n + 1)) :
    acc (KB - 1) = ∑ k : Fin N, f k := by
  rw [acc_last_eq_sum_fin KB hKB p acc h0 hs, ← sum_blocks_cast KB TK N hN f hlt]
  exact Finset.sum_congr rfl fun kb _ => hp kb

/-- The same for an accumulator reset to zero before the first block's sum is added. -/
theorem acc_last_eq_sum_blocks_zero_add (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = 0 + p 0) (hs : ∀ n, n + 1 < KB → acc (n + 1) = acc n + p (n + 1)) :
    acc (KB - 1) = ∑ k : Fin N, f k :=
  acc_last_eq_sum_blocks KB TK N hN hKB f p acc hlt hp (h0.trans (zero_add _)) hs

/-- The same with the block sums written out in the recurrence: no intermediate `p`. -/
theorem acc_last_eq_sum_blocks' (KB TK N : ℕ) (hN : KB * TK = N) (hKB : 0 < KB) (f : Fin N → M) (acc : ℕ → M)
    (hlt : ∀ (kb : Fin KB) (kk : Fin TK), kb.val * TK + kk.val < N)
    (h0 : acc 0 = ∑ kk : Fin TK, f ⟨(⟨0, hKB⟩ : Fin KB).val * TK + kk.val, hlt ⟨0, hKB⟩ kk⟩)
    (hs : ∀ n (h : n + 1 < KB), acc (n + 1) = acc n + ∑ kk : Fin TK, f ⟨(⟨n + 1, h⟩ : Fin KB).val * TK + kk.val, hlt ⟨n + 1, h⟩ kk⟩) :
    acc (KB - 1) = ∑ k : Fin N, f k := by
  refine acc_last_eq_sum_blocks KB TK N hN hKB f
    (fun n => if h : n < KB then ∑ kk : Fin TK, f ⟨(⟨n, h⟩ : Fin KB).val * TK + kk.val, hlt ⟨n, h⟩ kk⟩ else 0) acc hlt
    (fun kb => by rw [dif_pos kb.isLt]) (by rw [h0, dif_pos hKB]) (fun n h => by rw [hs n h, dif_pos h])

/-! ## Steps numbered through all blocks

The grid numbers its points through: point `t` is step `t % K` of block `t / K`. At a block's first step the
accumulator restarts, at the others it adds to what the point before left. -/

/-- With K steps per block, the accumulator restarted at each block's first step (`t % K = 0`) and adding the
    step's term to what step `t - 1` left otherwise holds, after step `t`, the sum of the terms from the block's
    first step `K · (t / K)` up to `t`. The two rules are asked only of the steps below `N`. -/
theorem seg_acc_eq_sum_range (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) :
    a t = ∑ i ∈ Finset.range (t % K + 1), p (K * (t / K) + i) := by
  have hr : t % K < K := Nat.mod_lt _ hK
  have key := acc_eq_sum_range_of_lt (t % K + 1) (fun n => p (K * (t / K) + n)) (fun n => a (K * (t / K) + n))
    (hA (K * (t / K)) (lt_of_le_of_lt (Nat.mul_div_le t K) ht) (Nat.mul_mod_right K (t / K)))
    (fun n hn => by
      have hn' : n + 1 < K := lt_of_lt_of_le hn hr
      have hle : K * (t / K) + (n + 1) ≤ t := by
        have := Nat.div_add_mod t K
        omega
      have hm : (K * (t / K) + (n + 1)) % K ≠ 0 := by
        rw [Nat.mul_add_mod, Nat.mod_eq_of_lt hn']; exact Nat.succ_ne_zero n
      exact hB (K * (t / K) + (n + 1)) (lt_of_le_of_lt hle ht) hm)
    (t % K) (Nat.lt_succ_self _)
  have e : K * (t / K) + t % K = t := Nat.div_add_mod t K
  simpa only [e] using key

/-- The same for an accumulator reset to zero before the first term is added. -/
theorem seg_acc_eq_sum_range_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) :
    a t = ∑ i ∈ Finset.range (t % K + 1), p (K * (t / K) + i) :=
  seg_acc_eq_sum_range K hK a p N (fun t h h0 => (hA t h h0).trans (zero_add _)) hB t ht

/-- After a block's last step (`t % K = K - 1`): the sum of the block's K terms. -/
theorem seg_acc_last (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) (hl : t % K = K - 1) :
    a t = ∑ i : Fin K, p (K * (t / K) + i.val) := by
  rw [seg_acc_eq_sum_range K hK a p N hA hB t ht, hl, Nat.sub_add_cancel hK]
  exact sum_range_eq_sum_fin (fun i => p (K * (t / K) + i)) K

theorem seg_acc_last_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) (hl : t % K = K - 1) :
    a t = ∑ i : Fin K, p (K * (t / K) + i.val) :=
  seg_acc_last K hK a p N (fun t h h0 => (hA t h h0).trans (zero_add _)) hB t ht hl

/-- After a block's last step, when step `kb` of the block adds the sum over the TK positions of contraction block
    `kb` (`hp`): the sum over all `Nc = KB · TK` contraction positions. -/
theorem seg_acc_last_eq_sum_blocks (KB TK Nc : ℕ) (hN : KB * TK = Nc) (hKB : 0 < KB) (f : Fin Nc → M) (a p : ℕ → M) (N : ℕ)
    (hA : ∀ t, t < N → t % KB = 0 → a t = 0 + p t)
    (hB : ∀ t, t < N → t % KB ≠ 0 → a t = a (t - 1) + p t)
    (t : ℕ) (ht : t < N) (hl : t % KB = KB - 1)
    (hlt : ∀ (kb : Fin KB) (kk : Fin TK), kb.val * TK + kk.val < Nc)
    (hp : ∀ kb : Fin KB, p (KB * (t / KB) + kb.val) = ∑ kk : Fin TK, f ⟨kb.val * TK + kk.val, hlt kb kk⟩) :
    a t = ∑ k : Fin Nc, f k := by
  rw [seg_acc_last_zero_add KB hKB a p N hA hB t ht hl, ← sum_blocks_cast KB TK Nc hN f hlt]
  exact Finset.sum_congr rfl fun kb _ => hp kb

end Cert.Hand.BlockSum
-- ==== Proof.Spec.lean ====
/-
  The function both programs compute, over the extended reals.

  Inputs: activations x [4096, 4096], one adapter id per token widx [4096], the base projection W [4096, 12288],
  the adapters' down-projections A [8, 4096, 48] (48 = three rank-16 chunks: query, key, value) and their
  up-projections Bq [8, 16, 4096], Bkv [8, 16, 8192] (key columns first, then value columns).

  Output entry (t, o), with s = o / 4096 the segment (query, key or value) of column o:

      G t o  =  ∑ h, x[t, h] · W[h, o]
              + ∑ a < 8, ∑ r < 16, ( (∑ h, x[t, h] · A[a, h, 16 s + r]) · mask a t ) · Bc[a, r, o]

  where mask a t is 1 when token t uses adapter a and 0 otherwise, and Bc is Bq and Bkv laid side by side
  along the columns. Sums over the extended reals are sums in a commutative additive monoid; the mask only ever
  multiplies, and 0 · y = 0, 1 · y = y for every extended real y, so no finiteness of the inputs is used anywhere.
-/
import Idealize.ShloMosaic.Lib.ValueIdx
import Idealize.ShloMosaic.PureOps.Ideal

noncomputable section

namespace Cert.Hand.Spec

open Idealize.ShloMosaic Idealize.ShloMosaic.ValueIdx

/-- 1 where token `t` uses adapter `a`, else 0. -/
def mask (widx : (⟨1, ![4096]⟩ : Shape).Idx → BitVec 32) (a : Fin 8) (t : Fin 4096) : EReal :=
  if widx (ix1 t) = BitVec.ofNat 32 a.val then 1 else 0

theorem mask_eq_zero_or_one (widx : (⟨1, ![4096]⟩ : Shape).Idx → BitVec 32) (a : Fin 8) (t : Fin 4096) :
    mask widx a t = 0 ∨ mask widx a t = 1 := by
  unfold mask; split
  · exact Or.inr rfl
  · exact Or.inl rfl

/-- The up-projections side by side: columns 0 … 4095 are the query's, 4096 … 12287 the key's then the value's. -/
def Bc (Bq : (⟨3, ![8, 16, 4096]⟩ : Shape).Idx → EReal) (Bkv : (⟨3, ![8, 16, 8192]⟩ : Shape).Idx → EReal)
    (a : Fin 8) (r : Fin 16) (o : Fin 12288) : EReal :=
  if h : o.val < 4096 then Bq (ix3 a r ⟨o.val, h⟩) else Bkv (ix3 a r ⟨o.val - 4096, by omega⟩)

/-- Token `t`'s activation row against column `c` of adapter `a`'s down-projection. -/
def xa (x : (⟨2, ![4096, 4096]⟩ : Shape).Idx → EReal) (A : (⟨3, ![8, 4096, 48]⟩ : Shape).Idx → EReal)
    (a : Fin 8) (t : Fin 4096) (c : Fin 48) : EReal :=
  ∑ h : Fin 4096, x (ix2 t h) * A (ix3 a h c)

/-- Column `16 s + r` of the down-projection, for the segment `s = o / 4096` of output column `o`. -/
def segcol (o : Fin 12288) (r : Fin 16) : Fin 48 := ⟨o.val / 4096 * 16 + r.val, by omega⟩

/-- The result at entry (t, o). -/
def G (x : (⟨2, ![4096, 4096]⟩ : Shape).Idx → EReal) (widx : (⟨1, ![4096]⟩ : Shape).Idx → BitVec 32)
    (W : (⟨2, ![4096, 12288]⟩ : Shape).Idx → EReal) (A : (⟨3, ![8, 4096, 48]⟩ : Shape).Idx → EReal)
    (Bq : (⟨3, ![8, 16, 4096]⟩ : Shape).Idx → EReal) (Bkv : (⟨3, ![8, 16, 8192]⟩ : Shape).Idx → EReal)
    (t : Fin 4096) (o : Fin 12288) : EReal :=
  (∑ h : Fin 4096, x (ix2 t h) * W (ix2 h o))
    + ∑ a : Fin 8, ∑ r : Fin 16, (xa x A a t (segcol o r) * mask widx a t) * Bc Bq Bkv a r o

/-- The result array. -/
def Gfun (x : (⟨2, ![4096, 4096]⟩ : Shape).Idx → EReal) (widx : (⟨1, ![4096]⟩ : Shape).Idx → BitVec 32)
    (W : (⟨2, ![4096, 12288]⟩ : Shape).Idx → EReal) (A : (⟨3, ![8, 4096, 48]⟩ : Shape).Idx → EReal)
    (Bq : (⟨3, ![8, 16, 4096]⟩ : Shape).Idx → EReal) (Bkv : (⟨3, ![8, 16, 8192]⟩ : Shape).Idx → EReal) :
    (⟨2, ![4096, 12288]⟩ : Shape).Idx → EReal :=
  fun i => G x widx W A Bq Bkv (i 0) (i 1)

theorem Gfun_apply (x widx W A Bq Bkv) (t : Fin 4096) (o : Fin 12288) :
    Gfun x widx W A Bq Bkv (ix2 t o) = G x widx W A Bq Bkv t o := rfl

/-! ## Masking before or after the contraction -/

/-- Masking the activations before the contraction or the contracted value after it gives the same extended real:
    the mask is 0 or 1. -/
theorem sum_mask_mul (μ : EReal) (hμ : μ = 0 ∨ μ = 1) {ι : Type} [Fintype ι] (u v : ι → EReal) :
    ∑ h, (μ * u h) * v h = (∑ h, u h * v h) * μ := by
  rcases hμ with rfl | rfl
  · simp
  · simp

/-! ## Eight terms added one after the other onto zero -/

theorem fold8 (T : Fin 8 → EReal) :
    ((((((((0 + T 0) + T 1) + T 2) + T 3) + T 4) + T 5) + T 6) + T 7) = ∑ a : Fin 8, T a := by
  rw [Fin.sum_univ_eight, zero_add]

/-! ## The kernel's arrangement of the same sum

The kernel contracts the activations with the base projection over all 4096 positions and then adds ONE product of
width 128: per token and segment, the 8 adapters' masked rank-16 chunks laid side by side (`xag`), against the 8
adapters' up-projections stacked the same way (`bst`). Position j of the 128 is rank r = j % 16 of adapter a = j / 16. -/

/-- The kernel's form of entry (t, o), over its four staged arrays. -/
def KG (xb : (⟨2, ![4096, 4096]⟩ : Shape).Idx → EReal) (wb : (⟨2, ![4096, 12288]⟩ : Shape).Idx → EReal)
    (xag : (⟨3, ![3, 4096, 128]⟩ : Shape).Idx → EReal) (bst : (⟨2, ![128, 12288]⟩ : Shape).Idx → EReal)
    (t : Fin 4096) (o : Fin 12288) : EReal :=
  (∑ h : Fin 4096, xb (ix2 t h) * wb (ix2 h o))
    + ∑ j : Fin 128, xag (ix3 (⟨o.val / 4096, by omega⟩ : Fin 3) t j) * bst (ix2 j o)

def KGfun (xb : (⟨2, ![4096, 4096]⟩ : Shape).Idx → EReal) (wb : (⟨2, ![4096, 12288]⟩ : Shape).Idx → EReal)
    (xag : (⟨3, ![3, 4096, 128]⟩ : Shape).Idx → EReal) (bst : (⟨2, ![128, 12288]⟩ : Shape).Idx → EReal) :
    (⟨2, ![4096, 12288]⟩ : Shape).Idx → EReal :=
  fun i => KG xb wb xag bst (i 0) (i 1)

theorem KGfun_apply (xb wb xag bst) (t : Fin 4096) (o : Fin 12288) :
    KGfun xb wb xag bst (ix2 t o) = KG xb wb xag bst t o := rfl

/-- Adapter and rank of position j of the 128. -/
def adOf (j : Fin 128) : Fin 8 := ⟨j.val / 16, by omega⟩
def rkOf (j : Fin 128) : Fin 16 := ⟨j.val % 16, Nat.mod_lt _ (by decide)⟩

end Cert.Hand.Spec

end
-- ==== Proof.KI.ValueAcc.lean ====
/-
  The output block's entry after the last contraction step.

  Fix a core, an entry (p, q) of the 1024 × 2048 output block, and follow the staging buffer's entry over the grid's
  points. At a point with k = 0 the block is reset and the step adds its term onto zero; at k = 1, 2, 3 the step adds
  its term onto what the point before left. The term of the step at point t is row p of the activation block (i, k)
  against column q of the weight block (k, j), a sum over 1024 contraction positions. So after the step at a point
  with k = 3 the entry holds the four blocks' sums, which together are the sum over all 4096 contraction positions
  of row 1024 i + p of the activations against column 2048 j + q of the base projection. At k = 3 the low-rank
  product is then added: row 1024 i + p of segment j / 2's slab against column 2048 j + q of the stacked
  up-projections, 128 terms. Sums over the extended reals are sums in a commutative additive monoid: nothing here
  uses finiteness.
-/
import proofs.«408339_j30262339567848_3_alg».proof.Proof.KI.ValuePay
import proofs.«408339_j30262339567848_3_alg».proof.Proof.KI.ValueBlk
import proofs.«408339_j30262339567848_3_alg».proof.Proof.LibBlockSum
import proofs.«408339_j30262339567848_3_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ)

/-- The term the step at point n adds to entry (p, q): row p of the activation block against column q of the
    weight block. (Zero past the grid, where nothing is asked of it.) -/
def stepTerm (c : Dev nD) (p : Fin 1024) (q : Fin 2048) (n : ℕ) : EReal :=
  if h : n < cfg0.N then ∑ hh : Fin 1024, xblk m c ⟨n, h⟩ (ix2 p hh) * wblk m c ⟨n, h⟩ (ix2 hh q) else 0

/-- Entry (p, q) of the staging buffer after the STEP at point n: at k = 3 the value before the low-rank product is
    added, at the other points what the body leaves. -/
def accAt (c : Dev nD) (p : Fin 1024) (q : Fin 2048) (n : ℕ) : EReal :=
  if h : n < cfg0.N then
    if n % 4 = 3 then
      k0_pay2 (xblk m c ⟨n, h⟩) (wblk m c ⟨n, h⟩) (outsAt0 m c (n - 1) (Nat.lt_of_le_of_lt (Nat.sub_le _ _) h)) (ix2 p q)
    else outsAt0 m c n h (ix2 p q)
  else 0

/-- Away from k = 3 the entry after the step is the entry the body leaves. -/
theorem accAt_of_ne3 (c : Dev nD) (p : Fin 1024) (q : Fin 2048) (n : ℕ) (h : n < cfg0.N) (h3 : ¬n % 4 = 3) :
    accAt m c p q n = outsAt0 m c n h (ix2 p q) := by
  unfold accAt
  rw [dif_pos h, if_neg h3]

/-- At k = 3 it is the step's payload over what the point before left. -/
theorem accAt_of_eq3 (c : Dev nD) (p : Fin 1024) (q : Fin 2048) (n : ℕ) (h : n < cfg0.N) (h3 : n % 4 = 3) :
    accAt m c p q n = k0_pay2 (xblk m c ⟨n, h⟩) (wblk m c ⟨n, h⟩)
      (outsAt0 m c (n - 1) (Nat.lt_of_le_of_lt (Nat.sub_le _ _) h)) (ix2 p q) := by
  unfold accAt
  rw [dif_pos h, if_pos h3]

theorem stepTerm_of_lt (c : Dev nD) (p : Fin 1024) (q : Fin 2048) (n : ℕ) (h : n < cfg0.N) :
    stepTerm m c p q n = ∑ hh : Fin 1024, xblk m c ⟨n, h⟩ (ix2 p hh) * wblk m c ⟨n, h⟩ (ix2 hh q) := by
  unfold stepTerm
  rw [dif_pos h]

/-- At a point with k = 0: the step's term onto zero. -/
theorem accAt_reset (c : Dev nD) (p : Fin 1024) (q : Fin 2048) (n : ℕ) (h : n < cfg0.N) (h0 : n % 4 = 0) :
    accAt m c p q n = 0 + stepTerm m c p q n := by
  rw [accAt_of_ne3 m c p q n h (by omega), stepTerm_of_lt m c p q n h]
  refine (congrFun (outsAt0_A m c ⟨n, h⟩ h0) (ix2 p q)).trans ?_
  refine (pay2_apply (xblk m c ⟨n, h⟩) (wblk m c ⟨n, h⟩) (k0_pay1 (F := Ideal)) p q).trans ?_
  exact congrArg (· + ∑ hh : Fin 1024, xblk m c ⟨n, h⟩ (ix2 p hh) * wblk m c ⟨n, h⟩ (ix2 hh q)) (pay1_apply p q)

/-- At a point with k = 1, 2 or 3: the step's term onto what the step before left. -/
theorem accAt_step (c : Dev nD) (p : Fin 1024) (q : Fin 2048) (n : ℕ) (h : n < cfg0.N) (h0 : n % 4 ≠ 0) :
    accAt m c p q n = accAt m c p q (n - 1) + stepTerm m c p q n := by
  have h' : n - 1 < cfg0.N := Nat.lt_of_le_of_lt (Nat.sub_le _ _) h
  rw [accAt_of_ne3 m c p q (n - 1) h' (by omega), stepTerm_of_lt m c p q n h]
  by_cases h3 : n % 4 = 3
  · rw [accAt_of_eq3 m c p q n h h3]
    exact pay2_apply (xblk m c ⟨n, h⟩) (wblk m c ⟨n, h⟩) (outsAt0 m c (n - 1) h') p q
  · rw [accAt_of_ne3 m c p q n h h3]
    refine (congrFun (outsAt0_B m c ⟨n, h⟩ h0 h3) (ix2 p q)).trans ?_
    exact pay2_apply (xblk m c ⟨n, h⟩) (wblk m c ⟨n, h⟩) (outsAt0 m c (n - 1) h') p q

/-- After the step at a point with k = 3 the entry holds the whole contraction: row 1024 (t / 24) + p of the
    activations against column 2048 (t / 4 % 6) + q of the base projection, over all 4096 positions. -/
theorem accAt_last (c : Dev nD) (p : Fin 1024) (q : Fin 2048) (t : Fin cfg0.N) (h3 : t.val % 4 = 3)
    (r : Fin 4096) (o : Fin 12288) (hr : r.val = t.val / 24 * 1024 + p.val) (ho : o.val = t.val / 4 % 6 * 2048 + q.val) :
    accAt m c p q t.val = ∑ k : Fin 4096, xarr m c (ix2 r k) * warr m c (ix2 k o) := by
  have hN : cfg0.N = 96 := N_0
  have ht : t.val < 96 := hN ▸ t.isLt
  refine Cert.Hand.BlockSum.seg_acc_last_eq_sum_blocks 4 1024 4096 rfl (by decide)
    (fun k : Fin 4096 => xarr m c (ix2 r k) * warr m c (ix2 k o)) (accAt m c p q) (stepTerm m c p q) cfg0.N
    (fun n hn h0 => accAt_reset m c p q n hn h0) (fun n hn h0 => accAt_step m c p q n hn h0)
    t.val t.isLt h3 (fun kb kk => by have := kb.isLt; have := kk.isLt; omega) (fun kb => ?_)
  have hkb := kb.isLt
  have hn : 4 * (t.val / 4) + kb.val < cfg0.N :=
    lt_of_lt_of_eq (show 4 * (t.val / 4) + kb.val < 96 by omega) hN.symm
  rw [stepTerm_of_lt m c p q _ hn]
  refine Finset.sum_congr rfl fun kk _ => ?_
  have hkk := kk.isLt
  rw [xblk_apply m c ⟨4 * (t.val / 4) + kb.val, hn⟩ p kk r ⟨kb.val * 1024 + kk.val, by omega⟩
      (by show r.val = (4 * (t.val / 4) + kb.val) / 24 * 1024 + p.val; omega)
      (by show kb.val * 1024 + kk.val = (4 * (t.val / 4) + kb.val) % 4 * 1024 + kk.val; omega),
    wblk_apply m c ⟨4 * (t.val / 4) + kb.val, hn⟩ kk q ⟨kb.val * 1024 + kk.val, by omega⟩ o
      (by show kb.val * 1024 + kk.val = (4 * (t.val / 4) + kb.val) % 4 * 1024 + kk.val; omega)
      (by show o.val = (4 * (t.val / 4) + kb.val) / 4 % 6 * 2048 + q.val; omega)]

/-- What the body leaves at a point with k = 3, at entry (p, q): the kernel's form of entry
    (1024 (t / 24) + p, 2048 (t / 4 % 6) + q) of the result. -/
theorem outs_last (c : Dev nD) (p : Fin 1024) (q : Fin 2048) (t : Fin cfg0.N) (h3 : t.val % 4 = 3)
    (r : Fin 4096) (o : Fin 12288) (hr : r.val = t.val / 24 * 1024 + p.val) (ho : o.val = t.val / 4 % 6 * 2048 + q.val) :
    outsAt0 m c t.val t.isLt (ix2 p q)
      = Cert.Hand.Spec.KG (xarr m c) (warr m c) (aarr m c) (barr m c) r o := by
  have hq := q.isLt
  refine (congrFun (outsAt0_C m c t h3) (ix2 p q)).trans ?_
  refine (pay3_apply (ablk m c t) (bblk m c t)
    (k0_pay2 (xblk m c t) (wblk m c t) (outsAt0 m c (t.val - 1) (Nat.lt_of_le_of_lt (Nat.sub_le _ _) t.isLt))) p q).trans ?_
  unfold Cert.Hand.Spec.KG
  refine congr (congrArg HAdd.hAdd ?_) ?_
  · exact (accAt_of_eq3 m c p q t.val t.isLt h3).symm.trans (accAt_last m c p q t h3 r o hr ho)
  · refine Finset.sum_congr rfl fun j _ => ?_
    rw [ablk_apply m c t p j ⟨o.val / 4096, by have := o.isLt; omega⟩ r (by show o.val / 4096 = t.val / 4 % 6 / 2; omega) hr,
      bblk_apply m c t j q o ho]

end Cert.KernelIdeal.HandValue

end
-- ==== Proof.KI.Value.lean ====
/-
  The output array after the last grid point.

  The output window writes its block back at the points with k = 3, and there the staging buffer holds, entry by
  entry, the kernel's form of the result: at point t = (i, j, 3), entry (p, q) of the block is entry
  (1024 i + p, 2048 j + q) of the result. Every entry (r, o) of the 4096 × 12288 array lies in the block of the point
  i = r / 1024, j = o / 2048, k = 3. So the array ends holding the result everywhere.
-/
import proofs.«408339_j30262339567848_3_alg».proof.Proof.KI.ValueAcc
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

variable (m : (ℓ : Loc nD τ sig) → Buf (Elt Ideal) ℓ)

/-- The result array: the kernel's form of every entry, over the four arrays the region finds. -/
abbrev result (c : Dev nD) : Vec Ideal S4096x12288 .f32 :=
  Cert.Hand.Spec.KGfun (xarr m c) (warr m c) (aarr m c) (barr m c)

/-- What a point with k = 3 writes back is its block of the result. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  have hN : cfg0.N = 96 := N_0
  have ht : t.val < 96 := hN ▸ t.isLt
  have hi := idx_o t
  show (cfg0.win 4).cut (grid0.coords t) ((dats m 0 c).after 4 t) = _
  rw [after0_4]
  refine funext fun (y : S1024x2048.Idx) => ?_
  obtain ⟨p, q, rfl⟩ : ∃ (p : Fin 1024) (q : Fin 2048), y = ix2 p q := ⟨y 0, y 1, eq_ix2 y⟩
  have hp := p.isLt
  have hq := q.isLt
  rw [View.read_apply]
  have he : (((cfg0.win 4).blk t).view.emb (ix2 p q) : S4096x12288.Idx)
      = ix2 (⟨t.val / 24 * 1024 + p.val, by omega⟩ : Fin 4096) (⟨t.val / 4 % 6 * 2048 + q.val, by omega⟩ : Fin 12288) :=
    funext fun a => Fin.ext (by
      match a with
      | ⟨0, _⟩ => show win0_4.index t 0 * 1024 + 1 * p.val = t.val / 24 * 1024 + p.val; rw [hi.1]; omega
      | ⟨1, _⟩ => show win0_4.index t 1 * 2048 + 1 * q.val = t.val / 4 % 6 * 2048 + q.val; rw [hi.2]; omega)
  show outsAt0 m c t.val t.isLt (ix2 p q) = result m c (((cfg0.win 4).blk t).view.emb (ix2 p q))
  exact (outs_last m c p q t h3 _ _ rfl rfl).trans (congrArg (result m c) he.symm)

/-- Every entry of the array is in the block some point with k = 3 writes back. -/
theorem cover (i : S4096x12288.Idx) :
    ∃ t : Fin cfg0.N, (cfg0.win 4).flush t = true ∧ i ∈ ((cfg0.win 4).blk t).view.set := by
  have hN : cfg0.N = 96 := N_0
  have h0 : (i 0 : Nat) < 4096 := (i 0).isLt
  have h1 : (i 1 : Nat) < 12288 := (i 1).isLt
  obtain ⟨t, ht⟩ : ∃ t : Fin cfg0.N, t.val = ((i 0 : Nat) / 1024 * 6 + (i 1 : Nat) / 2048) * 4 + 3 :=
    ⟨⟨((i 0 : Nat) / 1024 * 6 + (i 1 : Nat) / 2048) * 4 + 3, by rw [hN]; omega⟩, rfl⟩
  have hi := idx_o t
  refine ⟨t, (flush0_4 t).mpr (by rw [ht]; omega), ?_⟩
  show i ∈ ((View.whole main_v35).slice (win0_4.rect t)).set
  rw [View.set_slice_whole, Rect.mem_set_unit]
  intro a
  match a with
  | ⟨0, _⟩ =>
    show win0_4.index t 0 * 1024 ≤ (i 0 : Nat) ∧ (i 0 : Nat) < win0_4.index t 0 * 1024 + 1024
    rw [hi.1, ht]; omega
  | ⟨1, _⟩ =>
    show win0_4.index t 1 * 2048 ≤ (i 1 : Nat) ∧ (i 1 : Nat) < win0_4.index t 1 * 2048 + 2048
    rw [hi.2, ht]; omega

/-- The output array after the last grid point holds the kernel's form of the result. -/
theorem final (c : Dev nD) :
    (Hand.dats (F := Ideal) m 0 c).arrAt 4 cfg0.N
      = Cert.Hand.Spec.KGfun (Hand.V m c main_v4) (Hand.V m c main_v33) (Hand.V m c main_v32) (Hand.V m c main_v34) :=
  (dats m 0 c).arrAt_eq_of_cover 4 (result m c) (flushed_eq m c) cover

end Cert.KernelIdeal.HandValue

end
-- ==== Proof.KI.HostRead.lean ====
/-
  What the region finds in its four input arrays, over the extended reals.

  Before the region, the host program stages four arrays. The activations and the base projection are converted to
  the narrower float format, which over the extended reals changes nothing. The two up-projections are laid side by
  side along the columns and the eight adapters' sixteen ranks stacked into 128 rows: row j is rank j % 16 of adapter
  j / 16. The low-rank activations: the activations are contracted once with all eight adapters' down-projections
  (8 · 48 = 384 columns, column 48 a + c being column c of adapter a), the three chunks of sixteen columns (query, key,
  value) cut out per adapter, each multiplied by the token's one-hot adapter mask (1 where the token's adapter id is a,
  else 0), the eight adapters' chunks laid side by side (128 columns), and the three chunks stacked along a new leading
  axis.
-/
import proofs.«408339_j30262339567848_3_alg».proof.Proof.KI.Kit
import proofs.«408339_j30262339567848_3_alg».proof.Proof.Spec
import proofs.«408339_j30262339567848_3_alg».proof.Proof.LibPlainDot
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.HandHost

open Cert.KernelIdeal Cert.KernelIdeal.Gen
open Idealize.ShloMosaic Idealize.ShloMosaic.TcCoe Idealize.ShloMosaic.ValueIdx
open Idealize.ShloMosaic.StableHlo
open Cert.Hand

/-! ## The stacked up-projections at an entry -/

/-- Row j, column o of the two up-projections laid side by side and stacked: rank j % 16 of adapter j / 16, from the
    query's array for the first 4096 columns and from the key-and-value array after them. -/
theorem stackedB_apply (Bq : FVec Ideal S8x16x4096 .f32) (Bkv : FVec Ideal S8x16x8192 .f32) (j : Fin 128) (o : Fin 12288) :
    (truncf (F := Ideal) .bf16 (shapeCast S128x12288
        (concatenate S8x16x12288 2 [⟨S8x16x4096, Bq⟩, ⟨S8x16x8192, Bkv⟩] concatenates_S8x16x4096_S8x16x8192_S8x16x12288_d2)
        shapeCasts_S8x16x12288_S128x12288) bitsLt_bf16_f32 : FVec Ideal S128x12288 .bf16) (ix2 j o)
      = Spec.Bc Bq Bkv (Spec.adOf j) (Spec.rkOf j) o := by
  rw [truncf_apply]
  refine (shapeCast_apply _ shapeCasts_S8x16x12288_S128x12288 (ix2 j o) (ix3 (Spec.adOf j) (Spec.rkOf j) o) ?_).trans ?_
  · rw [Shape.rowMajor_val_two, Shape.rowMajor_val_three]
    show ((j.val / 16) * 16 + j.val % 16) * 12288 + o.val = j.val * 12288 + o.val
    omega
  · unfold Spec.Bc
    by_cases ho : o.val < 4096
    · rw [dif_pos ho]
      refine concatenate_pair_apply_left (t := S8x16x12288) (s₁ := S8x16x4096) (s₂ := S8x16x8192) 2 Bq Bkv concatenates_S8x16x4096_S8x16x8192_S8x16x12288_d2 (ix3 (Spec.adOf j) (Spec.rkOf j) o) rfl (ix3 (Spec.adOf j) (Spec.rkOf j) ⟨o.val, ho⟩) ?_
      intro b
      match b with
      | ⟨0, _⟩ => rfl
      | ⟨1, _⟩ => rfl
      | ⟨2, _⟩ => rfl
    · rw [dif_neg ho]
      refine concatenate_pair_apply_right (t := S8x16x12288) (s₁ := S8x16x4096) (s₂ := S8x16x8192) 2 Bq Bkv concatenates_S8x16x4096_S8x16x8192_S8x16x12288_d2 (ix3 (Spec.adOf j) (Spec.rkOf j) o) rfl rfl (ix3 (Spec.adOf j) (Spec.rkOf j) ⟨o.val - 4096, by omega⟩) ?_ ?_
      · intro b hb
        match b, hb with
        | ⟨0, _⟩, _ => rfl
        | ⟨1, _⟩, _ => rfl
        | ⟨2, _⟩, hb => exact absurd rfl hb
      · show o.val - 4096 + 4096 = o.val
        omega

/-! ## The adapter mask at an entry -/

/-- An equality test of two words read as a number: 1 where they agree, 0 where they differ. -/
theorem uitofp_cmpi_eq_apply {s : Shape} (P Q : IVec s 32) (i : s.Idx) :
    (uitofp (F := Ideal) .f32 (cmpi .eq P Q) : FVec Ideal s .f32) i = if P i = Q i then 1 else 0 := by
  show (((IntOp.cmpi .eq (P i) (Q i)).toNat : ℝ) : EReal) = _
  unfold IntOp.cmpi
  by_cases h : P i = Q i
  · simp [h]
  · simp [h]

/-- Every token's adapter id against the eight adapters' numbers, as numbers. -/
def maskArr (widx : IVec S4096 32) : FVec Ideal S4096x8 .f32 :=
  uitofp (F := Ideal) .f32 (cmpi .eq
    (broadcastInDim S4096x8 ![0, 1] bcast_S4096x1_S4096x8_0_1 (broadcastInDim S4096x1 ![0] bcast_S4096_S4096x1_0 widx))
    (broadcastInDim S4096x8 ![0, 1] bcast_S1x8_S4096x8_0_1 (broadcastInDim S1x8 ![1] bcast_S8_S1x8_1 (iotaInDim S8 32 0))))

/-- Entry (t, a) is 1 when token t uses adapter a, else 0. -/
theorem maskArr_apply (widx : IVec S4096 32) (t : Fin 4096) (a : Fin 8) : maskArr widx (ix2 t a) = Spec.mask widx a t := by
  unfold maskArr
  rw [uitofp_cmpi_eq_apply]
  have hA : broadcastInDim S4096x8 ![0, 1] bcast_S4096x1_S4096x8_0_1 (broadcastInDim S4096x1 ![0] bcast_S4096_S4096x1_0 widx) (ix2 t a)
      = widx (ix1 t) :=
    (broadcastInDim_apply _ bcast_S4096x1_S4096x8_0_1 _ (ix2 t a) (ix2 t (0 : Fin 1))
      (fun b => match b with | ⟨0, _⟩ => rfl | ⟨1, _⟩ => rfl)).trans
      (broadcastInDim_apply _ bcast_S4096_S4096x1_0 widx (ix2 t (0 : Fin 1)) (ix1 t) (fun b => match b with | ⟨0, _⟩ => rfl))
  have hB : broadcastInDim S4096x8 ![0, 1] bcast_S1x8_S4096x8_0_1 (broadcastInDim S1x8 ![1] bcast_S8_S1x8_1 (iotaInDim S8 32 0)) (ix2 t a)
      = BitVec.ofNat 32 a.val :=
    (broadcastInDim_apply _ bcast_S1x8_S4096x8_0_1 _ (ix2 t a) (ix2 (0 : Fin 1) a)
      (fun b => match b with | ⟨0, _⟩ => rfl | ⟨1, _⟩ => rfl)).trans
      ((broadcastInDim_apply _ bcast_S8_S1x8_1 _ (ix2 (0 : Fin 1) a) (ix1 a) (fun b => match b with | ⟨0, _⟩ => rfl)).trans rfl)
  rw [hA, hB]
  rfl

/-! ## The activations against all adapters' down-projections -/

/-- The eight down-projections side by side: column 48 a + c is column c of adapter a. -/
def downCols (A : FVec Ideal S8x4096x48 .f32) : FVec Ideal S4096x384 .bf16 :=
  truncf (F := Ideal) .bf16 (shapeCast S4096x384 (transpose S4096x8x48 [1, 0, 2] A transposes_S8x4096x48_S4096x8x48_1_0_2)
    shapeCasts_S4096x8x48_S4096x384) bitsLt_bf16_f32

theorem downCols_apply (A : FVec Ideal S8x4096x48 .f32) (h : Fin 4096) (a : Fin 8) (c : Fin 48) :
    downCols A (ix2 h (⟨a.val * 48 + c.val, by omega⟩ : Fin 384)) = A (ix3 a h c) := by
  unfold downCols
  rw [truncf_apply]
  refine (shapeCast_apply _ shapeCasts_S4096x8x48_S4096x384 (ix2 h (⟨a.val * 48 + c.val, by omega⟩ : Fin 384)) (ix3 h a c) ?_).trans ?_
  · rw [Shape.rowMajor_val_two, Shape.rowMajor_val_three]
    show (h.val * 8 + a.val) * 48 + c.val = h.val * 384 + (a.val * 48 + c.val)
    omega
  · exact transpose_apply _ A transposes_S8x4096x48_S4096x8x48_1_0_2 (ix3 h a c) (ix3 a h c)
      (fun b => match b with | ⟨0, _⟩ => rfl | ⟨1, _⟩ => rfl | ⟨2, _⟩ => rfl)

theorem plainDot : PlainDot.IsPlain dot_S4096x4096_S4096x384_S4096x384_1_0_0_1_n_n := ⟨rfl, rfl, rfl, rfl, rfl, rfl⟩

/-- The activations contracted with the side-by-side down-projections, the 384 columns split back into adapter and
    column. -/
def xaArr (x : FVec Ideal S4096x4096 .f32) (A : FVec Ideal S8x4096x48 .f32) : FVec Ideal S4096x8x48 .f32 :=
  shapeCast S4096x8x48
    (Host.dotGeneral (F := Ideal) dot_S4096x4096_S4096x384_S4096x384_1_0_0_1_n_n none (truncf (F := Ideal) .bf16 x bitsLt_bf16_f32) (downCols A))
    shapeCasts_S4096x384_S4096x8x48

/-- Entry (t, a, c) is token t's activation row against column c of adapter a's down-projection. -/
theorem xaArr_apply (x : FVec Ideal S4096x4096 .f32) (A : FVec Ideal S8x4096x48 .f32) (t : Fin 4096) (a : Fin 8) (c : Fin 48) :
    xaArr x A (ix3 t a c) = Spec.xa x A a t c := by
  unfold xaArr
  refine (shapeCast_apply _ shapeCasts_S4096x384_S4096x8x48 (ix3 t a c) (ix2 t (⟨a.val * 48 + c.val, by omega⟩ : Fin 384)) ?_).trans ?_
  · rw [Shape.rowMajor_val_two, Shape.rowMajor_val_three]
    show t.val * 384 + (a.val * 48 + c.val) = (t.val * 8 + a.val) * 48 + c.val
    omega
  · refine (plainDot.dotGeneral_apply none .single _ _ t _).trans ?_
    unfold Spec.xa
    refine Finset.sum_congr rfl fun h _ => ?_
    rw [downCols_apply, truncf_apply]

/-! ## One chunk of sixteen columns, masked and laid out -/

/-- Columns off … off + 15 of every adapter, each entry times the token's mask for that adapter, the eight adapters
    side by side, under a new leading axis of extent one. -/
def chunk (off : Nat) (hs : S4096x8x48.Slices ![0, 0, off] S4096x8x16) (R : FVec Ideal S4096x8x48 .f32)
    (Mk : FVec Ideal S4096x8 .f32) : FVec Ideal S1x4096x128 .f32 :=
  broadcastInDim S1x4096x128 ![1, 2] bcast_S4096x128_S1x4096x128_1_2
    (shapeCast S4096x128
      (mulf (extractStridedSlice S4096x8x16 ![0, 0, off] R hs)
        (broadcastInDim S4096x8x16 ![0, 1, 2] bcast_S4096x8x1_S4096x8x16_0_1_2
          (broadcastInDim S4096x8x1 ![0, 1] bcast_S4096x8_S4096x8x1_0_1 Mk)))
      shapeCasts_S4096x8x16_S4096x128)

/-- Position j of the 128 holds column off + j % 16 of adapter j / 16, times that adapter's mask. -/
theorem chunk_apply (off : Nat) (hoff : off + 16 ≤ 48) (hs : S4096x8x48.Slices ![0, 0, off] S4096x8x16)
    (R : FVec Ideal S4096x8x48 .f32) (Mk : FVec Ideal S4096x8 .f32) (t : Fin 4096) (j : Fin 128) :
    chunk off hs R Mk (ix3 (0 : Fin 1) t j)
      = R (ix3 t (Spec.adOf j) (⟨off + j.val % 16, by omega⟩ : Fin 48)) * Mk (ix2 t (Spec.adOf j)) := by
  unfold chunk
  refine (broadcastInDim_apply _ bcast_S4096x128_S1x4096x128_1_2 _ (ix3 (0 : Fin 1) t j) (ix2 t j)
    (fun b => match b with | ⟨0, _⟩ => rfl | ⟨1, _⟩ => rfl)).trans ?_
  refine (shapeCast_apply _ shapeCasts_S4096x8x16_S4096x128 (ix2 t j) (ix3 t (Spec.adOf j) (Spec.rkOf j)) ?_).trans ?_
  · rw [Shape.rowMajor_val_two, Shape.rowMajor_val_three]
    show (t.val * 8 + j.val / 16) * 16 + j.val % 16 = t.val * 128 + j.val
    omega
  · rw [mulf_apply]
    congr 1
    · exact extractStridedSlice_apply _ R hs (ix3 t (Spec.adOf j) (Spec.rkOf j))
        (ix3 t (Spec.adOf j) (⟨off + j.val % 16, by omega⟩ : Fin 48))
        (fun b => match b with
          | ⟨0, _⟩ => by show t.val = 0 + t.val; omega
          | ⟨1, _⟩ => by show j.val / 16 = 0 + j.val / 16; omega
          | ⟨2, _⟩ => by show off + j.val % 16 = off + j.val % 16; rfl)
    · exact (broadcastInDim_apply _ bcast_S4096x8x1_S4096x8x16_0_1_2 _ (ix3 t (Spec.adOf j) (Spec.rkOf j))
          (ix3 t (Spec.adOf j) (0 : Fin 1)) (fun b => match b with | ⟨0, _⟩ => rfl | ⟨1, _⟩ => rfl | ⟨2, _⟩ => rfl)).trans
        (broadcastInDim_apply _ bcast_S4096x8_S4096x8x1_0_1 Mk (ix3 t (Spec.adOf j) (0 : Fin 1)) (ix2 t (Spec.adOf j))
          (fun b => match b with | ⟨0, _⟩ => rfl | ⟨1, _⟩ => rfl))

/-! ## The three chunks stacked -/

/-- The three chunks along a new leading axis, converted. -/
def stacked (P0 P1 P2 : FVec Ideal S1x4096x128 .f32) : FVec Ideal S3x4096x128 .bf16 :=
  truncf (F := Ideal) .bf16
    (concatenate S3x4096x128 0 [⟨S1x4096x128, P0⟩, ⟨S1x4096x128, P1⟩, ⟨S1x4096x128, P2⟩]
      concatenates_S1x4096x128_S1x4096x128_S1x4096x128_S3x4096x128_d0) bitsLt_bf16_f32

theorem stacked_apply0 (P0 P1 P2 : FVec Ideal S1x4096x128 .f32) (t : Fin 4096) (j : Fin 128) :
    stacked P0 P1 P2 (ix3 (0 : Fin 3) t j) = P0 (ix3 (0 : Fin 1) t j) := by
  unfold stacked
  rw [truncf_apply]
  exact concatenate_apply_piece (t := S3x4096x128) 0 [⟨S1x4096x128, P0⟩, ⟨S1x4096x128, P1⟩, ⟨S1x4096x128, P2⟩]
    concatenates_S1x4096x128_S1x4096x128_S1x4096x128_S3x4096x128_d0
    (ix3 (0 : Fin 3) t j) 0 (by show 0 < 3; omega) S1x4096x128 P0 rfl rfl 0 rfl (ix3 (0 : Fin 1) t j)
    (fun b hb => match b, hb with | ⟨0, _⟩, hb => absurd rfl hb | ⟨1, _⟩, _ => rfl | ⟨2, _⟩, _ => rfl) rfl

theorem stacked_apply1 (P0 P1 P2 : FVec Ideal S1x4096x128 .f32) (t : Fin 4096) (j : Fin 128) :
    stacked P0 P1 P2 (ix3 (1 : Fin 3) t j) = P1 (ix3 (0 : Fin 1) t j) := by
  unfold stacked
  rw [truncf_apply]
  exact concatenate_apply_piece (t := S3x4096x128) 0 [⟨S1x4096x128, P0⟩, ⟨S1x4096x128, P1⟩, ⟨S1x4096x128, P2⟩]
    concatenates_S1x4096x128_S1x4096x128_S1x4096x128_S3x4096x128_d0
    (ix3 (1 : Fin 3) t j) 1 (by show 1 < 3; omega) S1x4096x128 P1 rfl rfl 1 rfl (ix3 (0 : Fin 1) t j)
    (fun b hb => match b, hb with | ⟨0, _⟩, hb => absurd rfl hb | ⟨1, _⟩, _ => rfl | ⟨2, _⟩, _ => rfl) rfl

theorem stacked_apply2 (P0 P1 P2 : FVec Ideal S1x4096x128 .f32) (t : Fin 4096) (j : Fin 128) :
    stacked P0 P1 P2 (ix3 (2 : Fin 3) t j) = P2 (ix3 (0 : Fin 1) t j) := by
  unfold stacked
  rw [truncf_apply]
  exact concatenate_apply_piece (t := S3x4096x128) 0 [⟨S1x4096x128, P0⟩, ⟨S1x4096x128, P1⟩, ⟨S1x4096x128, P2⟩]
    concatenates_S1x4096x128_S1x4096x128_S1x4096x128_S3x4096x128_d0
    (ix3 (2 : Fin 3) t j) 2 (by show 2 < 3; omega) S1x4096x128 P2 rfl rfl 2 rfl (ix3 (0 : Fin 1) t j)
    (fun b hb => match b, hb with | ⟨0, _⟩, hb => absurd rfl hb | ⟨1, _⟩, _ => rfl | ⟨2, _⟩, _ => rfl) rfl

/-- The staged low-rank activations as one function of the activations, the adapter ids and the down-projections. -/
def lowRank (x : FVec Ideal S4096x4096 .f32) (widx : IVec S4096 32) (A : FVec Ideal S8x4096x48 .f32) :
    FVec Ideal S3x4096x128 .bf16 :=
  stacked (chunk 0 slices_S4096x8x48_S4096x8x16_0_0_0 (xaArr x A) (maskArr widx))
    (chunk 16 slices_S4096x8x48_S4096x8x16_0_0_16 (xaArr x A) (maskArr widx))
    (chunk 32 slices_S4096x8x48_S4096x8x16_0_0_32 (xaArr x A) (maskArr widx))

/-- Entry (s, t, j): token t against column 16 s + j % 16 of adapter j / 16, times that adapter's mask. -/
theorem lowRank_apply (x : FVec Ideal S4096x4096 .f32) (widx : IVec S4096 32) (A : FVec Ideal S8x4096x48 .f32)
    (s : Fin 3) (t : Fin 4096) (j : Fin 128) :
    lowRank x widx A (ix3 s t j)
      = Spec.xa x A (Spec.adOf j) t ⟨s.val * 16 + j.val % 16, by omega⟩ * Spec.mask widx (Spec.adOf j) t := by
  unfold lowRank
  match s with
  | ⟨0, _⟩ =>
    refine (stacked_apply0 _ _ _ t j).trans ((chunk_apply 0 (by omega) _ _ _ t j).trans ?_)
    rw [xaArr_apply, maskArr_apply]
    rfl
  | ⟨1, _⟩ =>
    refine (stacked_apply1 _ _ _ t j).trans ((chunk_apply 16 (by omega) _ _ _ t j).trans ?_)
    rw [xaArr_apply, maskArr_apply]
    rfl
  | ⟨2, _⟩ =>
    refine (stacked_apply2 _ _ _ t j).trans ((chunk_apply 32 (by omega) _ _ _ t j).trans ?_)
    rw [xaArr_apply, maskArr_apply]
    rfl

variable (m : (ℓ : Loc nD τ sig) → Buf (Elt Ideal) ℓ) (c : Dev nD)

/-! ## The four staged arrays -/

/-- The activations, converted: unchanged over the extended reals. -/
theorem V_v4 : (Hand.V m c main_v4 : S4096x4096.Idx → EReal) = m ((c : Thread nD τ).loc main_arg0) := by
  have e : (Hand.V m c main_v4 : S4096x4096.Idx → EReal)
      = truncf (F := Ideal) .bf16 (m ((c : Thread nD τ).loc main_arg0) : FVec Ideal S4096x4096 .f32) bitsLt_bf16_f32 := by
    dsimp only [Hand.V, Gen.hostOps0]
    after_results
  rw [e]
  rfl

/-- The base projection, converted: unchanged over the extended reals. -/
theorem V_v33 : (Hand.V m c main_v33 : S4096x12288.Idx → EReal) = m ((c : Thread nD τ).loc main_arg2) := by
  have e : (Hand.V m c main_v33 : S4096x12288.Idx → EReal)
      = truncf (F := Ideal) .bf16 (m ((c : Thread nD τ).loc main_arg2) : FVec Ideal S4096x12288 .f32) bitsLt_bf16_f32 := by
    dsimp only [Hand.V, Gen.hostOps0]
    after_results
  rw [e]
  rfl

/-- The stacked up-projections. -/
theorem V_v34_apply (j : Fin 128) (o : Fin 12288) :
    (Hand.V m c main_v34 : S128x12288.Idx → EReal) (ix2 j o)
      = Spec.Bc (m ((c : Thread nD τ).loc main_arg4)) (m ((c : Thread nD τ).loc main_arg5)) (Spec.adOf j) (Spec.rkOf j) o := by
  have e : (Hand.V m c main_v34 : S128x12288.Idx → EReal)
      = (truncf (F := Ideal) .bf16 (shapeCast S128x12288
          (concatenate S8x16x12288 2 [⟨S8x16x4096, (m ((c : Thread nD τ).loc main_arg4) : FVec Ideal S8x16x4096 .f32)⟩,
            ⟨S8x16x8192, (m ((c : Thread nD τ).loc main_arg5) : FVec Ideal S8x16x8192 .f32)⟩] concatenates_S8x16x4096_S8x16x8192_S8x16x12288_d2)
          shapeCasts_S8x16x12288_S128x12288) bitsLt_bf16_f32 : FVec Ideal S128x12288 .bf16) := by
    dsimp only [Hand.V, Gen.hostOps0]
    after_results
    rfl
  rw [e]
  exact stackedB_apply _ _ j o

/-- The staged low-rank activations. -/
theorem V_v32_apply (s : Fin 3) (t : Fin 4096) (j : Fin 128) :
    (Hand.V m c main_v32 : S3x4096x128.Idx → EReal) (ix3 s t j)
      = Spec.xa (m ((c : Thread nD τ).loc main_arg0)) (m ((c : Thread nD τ).loc main_arg3)) (Spec.adOf j) t
          ⟨s.val * 16 + j.val % 16, by omega⟩
        * Spec.mask (m ((c : Thread nD τ).loc main_arg1)) (Spec.adOf j) t := by
  have e : (Hand.V m c main_v32 : S3x4096x128.Idx → EReal)
      = lowRank (m ((c : Thread nD τ).loc main_arg0)) (m ((c : Thread nD τ).loc main_arg1))
          (m ((c : Thread nD τ).loc main_arg3)) := by
    dsimp only [Hand.V, Gen.hostOps0]
    simp (disch := decide) only [after_cons, after_nil, nullary_result', unary_result', binary_result', reshape_result',
      nary_result', nullary_result_ne', unary_result_ne', binary_result_ne', reshape_result_ne', nary_result_ne',
      Matrix.cons_val]
    rfl
  rw [e]
  exact lowRank_apply _ _ _ s t j

end Cert.KernelIdeal.HandHost

end
-- ==== Proof.LibScatterWindow.lean ====
/-
  A scatter that adds a whole block of columns into a wider array, read at an entry.

  The host scatter is a left fold, over the update's entries in row-major order, of "replace the operand's entry at
  the landing index by f (that entry) (the update's entry)"; an update entry that lands outside the operand is
  dropped. When no two update entries land on the same index, the order does not matter: an operand entry some update
  entry lands on ends at f (operand entry) (update entry), and every other entry is unchanged.

  For a rank-two operand [R, C], a rank-two update [R, CU] and ONE scatter index — a single word k that offsets the
  update's columns, k + CU ≤ C — update entry (r, c') lands on (r, k + c'). So the result at (r, c) is
  f (x (r, c)) (upd (r, c - k)) for k ≤ c < k + CU and x (r, c) elsewhere.
-/
import Idealize.ShloMosaic.Lib.ValueIdx
import Idealize.ShloMosaic.PureOps.ShapeOps

noncomputable section

namespace Cert.Hand.ScatterWindow

open Idealize.ShloMosaic Idealize.ShloMosaic.ValueIdx

/-! ## The fold, when landing indices are pairwise distinct -/

section Fold

variable {s si u : Shape} {w : Nat} {α : Type} (d : ScatterDims s si u) (f : α → α → α) (idx : IVec si w)
  (upd : u.Idx → α)

/-- One step of the fold, at update index `j`: the entry `j` lands on is combined with the update's entry, every
    other entry stays; a `j` that lands outside changes nothing. -/
def step (r : s.Idx → α) (j : u.Idx) : s.Idx → α :=
  match d.resultIdx? j idx with
  | some i => fun i' => if i' = i then f (r i) (upd j) else r i'
  | none => r

/-- At the entry the step lands on. -/
theorem step_of_some {r : s.Idx → α} {j : u.Idx} {i : s.Idx} (h : d.resultIdx? j idx = some i) :
    step d f idx upd r j i = f (r i) (upd j) := by
  unfold step
  rw [h]
  exact if_pos rfl

/-- At an entry the step does not land on. -/
theorem step_of_ne {r : s.Idx → α} {j : u.Idx} {i : s.Idx} (h : d.resultIdx? j idx ≠ some i) :
    step d f idx upd r j i = r i := by
  unfold step
  cases hj : d.resultIdx? j idx with
  | none => rfl
  | some i0 =>
    have hne : i ≠ i0 := fun e => h (by rw [hj, e])
    exact if_neg hne

/-- A fold of steps none of which lands on `i` leaves entry `i` alone. -/
theorem foldl_step_of_not_mem (l : List u.Idx) (x : s.Idx → α) (i : s.Idx)
    (h : ∀ j ∈ l, d.resultIdx? j idx ≠ some i) : l.foldl (step d f idx upd) x i = x i := by
  induction l generalizing x with
  | nil => rfl
  | cons a t ih =>
    rw [List.foldl_cons, ih _ (fun j hj => h j (List.mem_cons_of_mem _ hj)),
      step_of_ne d f idx upd (h a List.mem_cons_self)]

/-- A fold of steps over pairwise distinct update indices, of which `j` lands on `i` and — landing indices being
    pairwise distinct — no other does: entry `i` ends at `f (x i) (upd j)`. At the head of the list either the head is
    `j`, and then no later step touches entry `i`; or it is not, and then it leaves entry `i` alone and the rest of the
    list does the work. -/
theorem foldl_step_of_mem
    (hinj : ∀ (j j' : u.Idx) (i : s.Idx), d.resultIdx? j idx = some i → d.resultIdx? j' idx = some i → j = j')
    (l : List u.Idx) (hl : l.Nodup) (x : s.Idx → α) (i : s.Idx) (j : u.Idx) (hj : j ∈ l)
    (hji : d.resultIdx? j idx = some i) : l.foldl (step d f idx upd) x i = f (x i) (upd j) := by
  induction l generalizing x with
  | nil => cases hj
  | cons a t ih =>
    rw [List.nodup_cons] at hl
    rw [List.foldl_cons]
    rcases List.mem_cons.1 hj with hja | hjt
    · subst hja
      have hrest : ∀ j' ∈ t, d.resultIdx? j' idx ≠ some i := fun j' hj' e => by
        have hjj : j = j' := hinj j j' i hji e
        rw [hjj] at hl
        exact hl.1 hj'
      rw [foldl_step_of_not_mem d f idx upd t _ i hrest, step_of_some d f idx upd hji]
    · have hne : d.resultIdx? a idx ≠ some i := fun e => by
        have haj : a = j := hinj a j i e hji
        rw [haj] at hl
        exact hl.1 hjt
      rw [ih hl.2 _ hjt, step_of_ne d f idx upd hne]

/-- The host scatter is the fold of steps over the update's indices, listed in row-major order. -/
theorem scatter_eq_foldl (x : s.Idx → α) :
    Host.scatter d f x idx upd
      = ((List.finRange u.numel).map u.rowMajor.symm).foldl (step d f idx upd) x := by
  rw [List.foldl_map]
  rfl

/-- That list holds every update index, once. -/
theorem nodup_indices : ((List.finRange u.numel).map u.rowMajor.symm).Nodup :=
  List.Nodup.map u.rowMajor.symm.injective (List.nodup_finRange _)

theorem mem_indices (j : u.Idx) : j ∈ (List.finRange u.numel).map u.rowMajor.symm :=
  List.mem_map.2 ⟨u.rowMajor j, List.mem_finRange _, u.rowMajor.symm_apply_apply j⟩

end Fold

/-- An operand entry on which update entry `j` lands, no other update entry landing there, ends at
    `f (x i) (upd j)`; an entry on which none lands is unchanged. -/
theorem scatter_apply_of_injective {s si u : Shape} {w : Nat} {α : Type} (d : ScatterDims s si u) (f : α → α → α)
    (x : s.Idx → α) (idx : IVec si w) (upd : u.Idx → α)
    (hinj : ∀ (j j' : u.Idx) (i : s.Idx), d.resultIdx? j idx = some i → d.resultIdx? j' idx = some i → j = j')
    (i : s.Idx) :
    (∀ j, d.resultIdx? j idx = some i → Host.scatter d f x idx upd i = f (x i) (upd j))
    ∧ ((∀ j, d.resultIdx? j idx ≠ some i) → Host.scatter d f x idx upd i = x i) := by
  rw [scatter_eq_foldl]
  exact ⟨fun j hji => foldl_step_of_mem d f idx upd hinj _ nodup_indices x i j (mem_indices j) hji,
    fun hno => foldl_step_of_not_mem d f idx upd _ x i (fun j _ => hno j)⟩

/-! ## One block of columns at a constant offset -/

/-- The dimension numbers of "add a block of whole rows at a column offset": both update axes are window axes,
    nothing inserted, the one scatter index names the column axis. -/
structure IsColWindow {R C CU : Nat}
    (d : ScatterDims (⟨2, ![R, C]⟩ : Shape) (⟨1, ![1]⟩ : Shape) (⟨2, ![R, CU]⟩ : Shape)) : Prop where
  uw : d.updateWindowDims = [0, 1]
  iw : d.insertedWindowDims = []
  sd : d.scatterDimsToOperandDims = [1]
  iv : d.indexVectorDim = 0

section ColWindow

variable {R C CU : Nat}
  {d : ScatterDims (⟨2, ![R, C]⟩ : Shape) (⟨1, ![1]⟩ : Shape) (⟨2, ![R, CU]⟩ : Shape)}

/-- With both update axes window axes and nothing inserted, the window coordinate on each operand axis is the
    update index's coordinate on the same axis. -/
theorem window_eq (d : ScatterDims (⟨2, ![R, C]⟩ : Shape) (⟨1, ![1]⟩ : Shape) (⟨2, ![R, CU]⟩ : Shape))
    (uw : d.updateWindowDims = [0, 1]) (iw : d.insertedWindowDims = [])
    (j : (⟨2, ![R, CU]⟩ : Shape).Idx) (a : Fin 2) : d.window j a = (j a).val := by
  obtain ⟨uw', iw', sd', iv', wf⟩ := d
  dsimp only at uw iw
  subst uw iw
  unfold ScatterDims.window
  match a with
  | ⟨0, _⟩ => rfl
  | ⟨1, _⟩ => rfl

/-- With the one scatter index naming the column axis, the window starts at row 0 and at the column the index
    word says: the scatter indices have a single entry, so whichever entry the start is read at is that one. -/
theorem start_eq (d : ScatterDims (⟨2, ![R, C]⟩ : Shape) (⟨1, ![1]⟩ : Shape) (⟨2, ![R, CU]⟩ : Shape))
    (sd : d.scatterDimsToOperandDims = [1]) (idx : IVec (⟨1, ![1]⟩ : Shape) 32)
    (j : (⟨2, ![R, CU]⟩ : Shape).Idx) (a : Fin 2) :
    d.start j idx a = if a = 1 then (idx (ix1 0)).toInt else 0 := by
  have hone : ∀ q : (⟨1, ![1]⟩ : Shape).Idx, q = ix1 0 := fun q =>
    (eq_ix1 q).trans (congrArg ix1 (Subsingleton.elim (α := Fin 1) _ _))
  unfold ScatterDims.start
  simp only [sd, List.mem_singleton]
  by_cases h : a = 1
  · rw [dif_pos h, if_pos h, hone (d.siIdx j _)]
  · rw [dif_neg h, if_neg h]

/-- Update entry (r', c') lands on (r', k + c'), which is inside the operand because k + CU ≤ C. -/
theorem IsColWindow.resultIdx?_eq (h : IsColWindow d)
    (idx : IVec (⟨1, ![1]⟩ : Shape) 32) (k : ℕ) (hk : (idx (ix1 0)).toInt = (k : ℤ)) (hfit : k + CU ≤ C)
    (r' : Fin R) (c' : Fin CU) :
    d.resultIdx? (ix2 r' c') idx = some (ix2 r' ⟨k + c'.val, by omega⟩) := by
  have hs0 : d.start (ix2 r' c') idx (0 : Fin 2) = 0 := by rw [start_eq d h.sd, if_neg (by decide)]
  have hs1 : d.start (ix2 r' c') idx (1 : Fin 2) = (k : ℤ) := by rw [start_eq d h.sd, if_pos rfl, hk]
  have hw0 : d.window (ix2 r' c') (0 : Fin 2) = r'.val := window_eq d h.uw h.iw _ 0
  have hw1 : d.window (ix2 r' c') (1 : Fin 2) = c'.val := window_eq d h.uw h.iw _ 1
  have hr : r'.val < R := r'.isLt
  have hc : c'.val < CU := c'.isLt
  have hcond : ∀ a, 0 ≤ d.start (ix2 r' c') idx a + d.window (ix2 r' c') a
      ∧ d.start (ix2 r' c') idx a + d.window (ix2 r' c') a < (⟨2, ![R, C]⟩ : Shape).size a := by
    refine Fin.forall_fin_two.2 ⟨?_, ?_⟩
    · rw [hs0, hw0]
      show (0 : ℤ) ≤ 0 + ((r'.val : ℕ) : ℤ) ∧ (0 : ℤ) + ((r'.val : ℕ) : ℤ) < ((R : ℕ) : ℤ)
      omega
    · rw [hs1, hw1]
      show (0 : ℤ) ≤ (k : ℤ) + ((c'.val : ℕ) : ℤ) ∧ (k : ℤ) + ((c'.val : ℕ) : ℤ) < ((C : ℕ) : ℤ)
      omega
  unfold ScatterDims.resultIdx?
  rw [dif_pos hcond]
  congr 1
  funext a
  apply Fin.ext
  revert a
  refine Fin.forall_fin_two.2 ⟨?_, ?_⟩
  · show (d.start (ix2 r' c') idx (0 : Fin 2) + (d.window (ix2 r' c') (0 : Fin 2) : ℕ)).toNat = r'.val
    rw [hs0, hw0]; omega
  · show (d.start (ix2 r' c') idx (1 : Fin 2) + (d.window (ix2 r' c') (1 : Fin 2) : ℕ)).toNat = k + c'.val
    rw [hs1, hw1]; omega

end ColWindow

/-- The scatter at entry (r, c): inside the block of columns k … k + CU - 1 the update's entry is combined in,
    outside it the operand's entry stays. -/
theorem IsColWindow.scatter_apply {R C CU : Nat}
    {d : ScatterDims (⟨2, ![R, C]⟩ : Shape) (⟨1, ![1]⟩ : Shape) (⟨2, ![R, CU]⟩ : Shape)} (h : IsColWindow d)
    {α : Type} (f : α → α → α) (x : (⟨2, ![R, C]⟩ : Shape).Idx → α) (idx : IVec (⟨1, ![1]⟩ : Shape) 32)
    (upd : (⟨2, ![R, CU]⟩ : Shape).Idx → α) (k : ℕ) (hk : (idx (ix1 0)).toInt = (k : ℤ)) (hfit : k + CU ≤ C)
    (r : Fin R) (c : Fin C) :
    Host.scatter d f x idx upd (ix2 r c)
      = if hc : k ≤ c.val ∧ c.val < k + CU then f (x (ix2 r c)) (upd (ix2 r ⟨c.val - k, by omega⟩))
        else x (ix2 r c) := by
  have hres : ∀ (r' : Fin R) (c' : Fin CU),
      d.resultIdx? (ix2 r' c') idx = some (ix2 r' ⟨k + c'.val, by omega⟩) :=
    fun r' c' => h.resultIdx?_eq idx k hk hfit r' c'
  -- landing indices are pairwise distinct: (r', k + c') determines (r', c')
  have hinj : ∀ (j j' : (⟨2, ![R, CU]⟩ : Shape).Idx) (i : (⟨2, ![R, C]⟩ : Shape).Idx),
      d.resultIdx? j idx = some i → d.resultIdx? j' idx = some i → j = j' := by
    intro j j' i hj hj'
    obtain ⟨r1, c1, rfl⟩ : ∃ (r1 : Fin R) (c1 : Fin CU), j = ix2 r1 c1 := ⟨j 0, j 1, eq_ix2 j⟩
    obtain ⟨r2, c2, rfl⟩ : ∃ (r2 : Fin R) (c2 : Fin CU), j' = ix2 r2 c2 := ⟨j' 0, j' 1, eq_ix2 j'⟩
    rw [hres] at hj hj'
    have e := Option.some.inj (hj.trans hj'.symm)
    have e0 : r1 = r2 := congrFun e (0 : Fin 2)
    have e1 : k + c1.val = k + c2.val := congrArg Fin.val (congrFun e (1 : Fin 2))
    have e1' : c1 = c2 := Fin.ext (by omega)
    rw [e0, e1']
  have key := scatter_apply_of_injective d f x idx upd hinj (ix2 r c)
  by_cases hc : k ≤ c.val ∧ c.val < k + CU
  · rw [dif_pos hc]
    apply key.1
    rw [hres]
    exact congrArg (fun z => some (ix2 r z)) (Fin.ext (show k + (c.val - k) = c.val by omega))
  · rw [dif_neg hc]
    apply key.2
    intro j hj
    obtain ⟨r', c', rfl⟩ : ∃ (r' : Fin R) (c' : Fin CU), j = ix2 r' c' := ⟨j 0, j 1, eq_ix2 j⟩
    rw [hres] at hj
    have e1 : k + c'.val = c.val := congrArg Fin.val (congrFun (Option.some.inj hj) (1 : Fin 2))
    have hc' : c'.val < CU := c'.isLt
    exact hc (by omega)

end Cert.Hand.ScatterWindow

end
-- ==== Proof.RI.RefStage.lean ====
/-
  The reference program's stages, read at an entry, over the extended reals.

  The reference computes the base projection x · W and then, for each of the eight adapters a, adds the adapter's
  low-rank update into a running array, one block of 4096 output columns at a time (query, key, value):

      mask_a[t]      = 1 if token t uses adapter a, else 0
      xa_a[t, c]     = ∑ h, (mask_a[t] · x[t, h]) · A[a, h, c]                       c < 48
      delta[t, o]   += ∑ r < 16, xa_a[t, 16 s + r] · Bc[a, r, o]                     s = o / 4096

  where Bc lays the query's up-projection and the key-and-value up-projection side by side along the columns. Every
  lemma here is stated over variables, at the shapes of the printed program, and says what ONE operation or one
  adapter's group of operations holds at ONE entry:

    • the mask — compare, convert, broadcast twice — at (t, h) is 1 or 0 by the token's adapter id;
    • a slab of a stack of matrices (a unit slice along the leading axis, the unit axis dropped) at (i, j);
    • the masked activations against the down-projection at (t, c): masking before the contraction or after it is the
      same extended real, the mask being 0 or 1, so it is  (∑ h, x[t, h] · A[a, h, c]) · mask_a[t];
    • a rank-16 product through sixteen columns of xa_a, and half of the key-and-value up-projection, at an entry;
    • one adapter's three scatters onto an array D at (t, o): exactly one of the three column blocks holds o, there
      the product is added, and the other two scatters leave the entry alone, so the entry is
      D[t, o] + ∑ r < 16, xa_a[t, 16 s + r] · Bc[a, r, o];
    • the zero array and the base projection at an entry.

  No finiteness of any input is used: sums over the extended reals are sums in a commutative additive monoid, and the
  mask only multiplies.
-/
import proofs.«408339_j30262339567848_3_alg».proof.ReferenceIdeal
import proofs.«408339_j30262339567848_3_alg».proof.Proof.Spec
import proofs.«408339_j30262339567848_3_alg».proof.Proof.LibScatterWindow
import proofs.«408339_j30262339567848_3_alg».proof.Proof.LibPlainDot
import Idealize.ShloMosaic.Lib.ValueLayout
import Idealize.ShloMosaic.Lib.Affine

noncomputable section

namespace Cert.ReferenceIdeal.Hand

open Idealize.ShloMosaic Idealize.ShloMosaic.ValueIdx Idealize.ShloMosaic.PlainDot Cert.ReferenceIdeal Cert.Hand

variable [Facts₀]
open Facts₀

/-! ## The mask -/

/-- The adapter mask — the token's id compared with the word `k`, converted, broadcast along a unit axis and then over
    the activation's columns — at entry (t, h): 1 where token `t`'s id is `k`, else 0. -/
theorem maskB_apply (widx : IVec S4096 32) (k : BitVec 32) (t h : Fin 4096) :
    broadcastInDim S4096x4096 ![0, 1] bcast_S4096x1_S4096x4096_0_1
      (broadcastInDim S4096x1 ![0] bcast_S4096_S4096x1_0
        (uitofp (F := Ideal) .f32 (cmpi .eq widx (broadcastInDim S4096 ![] bcast_S_S4096 (constantI S_ 32 k))))) (ix2 t h)
      = if widx (ix1 t) = k then (1 : EReal) else 0 := by
  -- the two broadcasts read the vector at t
  rw [broadcastInDim_apply _ _ _ (ix2 t h) (ix2 t (0 : Fin 1)) (fun a => by
    match a with
    | ⟨0, _⟩ => rfl
    | ⟨1, _⟩ => rfl)]
  rw [broadcastInDim_apply _ _ _ (ix2 t (0 : Fin 1)) (ix1 t) (fun a => by
    match a with
    | ⟨0, _⟩ => rfl)]
  -- the conversion of a one-bit word is the bit, as a real number
  show FloatOps.uitofp (F := Ideal) .f32 (IntOp.cmpi .eq (widx (ix1 t)) k) = _
  by_cases e : widx (ix1 t) = k
  · rw [if_pos e, IntOp.cmpi_eq.2 e]
    show (((1#1 : BitVec 1).toNat : ℝ) : EReal) = 1
    rw [show (1#1 : BitVec 1).toNat = 1 from rfl, Nat.cast_one, EReal.coe_one]
  · rw [if_neg e, eq_zero_of_ne_one (mt IntOp.cmpi_eq.1 e)]
    show (((0#1 : BitVec 1).toNat : ℝ) : EReal) = 0
    rw [show (0#1 : BitVec 1).toNat = 0 from rfl, Nat.cast_zero, EReal.coe_zero]

/-! ## Slabs and products -/

/-- One slab of a stack of matrices, cut out along the leading axis and the unit axis dropped, read at (i, j). -/
theorem slab_apply {n0 n1 n2 : Nat} (a : ℕ) (ha : a < n0) (X : (⟨3, ![n0, n1, n2]⟩ : Shape).Idx → EReal)
    (hs : (⟨3, ![n0, n1, n2]⟩ : Shape).Slices ![a, 0, 0] ⟨3, ![1, n1, n2]⟩)
    (hc : (⟨3, ![1, n1, n2]⟩ : Shape).ShapeCasts ⟨2, ![n1, n2]⟩) (i : Fin n1) (j : Fin n2) :
    shapeCast ⟨2, ![n1, n2]⟩ (extractStridedSlice ⟨3, ![1, n1, n2]⟩ ![a, 0, 0] X hs) hc (ix2 i j)
      = X (ix3 ⟨a, ha⟩ i j) := by
  rw [shapeCast_1ab_ab_apply]
  exact extractStridedSlice_apply _ _ _ _ (ix3 ⟨a, ha⟩ i j) (fun ax => by
    match ax with
    | ⟨0, _⟩ => exact (Nat.add_zero _).symm
    | ⟨1, _⟩ => exact (Nat.zero_add _).symm
    | ⟨2, _⟩ => exact (Nat.zero_add _).symm)

theorem isPlain48 : IsPlain dot_S4096x4096_S4096x48_S4096x48_1_0_0_1_n_n := ⟨rfl, rfl, rfl, rfl, rfl, rfl⟩
theorem isPlain16 : IsPlain dot_S4096x16_S16x4096_S4096x4096_1_0_0_1_n_n := ⟨rfl, rfl, rfl, rfl, rfl, rfl⟩
theorem isPlainW : IsPlain dot_S4096x4096_S4096x12288_S4096x12288_1_0_0_1_n_n := ⟨rfl, rfl, rfl, rfl, rfl, rfl⟩

/-- An adapter's masked activations against its down-projection, at (t, c): the contraction, times the mask. -/
theorem xaR_apply (a : ℕ) (ha : a < 8) (hs : S8x4096x48.Slices ![a, 0, 0] S1x4096x48)
    (x : FVec Ideal S4096x4096 .f32) (widx : IVec S4096 32) (A : FVec Ideal S8x4096x48 .f32) (t : Fin 4096) (c : Fin 48) :
    Host.dotGeneral dot_S4096x4096_S4096x48_S4096x48_1_0_0_1_n_n none
        (mulf (broadcastInDim S4096x4096 ![0, 1] bcast_S4096x1_S4096x4096_0_1
          (broadcastInDim S4096x1 ![0] bcast_S4096_S4096x1_0
            (uitofp .f32 (cmpi .eq widx (broadcastInDim S4096 ![] bcast_S_S4096 (constantI S_ 32 (BitVec.ofNat 32 a))))))) x)
        (shapeCast _ (extractStridedSlice S1x4096x48 ![a, 0, 0] A hs) shapeCasts_S1x4096x48_S4096x48) (ix2 t c)
      = Spec.xa x A ⟨a, ha⟩ t c * Spec.mask widx ⟨a, ha⟩ t := by
  simp only [Host.dotGeneral]
  rw [isPlain48.dotGeneral_apply]
  unfold Spec.xa
  -- the mask, 0 or 1, moves out of the sum
  rw [← Spec.sum_mask_mul _ (Spec.mask_eq_zero_or_one widx ⟨a, ha⟩ t)]
  refine Finset.sum_congr rfl fun h _ => ?_
  rw [slab_apply a ha, mulf_apply, maskB_apply]
  rfl

/-- A [4096,16]·[16,4096] product whose left operand is sixteen columns of a [4096,48] array, at (t, j). -/
theorem dot16_apply (off : ℕ) (hs : S4096x48.Slices ![0, off] S4096x16)
    (xaV : FVec Ideal S4096x48 .f32) (BS : FVec Ideal S16x4096 .f32) (t j : Fin 4096) :
    Host.dotGeneral dot_S4096x16_S16x4096_S4096x4096_1_0_0_1_n_n none
        (extractStridedSlice S4096x16 ![0, off] xaV hs) BS (ix2 t j)
      = ∑ r : Fin 16, xaV (ix2 t ⟨off + r.val, Nat.lt_of_lt_of_le (Nat.add_lt_add_left r.isLt off) (hs.2 1)⟩)
          * BS (ix2 r j) := by
  simp only [Host.dotGeneral]
  rw [isPlain16.dotGeneral_apply]
  refine Finset.sum_congr rfl fun r _ => ?_
  rw [slice2_axis1_eq]

/-- Half of an adapter's key-and-value up-projection: 4096 columns from `off` of its slab, at (r, j). -/
theorem kvHalf_apply (a : ℕ) (ha : a < 8) (off : ℕ) (hkv : S8x16x8192.Slices ![a, 0, 0] S1x16x8192)
    (hh : S16x8192.Slices ![0, off] S16x4096) (Bkv : FVec Ideal S8x16x8192 .f32) (r : Fin 16) (j : Fin 4096) :
    extractStridedSlice S16x4096 ![0, off]
        (shapeCast _ (extractStridedSlice S1x16x8192 ![a, 0, 0] Bkv hkv) shapeCasts_S1x16x8192_S16x8192) hh (ix2 r j)
      = Bkv (ix3 ⟨a, ha⟩ r ⟨off + j.val, Nat.lt_of_lt_of_le (Nat.add_lt_add_left j.isLt off) (hh.2 1)⟩) := by
  rw [slice2_axis1_eq, slab_apply a ha]

/-! ## One adapter's step -/

theorem isColWindow : ScatterWindow.IsColWindow scatter_S4096x12288_S1_S4096x4096_01_n_1_0 := ⟨rfl, rfl, rfl, rfl⟩

/-- The scatter's one index word. -/
theorem idx_apply (b : BitVec 32) :
    (broadcastInDim S1 ![] bcast_S_S1 (constantI S_ 32 b) : IVec S1 32) (ix1 0) = b := rfl

/-- One adapter's three scatters onto `D`, at (t, o): exactly one of the three blocks of 4096 columns holds `o`,
    and there the adapter's rank-16 product is added; the other two scatters leave the entry alone. -/
theorem step_apply (a : ℕ) (ha : a < 8)
    (hq : S8x16x4096.Slices ![a, 0, 0] S1x16x4096) (hkv hkv' : S8x16x8192.Slices ![a, 0, 0] S1x16x8192)
    (D : FVec Ideal S4096x12288 .f32) (xaV : FVec Ideal S4096x48 .f32)
    (Bq : FVec Ideal S8x16x4096 .f32) (Bkv : FVec Ideal S8x16x8192 .f32) (t : Fin 4096) (o : Fin 12288) :
    Host.scatter scatter_S4096x12288_S1_S4096x4096_01_n_1_0 FloatOps.addf
      (Host.scatter scatter_S4096x12288_S1_S4096x4096_01_n_1_0 FloatOps.addf
        (Host.scatter scatter_S4096x12288_S1_S4096x4096_01_n_1_0 FloatOps.addf D
          (broadcastInDim S1 ![] bcast_S_S1 (constantI S_ 32 0#32))
          (Host.dotGeneral dot_S4096x16_S16x4096_S4096x4096_1_0_0_1_n_n none
            (extractStridedSlice S4096x16 ![0, 0] xaV slices_S4096x48_S4096x16_0_0)
            (shapeCast _ (extractStridedSlice S1x16x4096 ![a, 0, 0] Bq hq) shapeCasts_S1x16x4096_S16x4096)))
        (broadcastInDim S1 ![] bcast_S_S1 (constantI S_ 32 4096#32))
        (Host.dotGeneral dot_S4096x16_S16x4096_S4096x4096_1_0_0_1_n_n none
          (extractStridedSlice S4096x16 ![0, 16] xaV slices_S4096x48_S4096x16_0_16)
          (extractStridedSlice S16x4096 ![0, 0]
            (shapeCast _ (extractStridedSlice S1x16x8192 ![a, 0, 0] Bkv hkv) shapeCasts_S1x16x8192_S16x8192)
            slices_S16x8192_S16x4096_0_0)))
      (broadcastInDim S1 ![] bcast_S_S1 (constantI S_ 32 8192#32))
      (Host.dotGeneral dot_S4096x16_S16x4096_S4096x4096_1_0_0_1_n_n none
        (extractStridedSlice S4096x16 ![0, 32] xaV slices_S4096x48_S4096x16_0_32)
        (extractStridedSlice S16x4096 ![0, 4096]
          (shapeCast _ (extractStridedSlice S1x16x8192 ![a, 0, 0] Bkv hkv') shapeCasts_S1x16x8192_S16x8192)
          slices_S16x8192_S16x4096_0_4096))
      (ix2 t o)
    = D (ix2 t o) + ∑ r : Fin 16, xaV (ix2 t (Spec.segcol o r)) * Spec.Bc Bq Bkv ⟨a, ha⟩ r o := by
  -- equal coordinates, equal entries
  have eX : ∀ p q : Fin 48, p.val = q.val → xaV (ix2 t p) = xaV (ix2 t q) := fun p q h => by rw [Fin.ext h]
  have eQ : ∀ (r : Fin 16) (p q : Fin 4096), p.val = q.val → Bq (ix3 ⟨a, ha⟩ r p) = Bq (ix3 ⟨a, ha⟩ r q) :=
    fun r p q h => by rw [Fin.ext h]
  have eK : ∀ (r : Fin 16) (p q : Fin 8192), p.val = q.val → Bkv (ix3 ⟨a, ha⟩ r p) = Bkv (ix3 ⟨a, ha⟩ r q) :=
    fun r p q h => by rw [Fin.ext h]
  have ho := o.isLt
  -- each scatter adds inside its block of columns and keeps the entry outside it
  rw [isColWindow.scatter_apply _ _ _ _ 8192 (by rw [idx_apply]; decide) (by norm_num) t o,
    isColWindow.scatter_apply _ _ _ _ 4096 (by rw [idx_apply]; decide) (by norm_num) t o,
    isColWindow.scatter_apply _ _ _ _ 0 (by rw [idx_apply]; decide) (by norm_num) t o]
  rcases Nat.lt_or_ge o.val 4096 with h1 | h1
  · -- a query column: s = 0
    have n3 : ¬(8192 ≤ o.val ∧ o.val < 8192 + 4096) := by omega
    have n2 : ¬(4096 ≤ o.val ∧ o.val < 4096 + 4096) := by omega
    have p1 : 0 ≤ o.val ∧ o.val < 0 + 4096 := by omega
    rw [dif_neg n3, dif_neg n2, dif_pos p1, Ideal.addf_def, dot16_apply]
    refine congrArg (D (ix2 t o) + ·) (Finset.sum_congr rfl fun r _ => ?_)
    rw [slab_apply a ha]
    unfold Spec.Bc Spec.segcol
    rw [dif_pos h1]
    refine congrArg₂ (· * ·) (eX _ _ ?_) (eQ r _ _ ?_)
    · show 0 + r.val = o.val / 4096 * 16 + r.val
      omega
    · show o.val - 0 = o.val
      omega
  · rcases Nat.lt_or_ge o.val 8192 with h2 | h2
    · -- a key column: s = 1
      have n3 : ¬(8192 ≤ o.val ∧ o.val < 8192 + 4096) := by omega
      have p2 : 4096 ≤ o.val ∧ o.val < 4096 + 4096 := by omega
      have n1 : ¬(0 ≤ o.val ∧ o.val < 0 + 4096) := by omega
      rw [dif_neg n3, dif_pos p2, dif_neg n1, Ideal.addf_def, dot16_apply]
      refine congrArg (D (ix2 t o) + ·) (Finset.sum_congr rfl fun r _ => ?_)
      rw [kvHalf_apply a ha]
      unfold Spec.Bc Spec.segcol
      rw [dif_neg (by omega : ¬o.val < 4096)]
      refine congrArg₂ (· * ·) (eX _ _ ?_) (eK r _ _ ?_)
      · show 16 + r.val = o.val / 4096 * 16 + r.val
        omega
      · show 0 + (o.val - 4096) = o.val - 4096
        omega
    · -- a value column: s = 2
      have p3 : 8192 ≤ o.val ∧ o.val < 8192 + 4096 := by omega
      have n2 : ¬(4096 ≤ o.val ∧ o.val < 4096 + 4096) := by omega
      have n1 : ¬(0 ≤ o.val ∧ o.val < 0 + 4096) := by omega
      rw [dif_pos p3, dif_neg n2, dif_neg n1, Ideal.addf_def, dot16_apply]
      refine congrArg (D (ix2 t o) + ·) (Finset.sum_congr rfl fun r _ => ?_)
      rw [kvHalf_apply a ha]
      unfold Spec.Bc Spec.segcol
      rw [dif_neg (by omega : ¬o.val < 4096)]
      refine congrArg₂ (· * ·) (eX _ _ ?_) (eK r _ _ ?_)
      · show 32 + r.val = o.val / 4096 * 16 + r.val
        omega
      · show 4096 + (o.val - 8192) = o.val - 4096
        omega

/-! ## The zero array and the base projection -/

/-- The array the updates are added onto starts at zero. -/
theorem zero_apply (t : Fin 4096) (o : Fin 12288) :
    broadcastInDim S4096x12288 ![] bcast_S_S4096x12288 (constant (F := Ideal) S_ .f32 0x00000000#32) (ix2 t o) = 0 := by
  show Ideal.ofBits .f32 0x00000000#32 = 0
  exact Ideal.ofBits_zero_f32

/-- The base projection at (t, o). -/
theorem base_apply (x : FVec Ideal S4096x4096 .f32) (W : FVec Ideal S4096x12288 .f32) (t : Fin 4096) (o : Fin 12288) :
    Host.dotGeneral dot_S4096x4096_S4096x12288_S4096x12288_1_0_0_1_n_n none x W (ix2 t o)
      = ∑ h : Fin 4096, x (ix2 t h) * W (ix2 h o) := by
  simp only [Host.dotGeneral]
  exact isPlainW.dotGeneral_apply none _ x W t o

/-! ## An adapter's contribution -/

/-- Adapter `a`'s contribution to entry (t, o) of the result. -/
def T (x : FVec Ideal S4096x4096 .f32) (widx : IVec S4096 32) (A : FVec Ideal S8x4096x48 .f32)
    (Bq : FVec Ideal S8x16x4096 .f32) (Bkv : FVec Ideal S8x16x8192 .f32) (a : Fin 8) (t : Fin 4096) (o : Fin 12288) : EReal :=
  ∑ r : Fin 16, (Spec.xa x A a t (Spec.segcol o r) * Spec.mask widx a t) * Spec.Bc Bq Bkv a r o

/-- The result is the base projection plus the eight contributions. -/
theorem G_eq (x : FVec Ideal S4096x4096 .f32) (widx : IVec S4096 32) (W : FVec Ideal S4096x12288 .f32)
    (A : FVec Ideal S8x4096x48 .f32) (Bq : FVec Ideal S8x16x4096 .f32) (Bkv : FVec Ideal S8x16x8192 .f32)
    (t : Fin 4096) (o : Fin 12288) :
    Spec.G x widx W A Bq Bkv t o
      = (∑ h : Fin 4096, x (ix2 t h) * W (ix2 h o)) + ∑ a : Fin 8, T x widx A Bq Bkv a t o := rfl

end Cert.ReferenceIdeal.Hand

end
-- ==== Proof.RI.RefValue.lean ====
/-
  The reference's value at the ideal instance.

  The run of the reference's host program ends with the result buffer at one composed term of the six arguments'
  launch contents: the base projection plus twenty-four scatters nested one inside the other over a zero array, three
  for each of the eight adapters, in the adapters' order. Read at an entry (t, o) and peeled one adapter at a time —
  each adapter's three scatters add that adapter's contribution  T a t o = ∑ r < 16, (xa_a[t, 16 s + r] · mask_a[t]) ·
  Bc[a, r, o]  to the entry and nothing else — the nest is

      ((((((((0 + T 0) + T 1) + T 2) + T 3) + T 4) + T 5) + T 6) + T 7) = ∑ a < 8, T a t o,

  and with the base projection in front this is the function G of the specification. The nest is never unfolded as a
  whole: the run names the array after three and after six adapters, and each name is opened once, by three steps.
-/
import proofs.«408339_j30262339567848_3_alg».proof.Proof.Gen.ReferenceIdeal.Run
import proofs.«408339_j30262339567848_3_alg».proof.Proof.RI.RefStage

noncomputable section

namespace Cert.ReferenceIdeal.Hand

open Idealize.ShloMosaic Idealize.ShloMosaic.ValueIdx Idealize.ShloMosaic.TcCoe Idealize.SL.Sem Idealize.ShloMosaic.StableHlo
open Cert.ReferenceIdeal Cert.ReferenceIdeal.Value Cert.Hand

/-! ## The six arguments' launch contents -/

abbrev aX (V0 : Valuation τ sig (Elt Ideal)) : FVec Ideal S4096x4096 .f32 := V0 (Proc.devRef .tc main_arg0)
abbrev aI (V0 : Valuation τ sig (Elt Ideal)) : IVec S4096 32 := V0 (Proc.devRef .tc main_arg1)
abbrev aW (V0 : Valuation τ sig (Elt Ideal)) : FVec Ideal S4096x12288 .f32 := V0 (Proc.devRef .tc main_arg2)
abbrev aA (V0 : Valuation τ sig (Elt Ideal)) : FVec Ideal S8x4096x48 .f32 := V0 (Proc.devRef .tc main_arg3)
abbrev aQ (V0 : Valuation τ sig (Elt Ideal)) : FVec Ideal S8x16x4096 .f32 := V0 (Proc.devRef .tc main_arg4)
abbrev aK (V0 : Valuation τ sig (Elt Ideal)) : FVec Ideal S8x16x8192 .f32 := V0 (Proc.devRef .tc main_arg5)

/-- Adapter `a`'s contribution to entry (t, o), of the launch contents. -/
abbrev TV (V0 : Valuation τ sig (Elt Ideal)) (a : Fin 8) (t : Fin 4096) (o : Fin 12288) : EReal :=
  T (aX V0) (aI V0) (aA V0) (aQ V0) (aK V0) a t o

variable (V0 : Valuation τ sig (Elt Ideal))

/-! ## Each adapter's masked down-projection product, at an entry -/

theorem v10_apply (t : Fin 4096) (c : Fin 48) :
    res_main_v10 V0 (ix2 t c) = Spec.xa (aX V0) (aA V0) 0 t c * Spec.mask (aI V0) 0 t :=
  xaR_apply 0 (by decide) _ (aX V0) (aI V0) (aA V0) t c
theorem v39_apply (t : Fin 4096) (c : Fin 48) :
    res_main_v39 V0 (ix2 t c) = Spec.xa (aX V0) (aA V0) 1 t c * Spec.mask (aI V0) 1 t :=
  xaR_apply 1 (by decide) _ (aX V0) (aI V0) (aA V0) t c
theorem v68_apply (t : Fin 4096) (c : Fin 48) :
    res_main_v68 V0 (ix2 t c) = Spec.xa (aX V0) (aA V0) 2 t c * Spec.mask (aI V0) 2 t :=
  xaR_apply 2 (by decide) _ (aX V0) (aI V0) (aA V0) t c
theorem v97_apply (t : Fin 4096) (c : Fin 48) :
    res_main_v97 V0 (ix2 t c) = Spec.xa (aX V0) (aA V0) 3 t c * Spec.mask (aI V0) 3 t :=
  xaR_apply 3 (by decide) _ (aX V0) (aI V0) (aA V0) t c
theorem v126_apply (t : Fin 4096) (c : Fin 48) :
    res_main_v126 V0 (ix2 t c) = Spec.xa (aX V0) (aA V0) 4 t c * Spec.mask (aI V0) 4 t :=
  xaR_apply 4 (by decide) _ (aX V0) (aI V0) (aA V0) t c
theorem v155_apply (t : Fin 4096) (c : Fin 48) :
    res_main_v155 V0 (ix2 t c) = Spec.xa (aX V0) (aA V0) 5 t c * Spec.mask (aI V0) 5 t :=
  xaR_apply 5 (by decide) _ (aX V0) (aI V0) (aA V0) t c
theorem v184_apply (t : Fin 4096) (c : Fin 48) :
    res_main_v184 V0 (ix2 t c) = Spec.xa (aX V0) (aA V0) 6 t c * Spec.mask (aI V0) 6 t :=
  xaR_apply 6 (by decide) _ (aX V0) (aI V0) (aA V0) t c
theorem v213_apply (t : Fin 4096) (c : Fin 48) :
    res_main_v213 V0 (ix2 t c) = Spec.xa (aX V0) (aA V0) 7 t c * Spec.mask (aI V0) 7 t :=
  xaR_apply 7 (by decide) _ (aX V0) (aI V0) (aA V0) t c

/-! ## The running array after three and after six adapters -/

/-- After adapters 0, 1, 2: their contributions added one after the other onto zero. -/
theorem v88_apply (t : Fin 4096) (o : Fin 12288) :
    res_main_v88 V0 (ix2 t o) = ((0 + TV V0 0 t o) + TV V0 1 t o) + TV V0 2 t o := by
  unfold res_main_v88
  rw [step_apply 2 (by decide), step_apply 1 (by decide), step_apply 0 (by decide), zero_apply]
  simp only [v10_apply, v39_apply, v68_apply]
  rfl

/-- After adapters 3, 4, 5. -/
theorem v175_apply (t : Fin 4096) (o : Fin 12288) :
    res_main_v175 V0 (ix2 t o)
      = (((((0 + TV V0 0 t o) + TV V0 1 t o) + TV V0 2 t o) + TV V0 3 t o) + TV V0 4 t o) + TV V0 5 t o := by
  unfold res_main_v175
  rw [step_apply 5 (by decide), step_apply 4 (by decide), step_apply 3 (by decide), v88_apply]
  simp only [v97_apply, v126_apply, v155_apply]
  rfl

/-! ## The result -/

/-- The reference's result array is the function of the specification, of the arguments' launch contents. -/
theorem value_eq :
    val5 V0 (Proc.devRef .tc main_v234) = Spec.Gfun (aX V0) (aI V0) (aW V0) (aA V0) (aQ V0) (aK V0) := by
  refine (val5_main_v234 V0).trans ?_
  funext i
  obtain ⟨t, o, rfl⟩ : ∃ (t : Fin 4096) (o : Fin 12288), i = ix2 t o := ⟨i 0, i 1, eq_ix2 i⟩
  -- the base projection, then adapters 7 and 6 peeled off the array after six adapters
  rw [Spec.Gfun_apply, G_eq, addf_apply, base_apply, step_apply 7 (by decide), step_apply 6 (by decide), v175_apply]
  simp only [v184_apply, v213_apply]
  -- eight contributions added one after the other onto zero are their sum
  rw [← Spec.fold8 (fun a => TV V0 a t o)]
  rfl

/-- On every device, from any memory with zero counters: every weakly fair execution of the reference's @main
    terminates with the result buffer at the specification's function of the six arguments, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v234)
          = Cert.Hand.Spec.Gfun (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c).1.trans ((val5_main_v234 (launchContents m c)).symm.trans (value_eq (launchContents m c))), (h c).2⟩)
    (Value.run m ρ)

end Cert.ReferenceIdeal.Hand

end
-- ==== Proof.SpecKG.lean ====
/-
  The kernel's arrangement is the canonical one.

  The kernel's 128-wide product runs over positions j = 16 a + r (adapter a, rank r); summing over j is summing over
  a and then r. When position j of the staged activation array holds adapter a's masked rank-r chunk of segment s,
  and row j of the stacked up-projection holds adapter a's row r, the kernel's form of an entry is the canonical sum.
-/
import proofs.«408339_j30262339567848_3_alg».proof.Proof.Spec
import proofs.«408339_j30262339567848_3_alg».proof.Proof.LibBlockSum

noncomputable section

namespace Cert.Hand.Spec

open Idealize.ShloMosaic Idealize.ShloMosaic.ValueIdx

theorem adOf_block (a : Fin 8) (r : Fin 16) (h : a.val * 16 + r.val < 128) : adOf ⟨a.val * 16 + r.val, h⟩ = a :=
  Fin.ext (by show (a.val * 16 + r.val) / 16 = a.val; omega)

theorem rkOf_block (a : Fin 8) (r : Fin 16) (h : a.val * 16 + r.val < 128) : rkOf ⟨a.val * 16 + r.val, h⟩ = r :=
  Fin.ext (by show (a.val * 16 + r.val) % 16 = r.val; omega)

/-- The kernel's form of entry (t, o) is the canonical sum, given what its two low-rank arrays hold. -/
theorem KG_eq_G (x : (⟨2, ![4096, 4096]⟩ : Shape).Idx → EReal) (widx : (⟨1, ![4096]⟩ : Shape).Idx → BitVec 32)
    (W : (⟨2, ![4096, 12288]⟩ : Shape).Idx → EReal) (A : (⟨3, ![8, 4096, 48]⟩ : Shape).Idx → EReal)
    (Bq : (⟨3, ![8, 16, 4096]⟩ : Shape).Idx → EReal) (Bkv : (⟨3, ![8, 16, 8192]⟩ : Shape).Idx → EReal)
    (xag : (⟨3, ![3, 4096, 128]⟩ : Shape).Idx → EReal) (bst : (⟨2, ![128, 12288]⟩ : Shape).Idx → EReal)
    (hxag : ∀ (s : Fin 3) (t : Fin 4096) (j : Fin 128),
      xag (ix3 s t j) = xa x A (adOf j) t ⟨s.val * 16 + j.val % 16, by omega⟩ * mask widx (adOf j) t)
    (hbst : ∀ (j : Fin 128) (o : Fin 12288), bst (ix2 j o) = Bc Bq Bkv (adOf j) (rkOf j) o)
    (t : Fin 4096) (o : Fin 12288) :
    KG x W xag bst t o = G x widx W A Bq Bkv t o := by
  unfold KG G
  refine congrArg (fun z => (∑ h : Fin 4096, x (ix2 t h) * W (ix2 h o)) + z) ?_
  rw [← Cert.Hand.BlockSum.sum_blocks_cast 8 16 128 rfl
    (fun j : Fin 128 => xag (ix3 (⟨o.val / 4096, by omega⟩ : Fin 3) t j) * bst (ix2 j o))]
  refine Finset.sum_congr rfl fun a _ => Finset.sum_congr rfl fun r _ => ?_
  have hlt : a.val * 16 + r.val < 128 := by omega
  show xag (ix3 (⟨o.val / 4096, by omega⟩ : Fin 3) t ⟨a.val * 16 + r.val, hlt⟩) * bst (ix2 ⟨a.val * 16 + r.val, hlt⟩ o) = _
  rw [hxag, hbst, adOf_block a r hlt, rkOf_block a r hlt]
  have hc : (⟨(⟨o.val / 4096, by omega⟩ : Fin 3).val * 16 + (⟨a.val * 16 + r.val, hlt⟩ : Fin 128).val % 16, by
      show o.val / 4096 * 16 + (a.val * 16 + r.val) % 16 < 48; omega⟩ : Fin 48) = segcol o r :=
    Fin.ext (by show o.val / 4096 * 16 + (a.val * 16 + r.val) % 16 = o.val / 4096 * 16 + r.val; omega)
  rw [hc]

/-- The whole arrays. -/
theorem KGfun_eq_Gfun (x widx W A Bq Bkv) (xag : (⟨3, ![3, 4096, 128]⟩ : Shape).Idx → EReal)
    (bst : (⟨2, ![128, 12288]⟩ : Shape).Idx → EReal)
    (hxag : ∀ (s : Fin 3) (t : Fin 4096) (j : Fin 128),
      xag (ix3 s t j) = xa x A (adOf j) t ⟨s.val * 16 + j.val % 16, by omega⟩ * mask widx (adOf j) t)
    (hbst : ∀ (j : Fin 128) (o : Fin 12288), bst (ix2 j o) = Bc Bq Bkv (adOf j) (rkOf j) o) :
    KGfun x W xag bst = Gfun x widx W A Bq Bkv :=
  funext fun i => KG_eq_G x widx W A Bq Bkv xag bst hxag hbst (i 0) (i 1)

end Cert.Hand.Spec

end
-- ==== Proof.lean ====
/-
  The certificate's five claims.

  Both programs compute, at entry (t, o) of the [4096, 12288] result, the base projection ∑ h, x[t,h] · W[h,o] plus,
  for the segment s = o / 4096 (query, key or value), the sum over the eight adapters a and sixteen ranks r of
  ((∑ h, x[t,h] · A[a,h,16 s + r]) · mask a t) · Bc[a,r,o], where mask a t is 1 when token t uses adapter a and 0
  otherwise (Spec.lean). The kernel reaches it by accumulating the base product over four contraction blocks onto a
  zero block and adding one product of width 128 against the masked, stacked low-rank activations its host side
  prepared; the reference by masking the activations before each adapter's down-projection and adding each adapter's
  three column blocks in turn. Over the extended reals the two arrangements agree term by term: sums are regrouped
  in a commutative monoid, and the mask, being 0 or 1, may multiply before or after a contraction. No finiteness of the
  inputs is used.

  The three frames: each program runs to the end without a fault and leaves its six arguments as launched. For the
  two kernel programs (word-level and idealized, the same text at two float families) this is the pipelined region's
  launch theorem over the body's three control cases; for the reference, its run with the result dropped.
  The idealization rewrote nothing, so `preserves` has nothing to state.
-/
import proofs.«408339_j30262339567848_3_alg».proof.Defs
import proofs.«408339_j30262339567848_3_alg».proof.Proof.Gen.Kernel
import proofs.«408339_j30262339567848_3_alg».proof.Proof.Gen.KernelIdeal
import proofs.«408339_j30262339567848_3_alg».proof.Proof.Gen.ReferenceIdeal
import proofs.«408339_j30262339567848_3_alg».proof.Proof.Gen.Pre_finite_inputs
import proofs.«408339_j30262339567848_3_alg».proof.Proof.K.Frame
import proofs.«408339_j30262339567848_3_alg».proof.Proof.KI.Frame
import proofs.«408339_j30262339567848_3_alg».proof.Proof.KI.Value
import proofs.«408339_j30262339567848_3_alg».proof.Proof.KI.HostRead
import proofs.«408339_j30262339567848_3_alg».proof.Proof.RI.RefValue
import proofs.«408339_j30262339567848_3_alg».proof.Proof.SpecKG
import Idealize.ShloMosaic.Adequacy
import Idealize.ShloMosaic.Init

noncomputable section

namespace Cert.Proof

open Idealize.ShloMosaic Idealize.SL.Sem Cert.Hand

/-- The idealized kernel's run: the result array ends at the canonical function of the argument arrays, the
    arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v35) = Spec.Gfun (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) := by
  refine (θ_run (Cert.KernelIdeal.defs (F := Ideal)) _ _).mono (fun _ h c => ⟨?_,
    ((h c).2 Cert.KernelIdeal.main_arg0 (Pipeline.mem_restRefs_of Cert.KernelIdeal.main_arg0 (by decide) (by decide))).trans (Cert.KernelIdeal.Hand.V_main_arg0 m c),
    ((h c).2 Cert.KernelIdeal.main_arg1 (Pipeline.mem_restRefs_of Cert.KernelIdeal.main_arg1 (by decide) (by decide))).trans (Cert.KernelIdeal.Hand.V_main_arg1 m c),
    ((h c).2 Cert.KernelIdeal.main_arg2 (Pipeline.mem_restRefs_of Cert.KernelIdeal.main_arg2 (by decide) (by decide))).trans (Cert.KernelIdeal.Hand.V_main_arg2 m c),
    ((h c).2 Cert.KernelIdeal.main_arg3 (Pipeline.mem_restRefs_of Cert.KernelIdeal.main_arg3 (by decide) (by decide))).trans (Cert.KernelIdeal.Hand.V_main_arg3 m c),
    ((h c).2 Cert.KernelIdeal.main_arg4 (Pipeline.mem_restRefs_of Cert.KernelIdeal.main_arg4 (by decide) (by decide))).trans (Cert.KernelIdeal.Hand.V_main_arg4 m c),
    ((h c).2 Cert.KernelIdeal.main_arg5 (Pipeline.mem_restRefs_of Cert.KernelIdeal.main_arg5 (by decide) (by decide))).trans (Cert.KernelIdeal.Hand.V_main_arg5 m c)⟩)
    (Cert.KernelIdeal.Hand.run_main (F := Ideal) m ρ)
  refine ((h c).1 4).trans ((Cert.KernelIdeal.HandValue.final m c).trans ?_)
  rw [Cert.KernelIdeal.HandHost.V_v4 m c, Cert.KernelIdeal.HandHost.V_v33 m c]
  exact Spec.KGfun_eq_Gfun _ _ _ _ _ _ _ _ (Cert.KernelIdeal.HandHost.V_v32_apply m c) (Cert.KernelIdeal.HandHost.V_v34_apply m c)

theorem frame_p : Cert.frame_Kernel := fun m ρ _ => Cert.Kernel.Hand.frame (F := Bits) m ρ
theorem frame_pi : Cert.frame_KernelIdeal := fun m ρ _ => Cert.KernelIdeal.Hand.frame (F := Ideal) m ρ
theorem frame_ri : Cert.frame_ReferenceIdeal := fun m ρ _ =>
  (θ_run (Cert.ReferenceIdeal.defs (F := Ideal)) _ _).mono (fun _ h c => (h c).2) (Cert.ReferenceIdeal.Hand.ref_run m ρ)

theorem preserves : Cert.preserves_Kernel_KernelIdeal := trivial

theorem algebraic : Cert.algebraic_KernelIdeal_ReferenceIdeal := by
  intro m ρ m' ρ' _ hagree
  refine ⟨fun c => Spec.Gfun (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact kernel_run m ρ
  · refine (θ_run (Cert.ReferenceIdeal.defs (F := Ideal)) _ _).mono (fun _ h c => ⟨?_, (h c).2⟩) (Cert.ReferenceIdeal.Hand.ref_run m' ρ')
    rw [(h c).1, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
